-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v70_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v70_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg2 : IVec S8192 32) (main_v12 : IVec S_ 1) (main_v15 : IVec S_ 1) : IVec S_ 1 :=
  let main_v16 : IVec S_ 1 := andi main_v12 main_v15
  let main_c_6 : IVec S_ 32 := constantI S_ 32 8190#32
  let main_v17 : IVec S8192 32 := broadcastInDim S8192 ![] bcast_S_S8192 main_c_6
  let main_v18 : IVec S8192 1 := cmpi .sle main_arg2 main_v17
  let main_c_7 : IVec S_ 1 := constantI S_ 1 1#1
  let main_v19 : IVec S_ 1 := (fun x v => Host.reduce IntOp.andi x v reducesTo_S8192_S_d0 h_S_) main_v18 main_c_7
  let main_v20 : IVec S_ 1 := andi main_v16 main_v19
  main_v20

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_cst_2 : FVec F S_ .f32 := constant S_ .f32 0x00000000#32
  let main_v9 : FVec F S8192x512 .f32 := broadcastInDim S8192x512 ![] bcast_S_S8192x512 main_cst_2
  let main_v10 : IVec S8192x512 1 := cmpf .ogt main_arg1 main_v9
  let main_c_3 : IVec S_ 1 := constantI S_ 1 1#1
  let main_v11 : IVec S_ 1 := (fun x v => Host.reduce IntOp.andi x v reducesTo_S8192x512_S_d0_1 h_S_) main_v10 main_c_3
  let main_v12 : IVec S_ 1 := andi main_v8 main_v11
  let main_c_4 : IVec S_ 32 := constantI S_ 32 0#32
  let main_v13 : IVec S8192 32 := broadcastInDim S8192 ![] bcast_S_S8192 main_c_4
  let main_v14 : IVec S8192 1 := cmpi .sge main_arg2 main_v13
  let main_c_5 : IVec S_ 1 := constantI S_ 1 1#1
  let main_v15 : IVec S_ 1 := (fun x v => Host.reduce IntOp.andi x v reducesTo_S8192_S_d0 h_S_) main_v14 main_c_5
  fn_part1 (F := F) main_arg2 main_v12 main_v15
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8191 : Shape := ⟨2, ![8192, 8191]⟩
abbrev S2048x512 : Shape := ⟨2, ![2048, 512]⟩
abbrev S256x512 : Shape := ⟨2, ![256, 512]⟩
abbrev S2048x1 : Shape := ⟨2, ![2048, 1]⟩
abbrev S1x256 : Shape := ⟨2, ![1, 256]⟩
abbrev S2048x256 : Shape := ⟨2, ![2048, 256]⟩
abbrev S512x256 : Shape := ⟨2, ![512, 256]⟩
abbrev S2048 : Shape := ⟨1, ![2048]⟩

abbrev nBuf : Space → Nat
  | .hbm => 100
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S8192, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x512, .bf16⟩
  | .hbm, ⟨29, _⟩ => ⟨S8192x512, .f32⟩
  | .hbm, ⟨30, _⟩ => ⟨S8192x512, .bf16⟩
  | .hbm, ⟨31, _⟩ => ⟨S8192x512, .bf16⟩
  | .hbm, ⟨32, _⟩ => ⟨S8192x512, .f32⟩
  | .hbm, ⟨33, _⟩ => ⟨S8192x512, .bf16⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x512, .bf16⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S8192x1, .i32⟩
  | .hbm, ⟨51, _⟩ => ⟨S8192x512, .bf16⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192, .f32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192, .f32⟩
  | .hbm, ⟨91, _⟩ => ⟨S1x8192, .f32⟩
  | .hbm, ⟨92, _⟩ => ⟨S8192x8191, .f32⟩
  | .hbm, ⟨93, _⟩ => ⟨S8192x1, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S2048x1, .f32⟩
  | .local _ .vmem, ⟨9, _⟩ => ⟨S2048x1, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_c_10 : Ref sig .tc := ⟨.hbm, 62, rfl⟩
abbrev main_v47 : Ref sig .tc := ⟨.hbm, 63, rfl⟩
abbrev main_v48 : Ref sig .tc := ⟨.hbm, 64, rfl⟩
abbrev main_c_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_v64 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70_0 : Ref sig .tc := ⟨.hbm, 92, rfl⟩
abbrev main_v70_1 : Ref sig .tc := ⟨.hbm, 93, rfl⟩
abbrev main_v71 : Ref sig .tc := ⟨.hbm, 94, rfl⟩
abbrev main_v72 : Ref sig .tc := ⟨.hbm, 95, rfl⟩
abbrev main_cst_17 : Ref sig .tc := ⟨.hbm, 96, rfl⟩
abbrev main_v73 : Ref sig .tc := ⟨.hbm, 97, rfl⟩
abbrev main_cst_18 : Ref sig .tc := ⟨.hbm, 98, rfl⟩
abbrev main_v74 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32_28 : BitVec 32 := 31#32
  let v62 : BitVec 1 := Scalar.cmpi .eq arg1 c31_i32_28
  let v63 : BitVec 32 := Scalar.extui v62
  let c0_i32_29 : BitVec 32 := 0#32
  let v64 : BitVec 1 := Scalar.cmpi .ne v63 c0_i32_29
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S8192 : S_.BroadcastsInDim S8192 (![] : Fin 0 → Fin S8192.rank)
  bcast_S_S8192x512 : S_.BroadcastsInDim S8192x512 (![] : Fin 0 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bitsLt_bf16_f32 : FTy.bits .bf16 < FTy.bits .f32
  shapeCasts_S8192_S8192x1 : S8192.ShapeCasts S8192x1
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  iota_S2048x256_d0_w32 : S2048x256.Iotas .tc 32 [0]
  iota_S2048x256_d1_w32 : S2048x256.Iotas .tc 32 [1]
  reduces_S2048x256_S2048 : S2048x256.Reduces [1] S2048
  shapeCasts_S2048_S2048x1 : S2048.ShapeCasts S2048x1
  rotates_S2048x256_d1 : S2048x256.Rotates 1 none
  inb_S2048x256_S2048x256_0_0 : ∀ a, (![0, 0] : Fin 2 → Nat) a + S2048x256.size a ≤ S2048x256.size a
  h_S2048x256 : 0 < S2048x256.numel
  slices_S2048x256_o0_0_S2048x1 : S2048x256.Slices ![0, 0] S2048x1
  shapeCasts_S8192x1_S8192 : S8192x1.ShapeCasts S8192
  reducesTo_S8192_S_d0 : S8192.ReducesTo [0] S_
  gather_S8192_S8192x1_S8192_n_0_n_n_0_1_1_wf : GatherDims.WF S8192 S8192x1 S8192 [] [0] [] [0] [] 1 ![1]
  gather_S8192x512_S8192x1_S8192x512_1_0_n_n_0_1_1512_wf : GatherDims.WF S8192x512 S8192x1 S8192x512 [1] [0] [] [0] [] 1 ![1, 512]
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S8192x512.size a
  hwx0_2 : ∀ i : grid0.Coords, EltTy.bits .bf16 = 32 ∨ (Rect.block (s := S8192x512) S256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x512.size a
  hwx0_3 : ∀ i : grid0.Coords, EltTy.bits .bf16 = 32 ∨ (Rect.block (s := S8192x512) S256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x8192.size a
  hwx0_5 : ∀ i : grid0.Coords, EltTy.bits .f32 = 32 ∨ (Rect.block (s := S1x8192) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S2048x256.size a < S8192x8191.size a
  hwx0_6 : ∀ i : grid0.Coords, EltTy.bits .f32 = 32 ∨ (Rect.unit (s := S8192x8191) (fun a => cc0_transform_6 i a * S2048x256.size a) (fun a => (Pipeline.Clip.of (cc0_transform_6 i a) (S2048x256.size a) (S8192x8191.size a)).extent (S2048x256.size a)) fun a => Pipeline.Clip.inb (Pipeline.Clip.ok_of (hstart0_6 i a))).WholeWords (EltTy.packing .f32)
  hwxs0_6 : ∀ i : grid0.Coords, EltTy.bits .f32 = 32 ∨ (Rect.unit (s := S2048x256) (fun _ => 0) (fun a => (Pipeline.Clip.of (cc0_transform_6 i a) (S2048x256.size a) (S8192x8191.size a)).extent (S2048x256.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S8192x1.size a
  hwx0_7 : ∀ i : grid0.Coords, EltTy.bits .f32 = 32 ∨ (Rect.block (s := S8192x1) S2048x1.size (cc0_transform_7 i) (hinb0_7 i)).WholeWords (EltTy.packing .f32)

variable [Facts₀]

def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v19) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v63) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v69) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpecClip (Memref.whole main_v70_0) S2048x256.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpec (Memref.whole main_v70_1) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S8191 : Shape := ⟨1, ![8191]⟩
abbrev S1x8191 : Shape := ⟨2, ![1, 8191]⟩
abbrev S8192x1 : Shape := ⟨2, ![8192, 1]⟩
abbrev S8192x8191 : Shape := ⟨2, ![8192, 8191]⟩
abbrev S_ : Shape := ⟨0, ![]⟩
abbrev S512x8192 : Shape := ⟨2, ![512, 8192]⟩
abbrev S8192x8192 : Shape := ⟨2, ![8192, 8192]⟩
abbrev S1x8192 : Shape := ⟨2, ![1, 8192]⟩
abbrev S8192x8191x1 : Shape := ⟨3, ![8192, 8191, 1]⟩
abbrev S1 : Shape := ⟨1, ![1]⟩
abbrev S1x1x1 : Shape := ⟨3, ![1, 1, 1]⟩
abbrev S8192x1x1 : Shape := ⟨3, ![8192, 1, 1]⟩

abbrev nBuf : Space → Nat
  | .hbm => 145
  | .vmem => 0
  | .smem => 0
  | _ => 0

abbrev hbmTy0_0 (i : Nat) : BufTy := match i % 128 with
  | 0 => ⟨S8192x512, .f32⟩
  | 1 => ⟨S8192x512, .f32⟩
  | 2 => ⟨S8192, .i32⟩
  | 3 => ⟨S8192, .i32⟩
  | 4 => ⟨S8191, .i32⟩
  | 5 => ⟨S1x8191, .i32⟩
  | 6 => ⟨S1x8191, .i32⟩
  | 7 => ⟨S8192x1, .i32⟩
  | 8 => ⟨S8192x8191, .i32⟩
  | 9 => ⟨S8192x8191, .i32⟩
  | 10 => ⟨S8192x8191, .i1⟩
  | 11 => ⟨S8192x8191, .i32⟩
  | 12 => ⟨S8192x8191, .i32⟩
  | 13 => ⟨S8192x8191, .i32⟩
  | 14 => ⟨S_, .f32⟩
  | 15 => ⟨S8192x512, .f32⟩
  | 16 => ⟨S8192x512, .f32⟩
  | 17 => ⟨S8192x512, .f32⟩
  | 18 => ⟨S512x8192, .f32⟩
  | 19 => ⟨S8192x8192, .f32⟩
  | 20 => ⟨S8192x512, .f32⟩
  | 21 => ⟨S512x8192, .f32⟩
  | 22 => ⟨S8192x8192, .f32⟩
  | 23 => ⟨S8192x512, .f32⟩
  | 24 => ⟨S8192x512, .f32⟩
  | 25 => ⟨S_, .f32⟩
  | 26 => ⟨S8192, .f32⟩
  | 27 => ⟨S_, .f32⟩
  | 28 => ⟨S8192x8192, .f32⟩
  | 29 => ⟨S8192x8192, .f32⟩
  | 30 => ⟨S8192x8192, .f32⟩
  | 31 => ⟨S1x8192, .f32⟩
  | 32 => ⟨S8192x8192, .f32⟩
  | 33 => ⟨S8192x8192, .f32⟩
  | 34 => ⟨S_, .i32⟩
  | 35 => ⟨S8192x8191, .i32⟩
  | 36 => ⟨S8192x8191, .i1⟩
  | 37 => ⟨S_, .i32⟩
  | 38 => ⟨S8192x8191, .i32⟩
  | 39 => ⟨S8192x8191, .i32⟩
  | 40 => ⟨S8192x8191, .i32⟩
  | 41 => ⟨S8192x8191x1, .i32⟩
  | 42 => ⟨S1, .i32⟩
  | 43 => ⟨S_, .i32⟩
  | 44 => ⟨S8192x8191x1, .i32⟩
  | 45 => ⟨S8192x8191x1, .i1⟩
  | 46 => ⟨S1x1x1, .i32⟩
  | 47 => ⟨S8192x8191x1, .i32⟩
  | 48 => ⟨S8192x8191x1, .i1⟩
  | 49 => ⟨S8192x8191x1, .i1⟩
  | 50 => ⟨S_, .i1⟩
  | 51 => ⟨S8192x8191, .i1⟩
  | 52 => ⟨S8192x8191, .f32⟩
  | 53 => ⟨S_, .f32⟩
  | 54 => ⟨S8192x8191, .f32⟩
  | 55 => ⟨S8192x8191, .f32⟩
  | 56 => ⟨S8192x1, .i32⟩
  | 57 => ⟨S_, .i32⟩
  | 58 => ⟨S8192x1, .i32⟩
  | 59 => ⟨S8192x1, .i1⟩
  | 60 => ⟨S_, .i32⟩
  | 61 => ⟨S8192x1, .i32⟩
  | 62 => ⟨S8192x1, .i32⟩
  | 63 => ⟨S8192x1, .i32⟩
  | 64 => ⟨S8192x1x1, .i32⟩
  | 65 => ⟨S1, .i32⟩
  | 66 => ⟨S_, .i32⟩
  | 67 => ⟨S8192x1x1, .i32⟩
  | 68 => ⟨S8192x1x1, .i1⟩
  | 69 => ⟨S1x1x1, .i32⟩
  | 70 => ⟨S8192x1x1, .i32⟩
  | 71 => ⟨S8192x1x1, .i1⟩
  | 72 => ⟨S8192x1x1, .i1⟩
  | 73 => ⟨S_, .i1⟩
  | 74 => ⟨S8192x1, .i1⟩
  | 75 => ⟨S8192x1, .f32⟩
  | 76 => ⟨S_, .f32⟩
  | 77 => ⟨S8192x1, .f32⟩
  | 78 => ⟨S8192x1, .f32⟩
  | 79 => ⟨S8192x8191, .f32⟩
  | 80 => ⟨S8192x8191, .f32⟩
  | 81 => ⟨S_, .f32⟩
  | 82 => ⟨S8192x8191, .f32⟩
  | 83 => ⟨S8192x8191, .f32⟩
  | 84 => ⟨S8192x8191, .f32⟩
  | 85 => ⟨S8192x1, .i32⟩
  | 86 => ⟨S_, .i32⟩
  | 87 => ⟨S8192x1, .i32⟩
  | 88 => ⟨S8192x1, .i1⟩
  | 89 => ⟨S_, .i32⟩
  | 90 => ⟨S8192x1, .i32⟩
  | 91 => ⟨S8192x1, .i32⟩
  | 92 => ⟨S8192x1, .i32⟩
  | 93 => ⟨S8192x1x1, .i32⟩
  | 94 => ⟨S1, .i32⟩
  | 95 => ⟨S_, .i32⟩
  | 96 => ⟨S8192x1x1, .i32⟩
  | 97 => ⟨S8192x1x1, .i1⟩
  | 98 => ⟨S1x1x1, .i32⟩
  | 99 => ⟨S8192x1x1, .i32⟩
  | 100 => ⟨S8192x1x1, .i1⟩
  | 101 => ⟨S8192x1x1, .i1⟩
  | 102 => ⟨S_, .i1⟩
  | 103 => ⟨S8192x1, .i1⟩
  | 104 => ⟨S8192x1, .i32⟩
  | 105 => ⟨S_, .i32⟩
  | 106 => ⟨S8192x1, .i32⟩
  | 107 => ⟨S8192x1, .i32⟩
  | 108 => ⟨S8192, .i32⟩
  | 109 => ⟨S8192x512, .f32⟩
  | 110 => ⟨S_, .f32⟩
  | 111 => ⟨S8192, .f32⟩
  | 112 => ⟨S8192x1, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192, .f32⟩
  | 122 => ⟨S_, .i32⟩
  | 123 => ⟨S8192x8191, .i32⟩
  | 124 => ⟨S8192x8191, .i1⟩
  | 125 => ⟨S_, .i32⟩
  | 126 => ⟨S8192x8191, .i32⟩
  | 127 => ⟨S8192x8191, .i32⟩
  | _ => ⟨S8192x512, .f32⟩

abbrev hbmTy0_1 (i : Nat) : BufTy := match i % 128 with
  | 0 => ⟨S8192x8191, .i32⟩
  | 1 => ⟨S8192x8191x1, .i32⟩
  | 2 => ⟨S8192x8191, .f32⟩
  | 3 => ⟨S8192x8191, .f32⟩
  | 4 => ⟨S8192x8191, .f32⟩
  | 5 => ⟨S_, .f32⟩
  | 6 => ⟨S8192x8191, .f32⟩
  | 7 => ⟨S8192x8191, .f32⟩
  | 8 => ⟨S8192x8191, .f32⟩
  | 9 => ⟨S8192x8191, .f32⟩
  | 10 => ⟨S_, .f32⟩
  | 11 => ⟨S8192, .f32⟩
  | 12 => ⟨S8192, .f32⟩
  | 13 => ⟨S_, .f32⟩
  | 14 => ⟨S_, .f32⟩
  | 15 => ⟨S_, .f32⟩
  | 16 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v28 : Ref sig .tc := ⟨.hbm, 55, rfl⟩
abbrev main_v29 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst_2 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_c_4 : Ref sig .tc := ⟨.hbm, 105, rfl⟩
abbrev main_call2_v14 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_cst_3 : Ref sig .tc := ⟨.hbm, 110, rfl⟩
abbrev main_v40 : Ref sig .tc := ⟨.hbm, 111, rfl⟩
abbrev main_v41 : Ref sig .tc := ⟨.hbm, 112, rfl⟩
abbrev main_c : Ref sig .tc := ⟨.hbm, 113, rfl⟩
abbrev main_v42 : Ref sig .tc := ⟨.hbm, 114, rfl⟩
abbrev main_v43 : Ref sig .tc := ⟨.hbm, 115, rfl⟩
abbrev main_c_4 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_c_5 : Ref sig .tc := ⟨.hbm, 122, rfl⟩
abbrev main_v49 : Ref sig .tc := ⟨.hbm, 123, rfl⟩
abbrev main_v50 : Ref sig .tc := ⟨.hbm, 124, rfl⟩
abbrev main_c_6 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_cst_7 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_cst_8 : Ref sig .tc := ⟨.hbm, 138, rfl⟩
abbrev main_v62 : Ref sig .tc := ⟨.hbm, 139, rfl⟩
abbrev main_v63 : Ref sig .tc := ⟨.hbm, 140, rfl⟩
abbrev main_cst_9 : Ref sig .tc := ⟨.hbm, 141, rfl⟩
abbrev main_v64 : Ref sig .tc := ⟨.hbm, 142, rfl⟩
abbrev main_cst_10 : Ref sig .tc := ⟨.hbm, 143, rfl⟩
abbrev main_v65 : Ref sig .tc := ⟨.hbm, 144, rfl⟩

abbrev nD : Nat := 1
abbrev τ : Topo := Topo.v7x

variable {F : FTy → Type} [FloatOps F]

class Facts₀ : Prop where
  bcast_S8191_S1x8191_1 : S8191.BroadcastsInDim S1x8191 (![1] : Fin 1 → Fin S1x8191.rank)
  bcast_S8192_S8192x1_0 : S8192.BroadcastsInDim S8192x1 (![0] : Fin 1 → Fin S8192x1.rank)
  bcast_S1x8191_S8192x8191_0_1 : S1x8191.BroadcastsInDim S8192x8191 (![0, 1] : Fin 2 → Fin S8192x8191.rank)
  bcast_S8192x1_S8192x8191_0_1 : S8192x1.BroadcastsInDim S8192x8191 (![0, 1] : Fin 2 → Fin S8192x8191.rank)
  natLt_1_32 : 1 < 32
  bcast_S_S8192x512 : S_.BroadcastsInDim S8192x512 (![] : Fin 0 → Fin S8192x512.rank)
  transposes_S8192x512_S512x8192_1_0 : S8192x512.Transposes [1, 0] S512x8192
  reducesTo_S8192x512_S8192_d1 : S8192x512.ReducesTo [1] S8192
  h_S_ : 0 < S_.numel
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8191 : S_.BroadcastsInDim S8192x8191 (![] : Fin 0 → Fin S8192x8191.rank)
  shapeCasts_S8192x8191_S8192x8191x1 : S8192x8191.ShapeCasts S8192x8191x1
  bcast_S_S8192x8191x1 : S_.BroadcastsInDim S8192x8191x1 (![] : Fin 0 → Fin S8192x8191x1.rank)
  bcast_S1_S1x1x1_2 : S1.BroadcastsInDim S1x1x1 (![2] : Fin 1 → Fin S1x1x1.rank)
  bcast_S1x1x1_S8192x8191x1_0_1_2 : S1x1x1.BroadcastsInDim S8192x8191x1 (![0, 1, 2] : Fin 3 → Fin S8192x8191x1.rank)
  reducesTo_S8192x8191x1_S8192x8191_d2 : S8192x8191x1.ReducesTo [2] S8192x8191
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bcast_S8192x8191_S8192x8191x1_0_1 : S8192x8191.BroadcastsInDim S8192x8191x1 (![0, 1] : Fin 2 → Fin S8192x8191x1.rank)
  reducesTo_S8192x8191_S8192_d1 : S8192x8191.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []
  gather_S8192x8192_S8192x8191x1_S8192x8191_n_1_0_0_1_2_11_wf : GatherDims.WF S8192x8192 S8192x8191x1 S8192x8191 [] [1] [0] [1] [0] 2 ![1, 1]
  gather_S8192x8191_S8192x1x1_S8192x1_n_1_0_0_1_2_11_wf : GatherDims.WF S8192x8191 S8192x1x1 S8192x1 [] [1] [0] [1] [0] 2 ![1, 1]
  gather_S8192_S8192x1_S8192_n_0_n_n_0_1_1_wf : GatherDims.WF S8192 S8192x1 S8192 [] [0] [] [0] [] 1 ![1]
  gather_S8192_S8192x8191x1_S8192x8191_n_0_n_n_0_2_1_wf : GatherDims.WF S8192 S8192x8191x1 S8192x8191 [] [0] [] [0] [] 2 ![1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S8192x8191x1_S8192x8191_n_1_0_0_1_2_11 : GatherDims S8192x8192 S8192x8191x1 S8192x8191 where
  offsetDims := []
  collapsedSliceDims := [1]
  operandBatchingDims := [0]
  startIndicesBatchingDims := [0]
  startIndexMap := [1]
  indexVectorDim := 2
  sliceSizes := ![1, 1]
  wf := gather_S8192x8192_S8192x8191x1_S8192x8191_n_1_0_0_1_2_11_wf
def gather_S8192x8191_S8192x1x1_S8192x1_n_1_0_0_1_2_11 : GatherDims S8192x8191 S8192x1x1 S8192x1 where
  offsetDims := []
  collapsedSliceDims := [1]
  operandBatchingDims := [0]
  startIndicesBatchingDims := [0]
  startIndexMap := [1]
  indexVectorDim := 2
  sliceSizes := ![1, 1]
  wf := gather_S8192x8191_S8192x1x1_S8192x1_n_1_0_0_1_2_11_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S8192_S8192x8191x1_S8192x8191_n_0_n_n_0_2_1 : GatherDims S8192 S8192x8191x1 S8192x8191 where
  offsetDims := []
  collapsedSliceDims := [0]
  operandBatchingDims := []
  startIndicesBatchingDims := []
  startIndexMap := [0]
  indexVectorDim := 2
  sliceSizes := ![1]
  wf := gather_S8192_S8192x8191x1_S8192x8191_n_0_n_n_0_2_1_wf

class Facts : Prop extends Facts₀ where

variable [Facts]
-- ==== Proof.Spec.lean ====
/-
  The mathematics of the statement, with no program in sight.

  Inputs: a feature matrix `X` and a matrix of variances `Sg`, both 8192 × 512 over the extended reals, and for every
  row `b` a label `ℓ b` among the 8191 columns that are left when column `b` itself is skipped.  Skipping column `b`
  is `Fin.succAbove`: the `k`-th remaining column is `b.succAbove k` (it is `k` below `b` and `k + 1` from `b` on).

  Both programs compute, for rows `i`, `j`, the weighted squared distance
  `dist i j = ∑ d, xᵢd² / σⱼd − 2 ∑ d, xᵢd xⱼd / σⱼd + ∑ d, xⱼd² / σⱼd`, the log-volume `ls i = ∑ d, log σᵢd`, the
  positive sample `pos b = b.succAbove (ℓ b)` and `gt b = dist b (pos b)`.
  The reference then forms `exp (½ (ls b − ls (pos j))) · exp (0.1 (gt b − dist b j))` at `j = b.succAbove k`;
  the kernel forms ONE exponential `exp (r b + c j − 0.1 T1 b j + 0.2 T2 b j)` with the row part
  `r b = 0.1 gt b + ½ ls b` and the column part `c j = −0.1 t3 j − ½ ls (pos j)`, over ALL 8192 columns with the diagonal's
  exponent replaced by `−∞` (so that entry is `0`), and reads the skip-self matrix out of it.
  The loss is the mean over rows of the log of the row sum.
  The float words are kept as words: `0.1`, `0.2`, `−0.1`, `½`, `2`, `1`, `8192` in f32.
-/
import Idealize.ShloMosaic.PureOps.Ideal
import Idealize.ShloMosaic.Lib.ValueIdx

noncomputable section

open Idealize.ShloMosaic
open scoped BigOperators

namespace Cert.SkipSelf

/-- The f32 words the two programs carry, read at the extended reals. -/
abbrev w1 : EReal := Ideal.ofBits .f32 0x3F800000#32      -- 1.0
abbrev w2 : EReal := Ideal.ofBits .f32 0x40000000#32      -- 2.0
abbrev w01 : EReal := Ideal.ofBits .f32 0x3DCCCCCD#32     -- f32(0.1)
abbrev w02 : EReal := Ideal.ofBits .f32 0x3E4CCCCD#32     -- f32(0.2) = 2 · f32(0.1)
abbrev wm01 : EReal := Ideal.ofBits .f32 0xBDCCCCCD#32    -- −f32(0.1)
abbrev w05 : EReal := Ideal.ofBits .f32 0x3F000000#32     -- 0.5
abbrev w8192 : EReal := Ideal.ofBits .f32 0x46000000#32   -- 8192.0

abbrev Mat := Fin 8192 → Fin 512 → EReal

variable (X Sg : Mat) (ℓ : Fin 8192 → Fin 8191)

/-- `1 / σ`, the host's quotient of the constant one. -/
def inv (j : Fin 8192) (d : Fin 512) : EReal := Ideal.div w1 (Sg j d)

/-- The log-volume of row `i`. -/
def ls (i : Fin 8192) : EReal := ∑ d, Ideal.log (Sg i d)

/-- `∑ d, xⱼd² / σⱼd`. -/
def t3 (j : Fin 8192) : EReal := ∑ d, (X j d * X j d) * inv Sg j d

/-- `∑ d, xᵢd² / σⱼd`. -/
def T1 (i j : Fin 8192) : EReal := ∑ d, (X i d * X i d) * inv Sg j d

/-- `∑ d, xᵢd (xⱼd / σⱼd)`. -/
def T2 (i j : Fin 8192) : EReal := ∑ d, X i d * (X j d * inv Sg j d)

/-- The weighted squared distance, grouped as both programs group it. -/
def dist (i j : Fin 8192) : EReal := (T1 X Sg i j - w2 * T2 X Sg i j) + t3 X Sg j

/-- The positive sample of row `b`: its label, counted among the columns other than `b`. -/
def pos (b : Fin 8192) : Fin 8192 := b.succAbove (ℓ b)

/-- The distance of row `b` to its positive sample. -/
def gt (b : Fin 8192) : EReal := dist X Sg b (pos ℓ b)

/-! ### The kernel's form -/

/-- The row part of the kernel's exponent. -/
def rK (i : Fin 8192) : EReal := w01 * gt X Sg ℓ i + w05 * ls Sg i

/-- The column part of the kernel's exponent. -/
def cK (j : Fin 8192) : EReal := wm01 * t3 X Sg j - w05 * ls Sg (pos ℓ j)

/-- The kernel's exponent off the diagonal. -/
def argK (i j : Fin 8192) : EReal := ((rK X Sg ℓ i + cK X Sg ℓ j) - w01 * T1 X Sg i j) + w02 * T2 X Sg i j

/-- The kernel's full 8192 × 8192 matrix: the diagonal's exponent is `−∞`. -/
def M (i j : Fin 8192) : EReal := Ideal.exp (if i = j then ⊥ else argK X Sg ℓ i j)

/-- The kernel's skip-self matrix. -/
def logitK (b : Fin 8192) (k : Fin 8191) : EReal := M X Sg ℓ b (b.succAbove k)

/-- The kernel's row sum, over all 8192 columns. -/
def rowK (i : Fin 8192) : EReal := ∑ j, M X Sg ℓ i j

/-- The kernel's loss. -/
def lossK : EReal := Ideal.div (∑ i, Ideal.log (rowK X Sg ℓ i)) w8192

/-! ### The reference's form -/

/-- The reference's skip-self matrix: the volume ratio times the distance factor. -/
def logitR (b : Fin 8192) (k : Fin 8191) : EReal :=
  Ideal.exp (w05 * (ls Sg b - ls Sg (pos ℓ (b.succAbove k))))
    * Ideal.exp (w01 * (gt X Sg ℓ b - dist X Sg b (b.succAbove k)))

/-- The reference's loss. -/
def lossR : EReal := Ideal.div (∑ b, Ideal.log (∑ k, logitR X Sg ℓ b k)) w8192

/-! ### The hypotheses the bridge uses -/

/-- Every feature is a real number. -/
def FiniteX : Prop := ∀ i d, ∃ r : ℝ, X i d = (r : EReal)

/-- Every variance is a positive real number. -/
def PosS : Prop := ∀ i d, ∃ r : ℝ, 0 < r ∧ Sg i d = (r : EReal)

/-- The matrix a rank-2 array of extended reals is. -/
def matOf {a b : Nat} (x : (⟨2, ![a, b]⟩ : Shape).Idx → EReal) : Fin a → Fin b → EReal := fun i d => x (ValueIdx.ix2 i d)

/-- The label array `l` (32-bit words) holds the labels `ℓ`. -/
def Lab (l : (⟨1, ![8192]⟩ : Shape).Idx → BitVec 32) : Prop := ∀ b : Fin 8192, l (ValueIdx.ix1 b) = BitVec.ofNat 32 (ℓ b).val

end Cert.SkipSelf

end
-- ==== Proof.Tile.lean ====
/-
  One grid point of the kernel, as pure functions of the blocks it is handed.

  At row tile `bi` (2048 rows) and grid column step `j` the kernel works on column tile `31 − j` (256 columns): entry
  `(p, q)` of the tile sits at global row `bi · 2048 + p` and global column `(31 − j) · 256 + q`.
  `m` is the exponential of the exponent (the diagonal's exponent `−∞`); `out` is what the point stores into the
  skip-self matrix: left of the diagonal the entry itself, from the diagonal on its right neighbour, which for the
  tile's last column is the first column of the tile processed one step earlier, carried in `carry`;
  `acc` adds the tile's row sums to the running row sum; `first` is the tile's first column, carried onward.
-/
import proofs.«422816_j11381663334552_3_alg».proof.Proof.Spec

noncomputable section

open Idealize.ShloMosaic Idealize.ShloMosaic.ValueIdx
open scoped BigOperators

namespace Cert.SkipSelf.Tile

abbrev BlkA := (⟨2, ![2048, 512]⟩ : Shape).Idx → EReal
abbrev BlkB := (⟨2, ![256, 512]⟩ : Shape).Idx → EReal
abbrev ColV := (⟨2, ![2048, 1]⟩ : Shape).Idx → EReal
abbrev RowV := (⟨2, ![1, 256]⟩ : Shape).Idx → EReal
abbrev OutT := (⟨2, ![2048, 256]⟩ : Shape).Idx → EReal

/-- The global row of row `p` of row tile `bi`. -/
def grow (bi : Nat) (p : Fin 2048) : Nat := bi * 2048 + p.val

/-- The global column of column `q` of the tile worked on at grid column step `j`. -/
def gcol (j : Nat) (q : Fin 256) : Nat := (31 - j) * 256 + q.val

variable (bi j : Nat) (x0 x1 : BlkA) (x2 x3 : BlkB) (x4 : ColV) (x5 : RowV)

/-- The tile of the full matrix: `x1` holds the squared features of the rows, `x2` the inverse variances of the
    columns, `x0` the features of the rows, `x3` the features over variances of the columns, `x4` the row part and
    `x5` the column part of the exponent. -/
def m (p : Fin 2048) (q : Fin 256) : EReal :=
  Ideal.exp (if grow bi p = gcol j q then ⊥ else
    ((x4 (ix2 p 0) + x5 (ix2 0 q)) - Cert.SkipSelf.w01 * ∑ d : Fin 512, x1 (ix2 p d) * x2 (ix2 q d))
      + Cert.SkipSelf.w02 * ∑ d : Fin 512, x0 (ix2 p d) * x3 (ix2 q d))

/-- What the point stores into the skip-self matrix. -/
def out (carry : ColV) (p : Fin 2048) (q : Fin 256) : EReal :=
  if gcol j q < grow bi p then m bi j x0 x1 x2 x3 x4 x5 p q
  else if h : q.val = 255 then carry (ix2 p 0)
  else m bi j x0 x1 x2 x3 x4 x5 p ⟨q.val + 1, by have := q.isLt; omega⟩

/-- The running row sum after the point. -/
def acc (prev : ColV) (p : Fin 2048) : EReal := prev (ix2 p 0) + ∑ q : Fin 256, m bi j x0 x1 x2 x3 x4 x5 p q

/-- The tile's first column. -/
def first (p : Fin 2048) : EReal := m bi j x0 x1 x2 x3 x4 x5 p 0

end Cert.SkipSelf.Tile

end
-- ==== Proof.TileIndex.lean ====
/-
  The arithmetic of one grid point, read entry by entry at the extended reals.

  The body's pure values are the exponent tile (two products of a row block with the transpose of a column block,
  scaled and added to the row and column parts), the row and column index words, the exponential with the diagonal's
  exponent `−∞`, the row sums, the tile shifted one column to the left with the carried column in its last place,
  and the tile's first column.  Each is identified, at entry `(p, q)`, with the pure tile function of the point's blocks.
-/
import proofs.«422816_j11381663334552_3_alg».proof.Proof.Gen.KernelIdeal.Skeleton
import proofs.«422816_j11381663334552_3_alg».proof.Proof.Tile
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StableHlo.Predicate

noncomputable section

open Idealize.ShloMosaic Idealize.ShloMosaic.ValueIdx Idealize.SL.Sem
open Cert.KernelIdeal Cert.KernelIdeal.Gen
open Idealize.ShloMosaic.StableHlo.Predicate (cmpi_eq_iff slt_iff_toNat)
open scoped BigOperators

namespace Cert.SkipSelf.TileIndex

/-! ## The block product -/

theorem lhs_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The product of a row block with the transpose of a column block, into a zero accumulator, entry by entry. -/
theorem mm_apply (A : FVec Ideal S2048x512 .bf16) (B : FVec Ideal S256x512 .bf16) (p : Fin 2048) (q : Fin 256) :
    matmul (F := Ideal) dot_S2048x512_S512x256_S2048x256_1_0_0_1_n_n none A
        (transpose S512x256 [1, 0] B transposes_S256x512_p1_0_S512x256) (constant (F := Ideal) S2048x256 .f32 0x00000000#32) (ix2 p q)
      = ∑ d : Fin 512, A (ix2 p d) * B (ix2 q d) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun a => Fin.ext (by
    match a with
    | ⟨0, _⟩ => exact lhs_0 _ _
    | ⟨1, _⟩ => exact (lhs_1 _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun a => Fin.ext (by
    match a with
    | ⟨0, _⟩ => exact (rhs_0 _ _).trans hk
    | ⟨1, _⟩ => exact rhs_1 _ _)
  rw [el, er, transpose_ix2_apply]

/-! ## Index words and selects -/

/-- The row index word of entry `(p, q)`: the global row. -/
theorem row_apply (i : grid0.Coords) (p : Fin 2048) (q : Fin 256) :
    k0_pay9 i (ix2 p q) = BitVec.ofNat 32 (Tile.grow (i 0).val p) := by
  unfold k0_pay9 Tile.grow
  show BitVec.ofNat 32 (i 0).val * 2048#32 + BitVec.ofNat 32 (0 * 2048 + p.val) = _
  rw [Nat.zero_mul, Nat.zero_add, BitVec.ofNat_add, BitVec.ofNat_mul]

/-- The column index word of entry `(p, q)`: the global column of the tile worked on. -/
theorem col_apply (i : grid0.Coords) (p : Fin 2048) (q : Fin 256) :
    k0_pay1 (iota .tc S2048x256 32 [1] iota_S2048x256_d1_w32) (k0_pay10 i) (ix2 p q) = BitVec.ofNat 32 (Tile.gcol (i 1).val q) := by
  unfold k0_pay1 k0_pay10 Tile.gcol
  show (31#32 - BitVec.ofNat 32 (i 1).val) * 256#32 + BitVec.ofNat 32 (0 * 256 + q.val) = _
  have h1 : (i 1).val < 32 := (i 1).isLt
  have hs : 31#32 - BitVec.ofNat 32 (i 1).val = BitVec.ofNat 32 (31 - (i 1).val) := by
    apply BitVec.eq_of_toNat_eq
    simp only [BitVec.toNat_sub, BitVec.toNat_ofNat]
    omega
  rw [hs, Nat.zero_mul, Nat.zero_add, BitVec.ofNat_add, BitVec.ofNat_mul]

theorem grow_lt (i : grid0.Coords) (p : Fin 2048) : Tile.grow (i 0).val p < 2 ^ 31 := by
  have h0 : (i 0).val < 4 := (i 0).isLt
  have := p.isLt
  unfold Tile.grow; omega

theorem gcol_lt (i : grid0.Coords) (q : Fin 256) : Tile.gcol (i 1).val q < 2 ^ 31 := by
  have h1 : (i 1).val < 32 := (i 1).isLt
  have := q.isLt
  unfold Tile.gcol; omega

theorem toNat_ofNat_small (a : Nat) (ha : a < 2 ^ 31) : (BitVec.ofNat 32 a).toNat = a := by
  rw [BitVec.toNat_ofNat]; exact Nat.mod_eq_of_lt (by omega)

/-- A select on the equality of two small words is the `if` on the numbers. -/
theorem select_eq_small {α : Type} (a b : Nat) (ha : a < 2 ^ 31) (hb : b < 2 ^ 31) (A B : α) :
    Scalar.select (IntOp.cmpi .eq (BitVec.ofNat 32 a) (BitVec.ofNat 32 b)) A B = if a = b then A else B := by
  unfold Scalar.select
  by_cases h : a = b
  · rw [if_pos h]; exact if_pos (cmpi_eq_iff.mpr (congrArg (BitVec.ofNat 32) h))
  · rw [if_neg h]
    exact if_neg (fun hc => h (by
      have := congrArg BitVec.toNat (cmpi_eq_iff.mp hc)
      rwa [toNat_ofNat_small a ha, toNat_ofNat_small b hb] at this))

/-- A select on the signed order of two small words is the `if` on the numbers. -/
theorem select_slt_small {α : Type} (a b : Nat) (ha : a < 2 ^ 31) (hb : b < 2 ^ 31) (A B : α) :
    Scalar.select (IntOp.cmpi .slt (BitVec.ofNat 32 a) (BitVec.ofNat 32 b)) A B = if a < b then A else B := by
  unfold Scalar.select
  have key := slt_iff_toNat (a := BitVec.ofNat 32 a) (b := BitVec.ofNat 32 b)
    (by rw [toNat_ofNat_small a ha]; exact ha) (by rw [toNat_ofNat_small b hb]; exact hb)
  rw [toNat_ofNat_small a ha, toNat_ofNat_small b hb] at key
  by_cases h : a < b
  · rw [if_pos h]; exact if_pos (key.mpr h)
  · rw [if_neg h]; exact if_neg (fun hc => h (key.mp hc))

/-- The fill of the diagonal's exponent is `−∞`. -/
theorem neg_big : Named.named (F := Ideal) Cert.KernelIdeal.κ "neg_big" (φ := .f32) 0xF149F2CA#32 = (⊥ : EReal) :=
  IdealRules.named_const.ideal_named_scalar _ _ _ _ rfl

/-- A `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponent off the diagonal, entry by entry. -/
theorem arg_apply (x0 x1 : FVec Ideal S2048x512 .bf16) (x2 x3 : FVec Ideal S256x512 .bf16) (x4 : FVec Ideal S2048x1 .f32)
    (x5 : FVec Ideal S1x256 .f32) (p : Fin 2048) (q : Fin 256) :
    k0_pay8 (F := Ideal) x0 x1 x2 x3 x4 x5 (ix2 p q)
      = ((x4 (ix2 p 0) + x5 (ix2 0 q)) - Cert.SkipSelf.w01 * ∑ d : Fin 512, x1 (ix2 p d) * x2 (ix2 q d))
        + Cert.SkipSelf.w02 * ∑ d : Fin 512, x0 (ix2 p d) * x3 (ix2 q d) := by
  unfold k0_pay8
  simp only [shapeCast_self]
  show ((broadcastTo S2048x256 x4 broadcasts_S2048x1_S2048x256 (ix2 p q)
        + broadcastTo S2048x256 x5 broadcasts_S1x256_S2048x256 (ix2 p q))
      - Cert.SkipSelf.w01 * matmul (F := Ideal) dot_S2048x512_S512x256_S2048x256_1_0_0_1_n_n none x1
          (transpose S512x256 [1, 0] x2 transposes_S256x512_p1_0_S512x256) (constant (F := Ideal) S2048x256 .f32 0x00000000#32) (ix2 p q))
      + Cert.SkipSelf.w02 * matmul (F := Ideal) dot_S2048x512_S512x256_S2048x256_1_0_0_1_n_n none x0
          (transpose S512x256 [1, 0] x3 transposes_S256x512_p1_0_S512x256) (constant (F := Ideal) S2048x256 .f32 0x00000000#32) (ix2 p q) = _
  rw [mm_apply, mm_apply, broadcastTo_1b_ab_apply, broadcastTo_a1_ab_apply]

/-- The column coordinate word of entry `(p, q)`. -/
theorem lane_apply (p : Fin 2048) (q : Fin 256) :
    iota .tc S2048x256 32 [1] iota_S2048x256_d1_w32 (ix2 p q) = BitVec.ofNat 32 q.val := by
  show BitVec.ofNat 32 (0 * 256 + q.val) = _
  rw [Nat.zero_mul, Nat.zero_add]

/-- The tile of the full matrix the point computes, as a vector. -/
abbrev mvec (i : grid0.Coords) (x0 x1 : FVec Ideal S2048x512 .bf16) (x2 x3 : FVec Ideal S256x512 .bf16) (x4 : FVec Ideal S2048x1 .f32)
    (x5 : FVec Ideal S1x256 .f32) : FVec Ideal S2048x256 .f32 :=
  k0_pay2 (F := Ideal) (k0_pay8 (F := Ideal) x0 x1 x2 x3 x4 x5) (k0_pay9 i) (iota .tc S2048x256 32 [1] iota_S2048x256_d1_w32) (k0_pay10 i)

/-- The tile of the full matrix, entry by entry. -/
theorem m_apply (i : grid0.Coords) (x0 x1 : FVec Ideal S2048x512 .bf16) (x2 x3 : FVec Ideal S256x512 .bf16) (x4 : FVec Ideal S2048x1 .f32)
    (x5 : FVec Ideal S1x256 .f32) (p : Fin 2048) (q : Fin 256) :
    mvec i x0 x1 x2 x3 x4 x5 (ix2 p q) = Tile.m (i 0).val (i 1).val x0 x1 x2 x3 x4 x5 p q := by
  unfold mvec k0_pay2 Tile.m
  show Ideal.exp (Scalar.select (IntOp.cmpi .eq (k0_pay9 i (ix2 p q))
      (k0_pay1 (iota .tc S2048x256 32 [1] iota_S2048x256_d1_w32) (k0_pay10 i) (ix2 p q)))
      (Named.named (F := Ideal) Cert.KernelIdeal.κ "neg_big" (φ := .f32) 0xF149F2CA#32)
      (k0_pay8 (F := Ideal) x0 x1 x2 x3 x4 x5 (ix2 p q))) = _
  rw [row_apply, col_apply, select_eq_small _ _ (grow_lt i p) (gcol_lt i q), neg_big, arg_apply]

/-! ## Row sums, the shifted tile, the first column -/

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a `[2048, 256]` tile at row `p` is the sum over the row. -/
theorem rowsum_apply (src : FVec Ideal S2048x256 .f32) (hacc : (0x00000000#32 : BitVec 32) = 0x00000000#32) (p : Fin 2048) :
    multiReduction (F := Ideal) .add [1] S2048 src 0x00000000#32 reduces_S2048x256_S2048 (.inl rfl) hacc (ix1 p)
      = ∑ q : Fin 256, src (ix2 p q) := by
  refine (Ideal.multiReduction_add_single src 0x00000000#32 reduces_S2048x256_S2048 (.inl rfl) hacc (ix1 p)).trans ?_
  refine Finset.sum_congr rfl fun k _ => congrArg src (funext fun a => ?_)
  match a with
  | ⟨0, _⟩ => rfl
  | ⟨1, _⟩ => rfl

/-- The running row sum the point stores, entry by entry. -/
theorem acc_apply (i : grid0.Coords) (x0 x1 : FVec Ideal S2048x512 .bf16) (x2 x3 : FVec Ideal S256x512 .bf16) (x4 : FVec Ideal S2048x1 .f32)
    (x5 : FVec Ideal S1x256 .f32) (prev : FVec Ideal S2048x1 .f32) (p : Fin 2048) :
    k0_pay3 (F := Ideal) (k0_pay8 (F := Ideal) x0 x1 x2 x3 x4 x5) (k0_pay9 i) (iota .tc S2048x256 32 [1] iota_S2048x256_d1_w32) (k0_pay10 i) prev (ix2 p 0)
      = Tile.acc (i 0).val (i 1).val x0 x1 x2 x3 x4 x5 prev p := by
  unfold k0_pay3 Tile.acc
  simp only [shapeCast_self]
  show prev (ix2 p 0) + shapeCast S2048x1 (multiReduction (F := Ideal) .add [1] S2048 (mvec i x0 x1 x2 x3 x4 x5) 0x00000000#32
      reduces_S2048x256_S2048 (.inl rfl) rfl) shapeCasts_S2048_S2048x1 (ix2 p 0) = _
  rw [shapeCast_a_a1_apply, rowsum_apply]
  exact congrArg (prev (ix2 p 0) + ·) (Finset.sum_congr rfl fun q _ => m_apply i x0 x1 x2 x3 x4 x5 p q)

/-- The first column the point carries onward, entry by entry. -/
theorem first_apply (i : grid0.Coords) (x0 x1 : FVec Ideal S2048x512 .bf16) (x2 x3 : FVec Ideal S256x512 .bf16) (x4 : FVec Ideal S2048x1 .f32)
    (x5 : FVec Ideal S1x256 .f32) (p : Fin 2048) :
    k0_pay5 (F := Ideal) (k0_pay8 (F := Ideal) x0 x1 x2 x3 x4 x5) (k0_pay9 i) (iota .tc S2048x256 32 [1] iota_S2048x256_d1_w32) (k0_pay10 i) (ix2 p 0)
      = Tile.first (i 0).val (i 1).val x0 x1 x2 x3 x4 x5 p := by
  unfold k0_pay5 Tile.first
  simp only [shapeCast_self]
  show extractStridedSlice S2048x1 ![0, 0] (mvec i x0 x1 x2 x3 x4 x5) slices_S2048x256_o0_0_S2048x1 (ix2 p (0 : Fin 1)) = _
  rw [slice2_axis1_apply 0 _ _ p (0 : Fin 1) (0 : Fin 256) rfl]
  exact m_apply i x0 x1 x2 x3 x4 x5 p 0

/-- The zero column the first column step starts the running row sum from. -/
theorem zero6_apply (y : S2048x1.Idx) : k0_pay6 (F := Ideal) y = 0 := by
  unfold k0_pay6
  simp only [shapeCast_self]
  exact Ideal.ofBits_zero_f32

/-- The zero column the first column step starts the carried column from. -/
theorem zero7_apply (y : S2048x1.Idx) : k0_pay7 (F := Ideal) y = 0 := by
  unfold k0_pay7
  simp only [shapeCast_self]
  exact Ideal.ofBits_zero_f32

/-- The tile rotated one column to the left reads, at `(p, q)`, the tile at `(p, (q + 1) mod 256)`. -/
theorem rot_apply (src : FVec Ideal S2048x256 .f32) (p : Fin 2048) (q : Fin 256) :
    dynamicRotate 1 255#32 none src rotates_S2048x256_d1 (ix2 p q) = src (ix2 p ⟨(q.val + 1) % 256, Nat.mod_lt _ (by decide)⟩) := by
  refine dynamicRotate_apply (1 : Fin 2) 255#32 src rotates_S2048x256_d1 (ix2 p q) _ fun b => ?_
  match b with
  | ⟨0, _⟩ => rfl
  | ⟨1, _⟩ =>
    show (q.val + 1) % 256 = (q.val + 256 - 255 % 256) % 256
    have := q.isLt
    omega

/-- What the point stores into the skip-self matrix, entry by entry. -/
theorem out_apply (i : grid0.Coords) (x0 x1 : FVec Ideal S2048x512 .bf16) (x2 x3 : FVec Ideal S256x512 .bf16) (x4 : FVec Ideal S2048x1 .f32)
    (x5 : FVec Ideal S1x256 .f32) (carry : FVec Ideal S2048x1 .f32) (p : Fin 2048) (q : Fin 256) :
    k0_pay4 (F := Ideal) (k0_pay8 (F := Ideal) x0 x1 x2 x3 x4 x5) (k0_pay9 i) (iota .tc S2048x256 32 [1] iota_S2048x256_d1_w32) (k0_pay10 i) carry (ix2 p q)
      = Tile.out (i 0).val (i 1).val x0 x1 x2 x3 x4 x5 carry p q := by
  unfold k0_pay4 Tile.out
  simp only [shapeCast_self]
  show Scalar.select (IntOp.cmpi .slt (k0_pay1 (iota .tc S2048x256 32 [1] iota_S2048x256_d1_w32) (k0_pay10 i) (ix2 p q)) (k0_pay9 i (ix2 p q)))
      (mvec i x0 x1 x2 x3 x4 x5 (ix2 p q))
      (Scalar.select (IntOp.cmpi .eq (iota .tc S2048x256 32 [1] iota_S2048x256_d1_w32 (ix2 p q)) (BitVec.ofNat 32 255))
        (broadcastTo S2048x256 carry broadcasts_S2048x1_S2048x256 (ix2 p q))
        (dynamicRotate 1 255#32 none (mvec i x0 x1 x2 x3 x4 x5) rotates_S2048x256_d1 (ix2 p q))) = _
  have hq := q.isLt
  rw [row_apply, col_apply, lane_apply, select_slt_small _ _ (gcol_lt i q) (grow_lt i p),
    select_eq_small q.val 255 (by omega) (by decide), broadcastTo_a1_ab_apply, rot_apply, m_apply, m_apply]
  by_cases h1 : Tile.gcol (i 1).val q < Tile.grow (i 0).val p
  · rw [if_pos h1, if_pos h1]
  · rw [if_neg h1, if_neg h1]
    by_cases h2 : q.val = 255
    · rw [if_pos h2, dif_pos h2]
    · rw [if_neg h2, dif_neg h2]
      exact congrArg (Tile.m (i 0).val (i 1).val x0 x1 x2 x3 x4 x5 p) (Fin.ext (Nat.mod_eq_of_lt (by omega)))

end Cert.SkipSelf.TileIndex

end
-- ==== Proof.PiecePayloads.lean ====
/-
  What each control case of the kernel leaves behind at a grid point, as the body's pure values of the point's blocks:
  the stored block of the skip-self matrix is the shifted tile, the running row sum the tile's row sums added to the
  sum so far, the carried column the tile's first column.  In the first column step the sum so far and the carried
  column are the zero columns the step has just stored; in the last the row sum handed out is the one just stored.
  Stated for every float instance.
-/
import proofs.«422816_j11381663334552_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Cert.KernelIdeal Cert.KernelIdeal.Gen

namespace Cert.SkipSelf.PiecePayloads

variable {F : FTy → Type} [FloatOps F] [Named F]

theorem hz : (![0, 0] : Fin 2 → Nat) = fun _ => 0 := funext fun a => by fin_cases a <;> rfl

/-- Case A: the block of the skip-self matrix is the shifted tile over the zero column. -/
theorem out_A (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i) (x0 : Vec F S2048x512 .bf16) (x1 : Vec F S2048x512 .bf16) (x2 : Vec F S256x512 .bf16) (x3 : Vec F S256x512 .bf16) (x4 : Vec F S2048x1 .f32) (x5 : Vec F S1x256 .f32) :
    out0_A_6 c i arg2 harg2 arg3 harg3 arg4 harg4 arg5 harg5 arg6 harg6 arg7 harg7 arg8 harg8 arg9 harg9 arg10 harg10 arg11 harg11 hc0 hc1 x0 x1 x2 x3 x4 x5
      = k0_pay4 (k0_pay8 x0 x1 x2 x3 x4 x5) (k0_pay9 i) (iota .tc S2048x256 32 [1] iota_S2048x256_d1_w32) (k0_pay10 i) (k0_pay7 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case A: the running row sum is the tile's row sums added to the zero column. -/
theorem acc_A (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i) (x0 : Vec F S2048x512 .bf16) (x1 : Vec F S2048x512 .bf16) (x2 : Vec F S256x512 .bf16) (x3 : Vec F S256x512 .bf16) (x4 : Vec F S2048x1 .f32) (x5 : Vec F S1x256 .f32) :
    sout0_A_0 c i arg2 harg2 arg3 harg3 arg4 harg4 arg5 harg5 arg6 harg6 arg7 harg7 arg8 harg8 arg9 harg9 arg10 harg10 arg11 harg11 hc0 hc1 x0 x1 x2 x3 x4 x5
      = k0_pay3 (k0_pay8 x0 x1 x2 x3 x4 x5) (k0_pay9 i) (iota .tc S2048x256 32 [1] iota_S2048x256_d1_w32) (k0_pay10 i) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case A: the carried column is the tile's first column. -/
theorem first_A (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i) (x0 : Vec F S2048x512 .bf16) (x1 : Vec F S2048x512 .bf16) (x2 : Vec F S256x512 .bf16) (x3 : Vec F S256x512 .bf16) (x4 : Vec F S2048x1 .f32) (x5 : Vec F S1x256 .f32) :
    sout0_A_1 c i arg2 harg2 arg3 harg3 arg4 harg4 arg5 harg5 arg6 harg6 arg7 harg7 arg8 harg8 arg9 harg9 arg10 harg10 arg11 harg11 hc0 hc1 x0 x1 x2 x3 x4 x5
      = k0_pay5 (k0_pay8 x0 x1 x2 x3 x4 x5) (k0_pay9 i) (iota .tc S2048x256 32 [1] iota_S2048x256_d1_w32) (k0_pay10 i) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S2048x1) hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case B: the block of the skip-self matrix is the shifted tile over the carried column. -/
theorem out_B (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i) (x0 : Vec F S2048x512 .bf16) (x1 : Vec F S2048x512 .bf16) (x2 : Vec F S256x512 .bf16) (x3 : Vec F S256x512 .bf16) (x4 : Vec F S2048x1 .f32) (x5 : Vec F S1x256 .f32) (xs0 : Vec F S2048x1 .f32) (xs1 : Vec F S2048x1 .f32) :
    out0_B_6 c i arg2 harg2 arg3 harg3 arg4 harg4 arg5 harg5 arg6 harg6 arg7 harg7 arg8 harg8 arg9 harg9 arg10 harg10 arg11 harg11 hc0 hc1 x0 x1 x2 x3 x4 x5 xs0 xs1
      = k0_pay4 (k0_pay8 x0 x1 x2 x3 x4 x5) (k0_pay9 i) (iota .tc S2048x256 32 [1] iota_S2048x256_d1_w32) (k0_pay10 i) xs1 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case B: the running row sum is the tile's row sums added to the sum so far. -/
theorem acc_B (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i) (x0 : Vec F S2048x512 .bf16) (x1 : Vec F S2048x512 .bf16) (x2 : Vec F S256x512 .bf16) (x3 : Vec F S256x512 .bf16) (x4 : Vec F S2048x1 .f32) (x5 : Vec F S1x256 .f32) (xs0 : Vec F S2048x1 .f32) (xs1 : Vec F S2048x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1
      = k0_pay3 (k0_pay8 x0 x1 x2 x3 x4 x5) (k0_pay9 i) (iota .tc S2048x256 32 [1] iota_S2048x256_d1_w32) (k0_pay10 i) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case B: the carried column is the tile's first column. -/
theorem first_B (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i) (x0 : Vec F S2048x512 .bf16) (x1 : Vec F S2048x512 .bf16) (x2 : Vec F S256x512 .bf16) (x3 : Vec F S256x512 .bf16) (x4 : Vec F S2048x1 .f32) (x5 : Vec F S1x256 .f32) (xs0 : Vec F S2048x1 .f32) (xs1 : Vec F S2048x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1
      = k0_pay5 (k0_pay8 x0 x1 x2 x3 x4 x5) (k0_pay9 i) (iota .tc S2048x256 32 [1] iota_S2048x256_d1_w32) (k0_pay10 i) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case C: the block of the skip-self matrix is the shifted tile over the carried column. -/
theorem out_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i) (x0 : Vec F S2048x512 .bf16) (x1 : Vec F S2048x512 .bf16) (x2 : Vec F S256x512 .bf16) (x3 : Vec F S256x512 .bf16) (x4 : Vec F S2048x1 .f32) (x5 : Vec F S1x256 .f32) (xs0 : Vec F S2048x1 .f32) (xs1 : Vec F S2048x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1
      = k0_pay4 (k0_pay8 x0 x1 x2 x3 x4 x5) (k0_pay9 i) (iota .tc S2048x256 32 [1] iota_S2048x256_d1_w32) (k0_pay10 i) xs1 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case C: the running row sum is the tile's row sums added to the sum so far. -/
theorem acc_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i) (x0 : Vec F S2048x512 .bf16) (x1 : Vec F S2048x512 .bf16) (x2 : Vec F S256x512 .bf16) (x3 : Vec F S256x512 .bf16) (x4 : Vec F S2048x1 .f32) (x5 : Vec F S1x256 .f32) (xs0 : Vec F S2048x1 .f32) (xs1 : Vec F S2048x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1
      = k0_pay3 (k0_pay8 x0 x1 x2 x3 x4 x5) (k0_pay9 i) (iota .tc S2048x256 32 [1] iota_S2048x256_d1_w32) (k0_pay10 i) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case C: the carried column is the tile's first column. -/
theorem first_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i) (x0 : Vec F S2048x512 .bf16) (x1 : Vec F S2048x512 .bf16) (x2 : Vec F S256x512 .bf16) (x3 : Vec F S256x512 .bf16) (x4 : Vec F S2048x1 .f32) (x5 : Vec F S1x256 .f32) (xs0 : Vec F S2048x1 .f32) (xs1 : Vec F S2048x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1
      = k0_pay5 (k0_pay8 x0 x1 x2 x3 x4 x5) (k0_pay9 i) (iota .tc S2048x256 32 [1] iota_S2048x256_d1_w32) (k0_pay10 i) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

/-- Case C: the row-sum block handed out is the running row sum just stored. -/
theorem rowsum_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i) (x0 : Vec F S2048x512 .bf16) (x1 : Vec F S2048x512 .bf16) (x2 : Vec F S256x512 .bf16) (x3 : Vec F S256x512 .bf16) (x4 : Vec F S2048x1 .f32) (x5 : Vec F S1x256 .f32) (xs0 : Vec F S2048x1 .f32) (xs1 : Vec F S2048x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1
      = k0_pay3 (k0_pay8 x0 x1 x2 x3 x4 x5) (k0_pay9 i) (iota .tc S2048x256 32 [1] iota_S2048x256_d1_w32) (k0_pay10 i) xs0 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S2048x512) hz, View.ld_unit_zero (S := S256x512) hz, View.ld_unit_zero (S := S2048x1) hz, View.ld_unit_zero (S := S1x256) hz, View.readCov_unit_zero (S := S2048x1) _ hz]

end Cert.SkipSelf.PiecePayloads

end
-- ==== Proof.Pieces.lean ====
/-
  What each of the kernel's three control cases leaves behind at a grid point, entry by entry: the block of the
  skip-self matrix, the running row sum, the carried first column, and (at the last column step) the row-sum block.
  Case A is the first column step of a row tile (the two carried columns start from zero), case B a middle step,
  case C the last step (which also hands the row sum out).  Each is the pure tile function of the point's blocks.
-/
import proofs.«422816_j11381663334552_3_alg».proof.Proof.Gen.KernelIdeal.Frame
import proofs.«422816_j11381663334552_3_alg».proof.Proof.Tile
import proofs.«422816_j11381663334552_3_alg».proof.Proof.TileIndex
import proofs.«422816_j11381663334552_3_alg».proof.Proof.PiecePayloads

noncomputable section

open Idealize.ShloMosaic Idealize.ShloMosaic.ValueIdx Idealize.SL.Sem
open Cert.KernelIdeal Cert.KernelIdeal.Gen

namespace Cert.SkipSelf.Pieces

/-- Case A: the block of the skip-self matrix. -/
theorem out_A (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (p : Fin 2048) (q : Fin 256) :
    out0_A_6 (F := Ideal) c i arg2 harg2 arg3 harg3 arg4 harg4 arg5 harg5 arg6 harg6 arg7 harg7 arg8 harg8 arg9 harg9 arg10 harg10 arg11 harg11 hc0 hc1 x0 x1 x2 x3 x4 x5 (ix2 p q) = Tile.out (i 0).val (i 1).val x0 x1 x2 x3 x4 x5 (fun _ => 0) p q := by
  refine (congrFun (PiecePayloads.out_A (F := Ideal) c i arg2 harg2 arg3 harg3 arg4 harg4 arg5 harg5 arg6 harg6 arg7 harg7 arg8 harg8 arg9 harg9 arg10 harg10 arg11 harg11 hc0 hc1 x0 x1 x2 x3 x4 x5) (ix2 p q)).trans ?_
  rw [show (k0_pay7 (F := Ideal)) = fun _ => 0 from funext TileIndex.zero7_apply]
  exact TileIndex.out_apply i x0 x1 x2 x3 x4 x5 (fun _ => 0) p q

/-- Case A: the running row sum. -/
theorem acc_A (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (p : Fin 2048) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 (ix2 p 0) = Tile.acc (i 0).val (i 1).val x0 x1 x2 x3 x4 x5 (fun _ => 0) p := by
  refine (congrFun (PiecePayloads.acc_A (F := Ideal) c i arg2 harg2 arg3 harg3 arg4 harg4 arg5 harg5 arg6 harg6 arg7 harg7 arg8 harg8 arg9 harg9 arg10 harg10 arg11 harg11 hc0 hc1 x0 x1 x2 x3 x4 x5) (ix2 p 0)).trans ?_
  rw [show (k0_pay6 (F := Ideal)) = fun _ => 0 from funext TileIndex.zero6_apply]
  exact TileIndex.acc_apply i x0 x1 x2 x3 x4 x5 (fun _ => 0) p

/-- Case A: the carried first column. -/
theorem first_A (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (p : Fin 2048) :
    sout0_A_1 (F := Ideal) c i arg2 harg2 arg3 harg3 arg4 harg4 arg5 harg5 arg6 harg6 arg7 harg7 arg8 harg8 arg9 harg9 arg10 harg10 arg11 harg11 hc0 hc1 x0 x1 x2 x3 x4 x5 (ix2 p 0) = Tile.first (i 0).val (i 1).val x0 x1 x2 x3 x4 x5 p := by
  refine (congrFun (PiecePayloads.first_A (F := Ideal) c i arg2 harg2 arg3 harg3 arg4 harg4 arg5 harg5 arg6 harg6 arg7 harg7 arg8 harg8 arg9 harg9 arg10 harg10 arg11 harg11 hc0 hc1 x0 x1 x2 x3 x4 x5) (ix2 p 0)).trans ?_
  exact TileIndex.first_apply i x0 x1 x2 x3 x4 x5 p

/-- Case B: the block of the skip-self matrix. -/
theorem out_B (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (xs0 : Vec Ideal S2048x1 .f32) (xs1 : Vec Ideal S2048x1 .f32) (p : Fin 2048) (q : Fin 256) :
    out0_B_6 (F := Ideal) c i arg2 harg2 arg3 harg3 arg4 harg4 arg5 harg5 arg6 harg6 arg7 harg7 arg8 harg8 arg9 harg9 arg10 harg10 arg11 harg11 hc0 hc1 x0 x1 x2 x3 x4 x5 xs0 xs1 (ix2 p q) = Tile.out (i 0).val (i 1).val x0 x1 x2 x3 x4 x5 xs1 p q := by
  refine (congrFun (PiecePayloads.out_B (F := Ideal) c i arg2 harg2 arg3 harg3 arg4 harg4 arg5 harg5 arg6 harg6 arg7 harg7 arg8 harg8 arg9 harg9 arg10 harg10 arg11 harg11 hc0 hc1 x0 x1 x2 x3 x4 x5 xs0 xs1) (ix2 p q)).trans ?_
  exact TileIndex.out_apply i x0 x1 x2 x3 x4 x5 xs1 p q

/-- Case B: the running row sum. -/
theorem acc_B (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (xs0 : Vec Ideal S2048x1 .f32) (xs1 : Vec Ideal S2048x1 .f32) (p : Fin 2048) :
    sout0_B_0 (F := Ideal) c i arg2 harg2 arg3 harg3 arg4 harg4 arg5 harg5 arg6 harg6 arg7 harg7 arg8 harg8 arg9 harg9 arg10 harg10 arg11 harg11 hc0 hc1 x0 x1 x2 x3 x4 x5 xs0 xs1 (ix2 p 0) = Tile.acc (i 0).val (i 1).val x0 x1 x2 x3 x4 x5 xs0 p := by
  refine (congrFun (PiecePayloads.acc_B (F := Ideal) c i arg2 harg2 arg3 harg3 arg4 harg4 arg5 harg5 arg6 harg6 arg7 harg7 arg8 harg8 arg9 harg9 arg10 harg10 arg11 harg11 hc0 hc1 x0 x1 x2 x3 x4 x5 xs0 xs1) (ix2 p 0)).trans ?_
  exact TileIndex.acc_apply i x0 x1 x2 x3 x4 x5 xs0 p

/-- Case B: the carried first column. -/
theorem first_B (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (xs0 : Vec Ideal S2048x1 .f32) (xs1 : Vec Ideal S2048x1 .f32) (p : Fin 2048) :
    sout0_B_1 (F := Ideal) c i arg2 harg2 arg3 harg3 arg4 harg4 arg5 harg5 arg6 harg6 arg7 harg7 arg8 harg8 arg9 harg9 arg10 harg10 arg11 harg11 hc0 hc1 x0 x1 x2 x3 x4 x5 xs0 xs1 (ix2 p 0) = Tile.first (i 0).val (i 1).val x0 x1 x2 x3 x4 x5 p := by
  refine (congrFun (PiecePayloads.first_B (F := Ideal) c i arg2 harg2 arg3 harg3 arg4 harg4 arg5 harg5 arg6 harg6 arg7 harg7 arg8 harg8 arg9 harg9 arg10 harg10 arg11 harg11 hc0 hc1 x0 x1 x2 x3 x4 x5 xs0 xs1) (ix2 p 0)).trans ?_
  exact TileIndex.first_apply i x0 x1 x2 x3 x4 x5 p

/-- Case C: the block of the skip-self matrix. -/
theorem out_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (xs0 : Vec Ideal S2048x1 .f32) (xs1 : Vec Ideal S2048x1 .f32) (p : Fin 2048) (q : Fin 256) :
    out0_C_6 (F := Ideal) c i arg2 harg2 arg3 harg3 arg4 harg4 arg5 harg5 arg6 harg6 arg7 harg7 arg8 harg8 arg9 harg9 arg10 harg10 arg11 harg11 hc0 hc1 x0 x1 x2 x3 x4 x5 xs0 xs1 (ix2 p q) = Tile.out (i 0).val (i 1).val x0 x1 x2 x3 x4 x5 xs1 p q := by
  refine (congrFun (PiecePayloads.out_C (F := Ideal) c i arg2 harg2 arg3 harg3 arg4 harg4 arg5 harg5 arg6 harg6 arg7 harg7 arg8 harg8 arg9 harg9 arg10 harg10 arg11 harg11 hc0 hc1 x0 x1 x2 x3 x4 x5 xs0 xs1) (ix2 p q)).trans ?_
  exact TileIndex.out_apply i x0 x1 x2 x3 x4 x5 xs1 p q

/-- Case C: the running row sum. -/
theorem acc_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (xs0 : Vec Ideal S2048x1 .f32) (xs1 : Vec Ideal S2048x1 .f32) (p : Fin 2048) :
    sout0_C_0 (F := Ideal) c i arg2 harg2 arg3 harg3 arg4 harg4 arg5 harg5 arg6 harg6 arg7 harg7 arg8 harg8 arg9 harg9 arg10 harg10 arg11 harg11 hc0 hc1 x0 x1 x2 x3 x4 x5 xs0 xs1 (ix2 p 0) = Tile.acc (i 0).val (i 1).val x0 x1 x2 x3 x4 x5 xs0 p := by
  refine (congrFun (PiecePayloads.acc_C (F := Ideal) c i arg2 harg2 arg3 harg3 arg4 harg4 arg5 harg5 arg6 harg6 arg7 harg7 arg8 harg8 arg9 harg9 arg10 harg10 arg11 harg11 hc0 hc1 x0 x1 x2 x3 x4 x5 xs0 xs1) (ix2 p 0)).trans ?_
  exact TileIndex.acc_apply i x0 x1 x2 x3 x4 x5 xs0 p

/-- Case C: the carried first column. -/
theorem first_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (xs0 : Vec Ideal S2048x1 .f32) (xs1 : Vec Ideal S2048x1 .f32) (p : Fin 2048) :
    sout0_C_1 (F := Ideal) c i arg2 harg2 arg3 harg3 arg4 harg4 arg5 harg5 arg6 harg6 arg7 harg7 arg8 harg8 arg9 harg9 arg10 harg10 arg11 harg11 hc0 hc1 x0 x1 x2 x3 x4 x5 xs0 xs1 (ix2 p 0) = Tile.first (i 0).val (i 1).val x0 x1 x2 x3 x4 x5 p := by
  refine (congrFun (PiecePayloads.first_C (F := Ideal) c i arg2 harg2 arg3 harg3 arg4 harg4 arg5 harg5 arg6 harg6 arg7 harg7 arg8 harg8 arg9 harg9 arg10 harg10 arg11 harg11 hc0 hc1 x0 x1 x2 x3 x4 x5 xs0 xs1) (ix2 p 0)).trans ?_
  exact TileIndex.first_apply i x0 x1 x2 x3 x4 x5 p

/-- Case C: the row-sum block handed out. -/
theorem rowsum_C (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2048x1 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i) (x0 : Vec Ideal S2048x512 .bf16) (x1 : Vec Ideal S2048x512 .bf16) (x2 : Vec Ideal S256x512 .bf16) (x3 : Vec Ideal S256x512 .bf16) (x4 : Vec Ideal S2048x1 .f32) (x5 : Vec Ideal S1x256 .f32) (xs0 : Vec Ideal S2048x1 .f32) (xs1 : Vec Ideal S2048x1 .f32) (p : Fin 2048) :
    out0_C_7 (F := Ideal) c i arg2 harg2 arg3 harg3 arg4 harg4 arg5 harg5 arg6 harg6 arg7 harg7 arg8 harg8 arg9 harg9 arg10 harg10 arg11 harg11 hc0 hc1 x0 x1 x2 x3 x4 x5 xs0 xs1 (ix2 p 0) = Tile.acc (i 0).val (i 1).val x0 x1 x2 x3 x4 x5 xs0 p := by
  refine (congrFun (PiecePayloads.rowsum_C (F := Ideal) c i arg2 harg2 arg3 harg3 arg4 harg4 arg5 harg5 arg6 harg6 arg7 harg7 arg8 harg8 arg9 harg9 arg10 harg10 arg11 harg11 hc0 hc1 x0 x1 x2 x3 x4 x5 xs0 xs1) (ix2 p 0)).trans ?_
  exact TileIndex.acc_apply i x0 x1 x2 x3 x4 x5 xs0 p

end Cert.SkipSelf.Pieces

end
-- ==== Proof.LibRowGather.lean ====
/-
  A gather of whole rows, read at an index.

  What `x[idx]` of a table `x : [N, D]` at a column of indices `idx : [E, 1]` lowers to: a `stablehlo.gather` with
  offset_dims `[1]`, collapsed_slice_dims `[0]`, start_index_map `[0]`, index_vector_dim `1` and slice sizes `[1, D]`.
  Element `(e, c)` of the result is the table's element `(r, c)`, where `r` is the start index `idx[e, 0]` read as a
  signed integer and clamped into `0 … N - 1`.

  The road is the one the library takes for a flat array (`gather_take_apply`): the operand index is, per operand axis,
  clamped start + batching coordinate + offset coordinate. On axis `0` (collapsed, named by the start index map) only the
  clamped start is left; on axis `1` (the offset axis) only the offset coordinate. The lemma is first proved for the
  dimension numbers written out (`rowDims`), then for any record whose fields have those values.
-/
import Idealize.ShloMosaic.PureOps.Ideal
import Idealize.ShloMosaic.Lib.ValueIdx

noncomputable section

namespace Cert.LibRowGather

open Idealize.ShloMosaic Idealize.ShloMosaic.ValueIdx

section RowGather
variable {α : Type}

/-- The row gather's dimension numbers written out, for a table `[N, D]`, start indices `[E, 1]` and result `[E, D]`.
    The start indices' batching axes `sb` are left open: the conditions `wf` force the list to be empty, and nothing
    below reads it. -/
abbrev rowDims (N E D : Nat) (sb : List (Fin (⟨2, ![E, 1]⟩ : Shape).rank))
    (wf : GatherDims.WF ⟨2, ![N, D]⟩ ⟨2, ![E, 1]⟩ ⟨2, ![E, D]⟩ [1] [0] [] [0] sb 1 ![1, D]) :
    GatherDims ⟨2, ![N, D]⟩ ⟨2, ![E, 1]⟩ ⟨2, ![E, D]⟩ where
  offsetDims := [1]
  collapsedSliceDims := [0]
  operandBatchingDims := []
  startIndicesBatchingDims := sb
  startIndexMap := [0]
  indexVectorDim := 1
  sliceSizes := ![1, D]
  wf := wf

variable {N E D w : Nat} (sb : List (Fin (⟨2, ![E, 1]⟩ : Shape).rank))
  (wf : GatherDims.WF ⟨2, ![N, D]⟩ ⟨2, ![E, 1]⟩ ⟨2, ![E, D]⟩ [1] [0] [] [0] sb 1 ![1, D])

/-- Where result element `(e, c)` reads its start index: the only component of the start index map is component `0`,
    the result's one batch axis (axis `0`) is the start indices' axis `0`, and the index vector's axis (axis `1`, of
    size one) gets the component's number, so the place is `[e, 0]`. -/
theorem rowDims_siIdx (e : Fin E) (c : Fin D) (h0 : (0 : Fin 2) ∈ (rowDims N E D sb wf).startIndexMap) :
    (rowDims N E D sb wf).siIdx (ix2 e c) ⟨List.idxOf (0 : Fin 2) (rowDims N E D sb wf).startIndexMap,
        List.idxOf_lt_length_iff.2 h0⟩ = ix2 e (0 : Fin 1) := by
  funext b
  refine Fin.ext ?_
  match b with
  | ⟨0, _⟩ => rfl
  | ⟨1, _⟩ => rfl

/-- Axis `0` of the operand index (the collapsed axis, named by the start index map): the start index clamped into
    `0 … N - 1`; no batching coordinate (there are no batching axes) and no offset (the axis is collapsed). -/
theorem rowDims_axis0 (idx : IVec (⟨2, ![E, 1]⟩ : Shape) w) (e : Fin E) (c : Fin D) :
    (rowDims N E D sb wf).start (ix2 e c) idx 0 + (rowDims N E D sb wf).batchCoord (ix2 e c) 0
        + (rowDims N E D sb wf).offCoord (ix2 e c) 0
      = min (idx (ix2 e (0 : Fin 1))).toInt.toNat (N - 1) := by
  have h0 : (0 : Fin 2) ∈ (rowDims N E D sb wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  show (rowDims N E D sb wf).start (ix2 e c) idx 0 = _
  unfold GatherDims.start
  rw [dif_pos h0, rowDims_siIdx sb wf e c h0]
  rfl

/-- Axis `1` of the operand index (the one offset axis, not named by the start index map): the slice starts at `0`,
    there is no batching coordinate, and the offset is the result's coordinate on its offset axis, `c`. -/
theorem rowDims_axis1 (idx : IVec (⟨2, ![E, 1]⟩ : Shape) w) (e : Fin E) (c : Fin D) :
    (rowDims N E D sb wf).start (ix2 e c) idx 1 + (rowDims N E D sb wf).batchCoord (ix2 e c) 1
        + (rowDims N E D sb wf).offCoord (ix2 e c) 1
      = c.val := by
  have h10 : (1 : Fin 2) ≠ 0 := by decide
  have h1 : (1 : Fin 2) ∉ (rowDims N E D sb wf).startIndexMap := fun h => h10 (List.mem_singleton.mp h)
  have hk : (1 : Fin 2) ∈ (rowDims N E D sb wf).sKept :=
    (GatherDims.mem_sKept _ _).mpr ⟨fun h => h10 (List.mem_singleton.mp h), List.not_mem_nil⟩
  rw [GatherDims.batchCoord_eq_zero _ _ _ List.not_mem_nil, Nat.add_zero]
  unfold GatherDims.start GatherDims.offCoord
  rw [dif_neg h1, dif_pos hk, Nat.zero_add]
  rfl

/-- The row gather of the written-out dimension numbers, read at `(e, c)`. -/
theorem rowDims_apply (hN : 0 < N) (x : (⟨2, ![N, D]⟩ : Shape).Idx → α) (idx : IVec (⟨2, ![E, 1]⟩ : Shape) w)
    (e : Fin E) (c : Fin D) :
    Host.gather (rowDims N E D sb wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact rowDims_axis0 sb wf idx e c
  | ⟨1, _⟩ => exact rowDims_axis1 sb wf idx e c

end RowGather

/-- THE ROW GATHER READ AT `(e, c)`: for any dimension-number record of the row-gather form, the operand at the row the
    start index `idx[e, 0]` names (signed, clamped into `0 … N - 1`) and the same column. -/
theorem rowGather_apply {α : Type} {N E D w : Nat} (hN : 0 < N)
    (g : GatherDims (⟨2, ![N, D]⟩ : Shape) (⟨2, ![E, 1]⟩ : Shape) (⟨2, ![E, D]⟩ : Shape))
    (hod : g.offsetDims = [1]) (hcs : g.collapsedSliceDims = [0]) (hob : g.operandBatchingDims = [])
    (hsm : g.startIndexMap = [0]) (hiv : g.indexVectorDim = 1) (hss : g.sliceSizes = ![1, D])
    (x : (⟨2, ![N, D]⟩ : Shape).Idx → α) (idx : IVec (⟨2, ![E, 1]⟩ : Shape) w) (e : Fin E) (c : Fin D) :
    Host.gather g x idx (ix2 e c)
      = x (ix2 (⟨min (idx (ix2 e (0 : Fin 1))).toInt.toNat (N - 1), by omega⟩ : Fin N) c) := by
  -- a record with these field values IS the written-out one: name its fields and substitute the six equations
  obtain ⟨od, cs, ob, sb, sm, iv, ss, wf⟩ := g
  dsimp only at hod hcs hob hsm hiv hss
  subst hod hcs hob hsm hiv hss
  exact rowDims_apply sb wf hN x idx e c

end Cert.LibRowGather

end
-- ==== Proof.HostReads.lean ====
/-
  The host's computation before the launch, as pure functions of the three argument arrays, each read at an index.

  From the feature matrix X, the variance matrix S (both 8192 x 512) and the label words l (8192 of them) the
  host forms: the position word of every row (the label when it lies below the row's own number, the label plus one
  otherwise; then a wrap of negative words by 8192, which never fires), the inverse variances 1 / s, the row sums of
  log s, the row sums of x^2 / s, the four matrices the products take, and, gathered at the position words, the rows the
  positive samples name.  Read entry by entry these are the functions of the statement: inv, ls, t3, T1, T2,
  gt, and so the row part and the column part of the exponent.
-/
import Idealize.ShloMosaic.Lib.StableHlo.Predicate
import Idealize.ShloMosaic.Lib.IdealHost
import Idealize.ShloMosaic.Lib.ValueLayout
import Idealize.ShloMosaic.Lib.Pipeline.Value
import proofs.«422816_j11381663334552_3_alg».proof.Proof.Spec
import proofs.«422816_j11381663334552_3_alg».proof.Proof.LibRowGather

noncomputable section

open Idealize.ShloMosaic Idealize.ShloMosaic.ValueIdx
open scoped BigOperators

namespace Cert.SkipSelf.HostReads

abbrev S0 : Shape := ⟨0, ![]⟩
abbrev SV : Shape := ⟨1, ![8192]⟩
abbrev SC : Shape := ⟨2, ![8192, 1]⟩
abbrev SR : Shape := ⟨2, ![1, 8192]⟩
abbrev SM : Shape := ⟨2, ![8192, 512]⟩

/-! ## The position words -/

/-- Two words of numbers below 2^31 compare signed as the numbers do. -/
theorem slt_ofNat (a b : Nat) (ha : a < 2 ^ 31) (hb : b < 2 ^ 31) :
    IntOp.cmpi .slt (BitVec.ofNat 32 a) (BitVec.ofNat 32 b) = 1#1 ↔ a < b :=
  StableHlo.Predicate.slt_ofNat_iff a b ha hb

/-- The label among the other columns, counted among all columns: the label itself below the row's number, one more from
    there on. -/
theorem posWord (b : Fin 8192) (k : Fin 8191) :
    Scalar.select (IntOp.cmpi .slt (BitVec.ofNat 32 k.val) (BitVec.ofNat 32 b.val)) (BitVec.ofNat 32 k.val)
        (IntOp.addi (BitVec.ofNat 32 k.val) 1#32)
      = BitVec.ofNat 32 (b.succAbove k).val := by
  have hk := k.isLt
  have hb := b.isLt
  by_cases h : k.val < b.val
  · rw [(slt_ofNat k.val b.val (by omega) (by omega)).mpr h, select_one,
      Fin.succAbove_of_castSucc_lt b k (by rw [Fin.lt_def]; exact h)]
    rfl
  · rw [eq_zero_of_ne_one (fun e => h ((slt_ofNat k.val b.val (by omega) (by omega)).mp e)), select_zero,
      Fin.succAbove_of_le_castSucc b k (by rw [Fin.le_def]; exact Nat.le_of_not_lt h)]
    show BitVec.ofNat 32 k.val + 1#32 = BitVec.ofNat 32 (k.val + 1)
    apply BitVec.eq_of_toNat_eq
    simp only [BitVec.toNat_add, BitVec.toNat_ofNat]
    omega

/-- A word of a number below 2^31 is not negative: the wrap of negative indices leaves it. -/
theorem wrapWord (p : Nat) (hp : p < 2 ^ 31) :
    Scalar.select (IntOp.cmpi .slt (BitVec.ofNat 32 p) 0#32) (IntOp.addi (BitVec.ofNat 32 p) 8192#32) (BitVec.ofNat 32 p)
      = BitVec.ofNat 32 p := by
  rw [eq_zero_of_ne_one (fun e => Nat.not_lt_zero p ((slt_ofNat p 0 hp (by omega)).mp e)), select_zero]

/-- Read as a row number of a table of 8192 rows (signed, clamped into the table), the word of p is p. -/
theorem clampWord (p : Fin 8192) : min (BitVec.ofNat 32 p.val).toInt.toNat (8192 - 1) = p.val := by
  have hp := p.isLt
  rw [StableHlo.Predicate.toInt_ofNat_small p.val (by omega)]
  omega

/-! ## The shape facts -/

theorem b0V : S0.BroadcastsInDim SV (![] : Fin 0 → Fin 1) := by decide
theorem b0M : S0.BroadcastsInDim SM (![] : Fin 0 → Fin 2) := by decide
theorem bVC : SV.BroadcastsInDim SC (![0] : Fin 1 → Fin 2) := by decide
theorem rMV : SM.ReducesTo [1] SV := by decide
theorem rMV' : SM.Reduces [1] SV := by decide
theorem n0 : 0 < S0.numel := by decide
theorem cVC : SV.ShapeCasts SC := by decide
theorem cVR : SV.ShapeCasts SR := by decide
theorem lt16 : FTy.bits .bf16 < FTy.bits .f32 := by decide

/-! ## Layout operations read at an index -/

section Layout
variable {α : Type}

/-- A vector laid out as a column reads, at (p, 0), the vector at p. -/
theorem bcastCol_apply (h : SV.BroadcastsInDim SC (![0] : Fin 1 → Fin 2)) (v : SV.Idx → α) (p : Fin 8192) :
    broadcastInDim SC ![0] h v (ix2 p 0) = v (ix1 p) := by
  unfold broadcastInDim
  refine congrArg v (funext fun a => ?_)
  match a with
  | ⟨0, _⟩ => rfl

/-- A vector reshaped to a column reads, at (p, 0), the vector at p. -/
theorem castCol_apply (h : SV.ShapeCasts SC) (v : SV.Idx → α) (p : Fin 8192) :
    shapeCast SC v h (ix2 p 0) = v (ix1 p) :=
  shapeCast_apply v h _ _ (by
    rw [Shape.rowMajor_val_two, Shape.rowMajor_val_one]
    show p.val = p.val * 1 + 0
    omega)

/-- A vector reshaped to a row reads, at (0, q), the vector at q. -/
theorem castRow_apply (h : SV.ShapeCasts SR) (v : SV.Idx → α) (q : Fin 8192) :
    shapeCast SR v h (ix2 0 q) = v (ix1 q) :=
  shapeCast_a_1a_apply v h 0 q

end Layout

/-- The host's sum over the columns of an 8192 x 512 matrix from the zero word, at row i: the sum of the row. -/
theorem rowSum_apply (x : FVec Ideal SM .f32) (h : SM.ReducesTo [1] SV) (hu : 0 < S0.numel) (i : Fin 8192) :
    Host.reduceAdd x (constant (F := Ideal) S0 .f32 0x00000000#32) h hu (ix1 i) = ∑ d : Fin 512, x (ix2 i d) := by
  rw [hostReduceAdd_apply, Ideal.hostReduceAdd_single h rMV']
  show Ideal.ofBits .f32 0x00000000#32 + _ = _
  rw [Ideal.ofBits_zero_f32, zero_add]
  refine Finset.sum_congr rfl fun d _ => congrArg x (funext fun a => ?_)
  match a with
  | ⟨0, _⟩ => rfl
  | ⟨1, _⟩ => rfl

/-! ## The host's arrays -/

section Arrays
variable (gT : GatherDims SV SC SV) (gR : GatherDims SM SC SM)
variable (X S : FVec Ideal SM .f32) (l : IVec SV 32)

/-- The position word of every row, before the wrap. -/
def hPos : IVec SV 32 :=
  select (cmpi .slt l (iotaInDim SV 32 0)) l (addi l (broadcastInDim SV ![] b0V (constantI S0 32 1#32)))

/-- The position words after the wrap of negative words, as a column of start indices. -/
def hIdx : IVec SC 32 :=
  broadcastInDim SC ![0] bVC
    (select (cmpi .slt (hPos l) (broadcastInDim SV ![] b0V (constantI S0 32 0#32)))
      (addi (hPos l) (broadcastInDim SV ![] b0V (constantI S0 32 8192#32))) (hPos l))

/-- The inverse variances. -/
def hInv : FVec Ideal SM .f32 := Host.divf (broadcastInDim SM ![] b0M (constant S0 .f32 0x3F800000#32)) S

/-- The log-volumes. -/
def hLs : FVec Ideal SV .f32 := Host.reduceAdd (Host.log S) (constant S0 .f32 0x00000000#32) rMV n0

/-- The row sums of the squared features over the variances. -/
def hT3 : FVec Ideal SV .f32 := Host.reduceAdd (mulf (mulf X X) (hInv S)) (constant S0 .f32 0x00000000#32) rMV n0

/-- The four matrices the products take. -/
def hF : FVec Ideal SM .bf16 := truncf .bf16 X lt16
def hF2 : FVec Ideal SM .bf16 := truncf .bf16 (mulf X X) lt16
def hI : FVec Ideal SM .bf16 := truncf .bf16 (hInv S) lt16
def hFI : FVec Ideal SM .bf16 := truncf .bf16 (mulf X (hInv S)) lt16

/-- The squared features against the positive sample's inverse variances, summed. -/
def hT1 : FVec Ideal SV .f32 :=
  Host.reduceAdd (mulf (extf .f32 (hF2 X) lt16) (extf .f32 (Host.gather gR (hI S) (hIdx l)) lt16))
    (constant S0 .f32 0x00000000#32) rMV n0

/-- The features against the positive sample's features over variances, summed. -/
def hT2 : FVec Ideal SV .f32 :=
  Host.reduceAdd (mulf (extf .f32 (hF X) lt16) (extf .f32 (Host.gather gR (hFI X S) (hIdx l)) lt16))
    (constant S0 .f32 0x00000000#32) rMV n0

/-- The distance of every row to its positive sample. -/
def hGt : FVec Ideal SV .f32 :=
  addf (subf (hT1 gR X S l) (mulf (broadcastInDim SV ![] b0V (constant S0 .f32 0x40000000#32)) (hT2 gR X S l)))
    (Host.gather gT (hT3 X S) (hIdx l))

/-- The row part of the exponent, as a column. -/
def hR : FVec Ideal SC .f32 :=
  shapeCast SC
    (addf (mulf (broadcastInDim SV ![] b0V (constant S0 .f32 0x3DCCCCCD#32)) (hGt gT gR X S l))
      (mulf (broadcastInDim SV ![] b0V (constant S0 .f32 0x3F000000#32)) (hLs S))) cVC

/-- The column part of the exponent, as a row. -/
def hC : FVec Ideal SR .f32 :=
  shapeCast SR
    (subf (mulf (broadcastInDim SV ![] b0V (constant S0 .f32 0xBDCCCCCD#32)) (hT3 X S))
      (mulf (broadcastInDim SV ![] b0V (constant S0 .f32 0x3F000000#32)) (Host.gather gT (hLs S) (hIdx l)))) cVR

/-! ## The arrays read at an index -/

variable (ℓ : Fin 8192 → Fin 8191) (hl : Lab ℓ l)
include hl

theorem hPos_apply (b : Fin 8192) : hPos l (ix1 b) = BitVec.ofNat 32 (pos ℓ b).val := by
  show Scalar.select (IntOp.cmpi .slt (l (ix1 b)) (BitVec.ofNat 32 b.val)) (l (ix1 b)) (IntOp.addi (l (ix1 b)) 1#32) = _
  rw [hl b]
  exact posWord b (ℓ b)

theorem hIdx_apply (b : Fin 8192) : hIdx l (ix2 b 0) = BitVec.ofNat 32 (pos ℓ b).val := by
  unfold hIdx
  rw [bcastCol_apply]
  show Scalar.select (IntOp.cmpi .slt (hPos l (ix1 b)) 0#32) (IntOp.addi (hPos l (ix1 b)) 8192#32) (hPos l (ix1 b)) = _
  rw [hPos_apply l ℓ hl b]
  exact wrapWord _ (by have := (pos ℓ b).isLt; omega)

/-- A vector gathered at the position words reads, at row i, the vector at the positive sample of i. -/
theorem take_apply {α : Type} (hcoll : gT.collapsedSliceDims = [0]) (hob : gT.operandBatchingDims = [])
    (hsim : gT.startIndexMap = [0]) (hivd : gT.indexVectorDim = 1) (v : SV.Idx → α) (i : Fin 8192) :
    Host.gather gT v (hIdx l) (ix1 i) = v (ix1 (pos ℓ i)) := by
  have e1 : (ix1 i : SV.Idx) = Shape.Idx.ofFin i := by
    funext a; match a with | ⟨0, _⟩ => rfl
  have e2 : (StableHlo.Predicate.ixP i : SC.Idx) = ix2 i 0 := by
    funext a; match a with | ⟨0, _⟩ => rfl | ⟨1, _⟩ => rfl
  rw [e1, StableHlo.Predicate.gather_take gT hcoll hob hsim hivd v (hIdx l) i (by decide)]
  refine congrArg v (funext fun a => Fin.ext ?_)
  match a with
  | ⟨0, _⟩ =>
    show min ((hIdx l) (StableHlo.Predicate.ixP i)).toInt.toNat (8192 - 1) = (pos ℓ i).val
    rw [e2, hIdx_apply l ℓ hl i]
    exact clampWord (pos ℓ i)

omit hl in
theorem hLs_apply (i : Fin 8192) : hLs S (ix1 i) = ls (matOf S) i := by
  unfold hLs
  rw [rowSum_apply]
  rfl

omit hl in
theorem hT3_apply (j : Fin 8192) : hT3 X S (ix1 j) = t3 (matOf X) (matOf S) j := by
  unfold hT3
  rw [rowSum_apply]
  rfl

end Arrays

section Rows
variable (gT : GatherDims SV SC SV) (gR : GatherDims SM SC SM)
variable (X S : FVec Ideal SM .f32) (l : IVec SV 32)
variable (ℓ : Fin 8192 → Fin 8191) (hl : Lab ℓ l)
variable (hod : gR.offsetDims = [1]) (hcs : gR.collapsedSliceDims = [0]) (hob : gR.operandBatchingDims = [])
  (hsm : gR.startIndexMap = [0]) (hiv : gR.indexVectorDim = 1) (hss : gR.sliceSizes = ![1, 512])
include hl hod hcs hob hsm hiv hss

/-- A matrix gathered by rows at the position words reads, at (e, c), the matrix at the positive sample of e, column c. -/
theorem rows_apply {α : Type} (x : SM.Idx → α) (e : Fin 8192) (c : Fin 512) :
    Host.gather gR x (hIdx l) (ix2 e c) = x (ix2 (pos ℓ e) c) := by
  rw [Cert.LibRowGather.rowGather_apply (by decide) gR hod hcs hob hsm hiv hss x (hIdx l) e c]
  refine congrArg x (funext fun a => Fin.ext ?_)
  match a with
  | ⟨0, _⟩ =>
    show min ((hIdx l) (ix2 e 0)).toInt.toNat (8192 - 1) = (pos ℓ e).val
    rw [hIdx_apply l ℓ hl e]
    exact clampWord (pos ℓ e)
  | ⟨1, _⟩ => rfl

theorem hT1_apply (i : Fin 8192) : hT1 gR X S l (ix1 i) = T1 (matOf X) (matOf S) i (pos ℓ i) := by
  unfold hT1
  rw [rowSum_apply]
  refine Finset.sum_congr rfl fun d _ => ?_
  show (X (ix2 i d) * X (ix2 i d)) * Host.gather gR (hI S) (hIdx l) (ix2 i d) = _
  rw [rows_apply gR l ℓ hl hod hcs hob hsm hiv hss (hI S) i d]
  rfl

theorem hT2_apply (i : Fin 8192) : hT2 gR X S l (ix1 i) = T2 (matOf X) (matOf S) i (pos ℓ i) := by
  unfold hT2
  rw [rowSum_apply]
  refine Finset.sum_congr rfl fun d _ => ?_
  show X (ix2 i d) * Host.gather gR (hFI X S) (hIdx l) (ix2 i d) = _
  rw [rows_apply gR l ℓ hl hod hcs hob hsm hiv hss (hFI X S) i d]
  rfl

variable (hcoll : gT.collapsedSliceDims = [0]) (hobT : gT.operandBatchingDims = [])
  (hsim : gT.startIndexMap = [0]) (hivd : gT.indexVectorDim = 1)
include hcoll hobT hsim hivd

theorem hGt_apply (i : Fin 8192) : hGt gT gR X S l (ix1 i) = gt (matOf X) (matOf S) ℓ i := by
  show (hT1 gR X S l (ix1 i) - w2 * hT2 gR X S l (ix1 i)) + Host.gather gT (hT3 X S) (hIdx l) (ix1 i) = _
  rw [hT1_apply gR X S l ℓ hl hod hcs hob hsm hiv hss i, hT2_apply gR X S l ℓ hl hod hcs hob hsm hiv hss i,
    take_apply gT l ℓ hl hcoll hobT hsim hivd (hT3 X S) i, hT3_apply]
  rfl

/-- The row part of the exponent. -/
theorem hR_apply (i : Fin 8192) : hR gT gR X S l (ix2 i 0) = rK (matOf X) (matOf S) ℓ i := by
  unfold hR
  rw [castCol_apply]
  show w01 * hGt gT gR X S l (ix1 i) + w05 * hLs S (ix1 i) = _
  rw [hGt_apply gT gR X S l ℓ hl hod hcs hob hsm hiv hss hcoll hobT hsim hivd i, hLs_apply]
  rfl

omit hod hcs hob hsm hiv hss in
/-- The column part of the exponent. -/
theorem hC_apply (j : Fin 8192) : hC gT X S l (ix2 0 j) = cK (matOf X) (matOf S) ℓ j := by
  unfold hC
  rw [castRow_apply]
  show wm01 * hT3 X S (ix1 j) - w05 * Host.gather gT (hLs S) (hIdx l) (ix1 j) = _
  rw [hT3_apply, take_apply gT l ℓ hl hcoll hobT hsim hivd (hLs S) j, hLs_apply]
  rfl

end Rows

end Cert.SkipSelf.HostReads

end
-- ==== Proof.HostArgs.lean ====
/-
  The three argument arrays of a device, named at the types the host's operations take them at, and the dimension
  numbers of the host's two kinds of gather.
-/
import proofs.«422816_j11381663334552_3_alg».proof.Proof.Gen.KernelIdeal.Frame
import proofs.«422816_j11381663334552_3_alg».proof.Proof.HostReads

noncomputable section

open Idealize.ShloMosaic Idealize.ShloMosaic.TcCoe Idealize.ShloMosaic.ValueIdx Idealize.SL.Sem
open Cert.KernelIdeal Cert.KernelIdeal.Gen

namespace Cert.SkipSelf.Operands

open Cert.SkipSelf.HostReads

variable (m : (ℓ : Loc nD τ sig) → Buf (Elt Ideal) ℓ)

/-- The features, the variances and the label words of device c. -/
abbrev Xa (c : Dev nD) : FVec Ideal SM .f32 := m ((c.tc : Thread nD τ).loc main_arg0)
abbrev Sa (c : Dev nD) : FVec Ideal SM .f32 := m ((c.tc : Thread nD τ).loc main_arg1)
abbrev La (c : Dev nD) : IVec SV 32 := m ((c.tc : Thread nD τ).loc main_arg2)

/-- The two gathers' dimension numbers: a vector taken at a column of start indices, and a matrix taken by rows. -/
abbrev gT : GatherDims SV SC SV := gather_S8192_S8192x1_S8192_n_0_n_n_0_1_1
abbrev gR : GatherDims SM SC SM := gather_S8192x512_S8192x1_S8192x512_1_0_n_n_0_1_1512

end Cert.SkipSelf.Operands

end
-- ==== Proof.HostArraysA.lean ====
/-
  The four matrices the kernel's products take, as the region finds them: each is the composition, in order, of the
  host operations that made it, a pure function of the features and the variances (the casts to the narrower
  float type are the identity on the extended reals).
-/
import proofs.«422816_j11381663334552_3_alg».proof.Proof.HostArgs

noncomputable section

open Idealize.ShloMosaic Idealize.ShloMosaic.TcCoe Idealize.ShloMosaic.ValueIdx Idealize.SL.Sem
open Cert.KernelIdeal Cert.KernelIdeal.Gen

namespace Cert.SkipSelf.Operands

open Cert.SkipSelf.HostReads

variable (m : (ℓ : Loc nD τ sig) → Buf (Elt Ideal) ℓ)

/-- The features. -/
theorem V19_eq (c : Dev nD) : (V m c main_v19 : S8192x512.Idx → EReal) = hF (Xa m c) := by
  dsimp only [Gen.V, Gen.V0]
  simp only [Gen.hostOps0, Gen.hostOps0_1, Gen.hostOps0_2, List.flatten_cons, List.flatten_nil, List.append_nil,
    List.cons_append, List.nil_append]
  after_results_simp
  rfl

/-- The squared features. -/
theorem V21_eq (c : Dev nD) : (V m c main_v21 : S8192x512.Idx → EReal) = hF2 (Xa m c) := by
  dsimp only [Gen.V, Gen.V0]
  simp only [Gen.hostOps0, Gen.hostOps0_1, Gen.hostOps0_2, List.flatten_cons, List.flatten_nil, List.append_nil,
    List.cons_append, List.nil_append]
  after_results_simp
  rfl

/-- The inverse variances. -/
theorem V22_eq (c : Dev nD) : (V m c main_v22 : S8192x512.Idx → EReal) = hI (Sa m c) := by
  dsimp only [Gen.V, Gen.V0]
  simp only [Gen.hostOps0, Gen.hostOps0_1, Gen.hostOps0_2, List.flatten_cons, List.flatten_nil, List.append_nil,
    List.cons_append, List.nil_append]
  after_results_simp
  rfl

/-- The features over the variances. -/
theorem V24_eq (c : Dev nD) : (V m c main_v24 : S8192x512.Idx → EReal) = hFI (Xa m c) (Sa m c) := by
  dsimp only [Gen.V, Gen.V0]
  simp only [Gen.hostOps0, Gen.hostOps0_1, Gen.hostOps0_2, List.flatten_cons, List.flatten_nil, List.append_nil,
    List.cons_append, List.nil_append]
  after_results_simp
  rfl

end Cert.SkipSelf.Operands

end
-- ==== Proof.HostArraysB.lean ====
/-
  The row part and the column part of the exponent, as the region finds them: each is the composition, in order, of
  the host operations that made it (some eighty for the row part), a pure function of the features, the variances and
  the label words.
-/
import proofs.«422816_j11381663334552_3_alg».proof.Proof.HostArgs

noncomputable section

open Idealize.ShloMosaic Idealize.ShloMosaic.TcCoe Idealize.ShloMosaic.ValueIdx Idealize.SL.Sem
open Cert.KernelIdeal Cert.KernelIdeal.Gen

namespace Cert.SkipSelf.Operands

open Cert.SkipSelf.HostReads

variable (m : (ℓ : Loc nD τ sig) → Buf (Elt Ideal) ℓ)

set_option maxHeartbeats 4000000 in
/-- The row part of the exponent. -/
theorem V63_eq (c : Dev nD) :
    (V m c main_v63 : S8192x1.Idx → EReal) = hR gT gR (Xa m c) (Sa m c) (La m c) := by
  dsimp only [Gen.V, Gen.V0]
  simp only [Gen.hostOps0, Gen.hostOps0_1, Gen.hostOps0_2, List.flatten_cons, List.flatten_nil, List.append_nil,
    List.cons_append, List.nil_append]
  after_results_simp
  rfl

set_option maxHeartbeats 4000000 in
/-- The column part of the exponent. -/
theorem V69_eq (c : Dev nD) :
    (V m c main_v69 : S1x8192.Idx → EReal) = hC gT (Xa m c) (Sa m c) (La m c) := by
  dsimp only [Gen.V, Gen.V0]
  simp only [Gen.hostOps0, Gen.hostOps0_1, Gen.hostOps0_2, List.flatten_cons, List.flatten_nil, List.append_nil,
    List.cons_append, List.nil_append]
  after_results_simp
  rfl

end Cert.SkipSelf.Operands

end
-- ==== Proof.KernelOperands.lean ====
/-
  What the host computes before the kernel is launched, read entry by entry: the four matrices the matrix products
  take (the features, their squares, the inverse variances, the features over the variances) and the row part and
  column part of the exponent.  With labels among the skip-self columns every gather reads inside its table, so the
  positive sample of row b is b.succAbove (ℓ b).

  Each of the six arrays is a pure function of the three argument arrays (the composition of the host's operations in
  order), and that function read at an index is the statement's.
-/
import proofs.«422816_j11381663334552_3_alg».proof.Proof.Gen.KernelIdeal.Frame
import proofs.«422816_j11381663334552_3_alg».proof.Proof.Spec
import proofs.«422816_j11381663334552_3_alg».proof.Proof.HostArraysA
import proofs.«422816_j11381663334552_3_alg».proof.Proof.HostArraysB

noncomputable section

open Idealize.ShloMosaic Idealize.ShloMosaic.TcCoe Idealize.ShloMosaic.ValueIdx Idealize.SL.Sem
open Cert.KernelIdeal Cert.KernelIdeal.Gen

namespace Cert.SkipSelf.Operands

open Cert.SkipSelf.HostReads

variable (m : (ℓ : Loc nD τ sig) → Buf (Elt Ideal) ℓ) (ℓ : Dev nD → Fin 8192 → Fin 8191)

/-- The feature matrix and the variance matrix of device c. -/
abbrev Xof (c : Dev nD) : Mat := matOf (a := 8192) (b := 512) (m ((c.tc : Thread nD τ).loc main_arg0))
abbrev Sof (c : Dev nD) : Mat := matOf (a := 8192) (b := 512) (m ((c.tc : Thread nD τ).loc main_arg1))

theorem feat (c : Dev nD) (i : Fin 8192) (d : Fin 512) :
    (V m c main_v19 : S8192x512.Idx → EReal) (ix2 i d) = Xof m c i d :=
  congrFun (V19_eq m c) (ix2 i d)

theorem featsq (c : Dev nD) (i : Fin 8192) (d : Fin 512) :
    (V m c main_v21 : S8192x512.Idx → EReal) (ix2 i d) = Xof m c i d * Xof m c i d :=
  congrFun (V21_eq m c) (ix2 i d)

theorem invs (c : Dev nD) (i : Fin 8192) (d : Fin 512) :
    (V m c main_v22 : S8192x512.Idx → EReal) (ix2 i d) = inv (Sof m c) i d :=
  congrFun (V22_eq m c) (ix2 i d)

theorem featinvs (c : Dev nD) (i : Fin 8192) (d : Fin 512) :
    (V m c main_v24 : S8192x512.Idx → EReal) (ix2 i d) = Xof m c i d * inv (Sof m c) i d :=
  congrFun (V24_eq m c) (ix2 i d)

theorem rpart (hℓ : ∀ c : Dev nD, Lab (ℓ c) (m ((c.tc : Thread nD τ).loc main_arg2))) (c : Dev nD) (i : Fin 8192) :
    (V m c main_v63 : S8192x1.Idx → EReal) (ix2 i 0) = rK (Xof m c) (Sof m c) (ℓ c) i :=
  (congrFun (V63_eq m c) (ix2 i 0)).trans
    (hR_apply gT gR (Xa m c) (Sa m c) (La m c) (ℓ c) (hℓ c) rfl rfl rfl rfl rfl rfl rfl rfl rfl rfl i)

theorem cpart (hℓ : ∀ c : Dev nD, Lab (ℓ c) (m ((c.tc : Thread nD τ).loc main_arg2))) (c : Dev nD) (j : Fin 8192) :
    (V m c main_v69 : S1x8192.Idx → EReal) (ix2 0 j) = cK (Xof m c) (Sof m c) (ℓ c) j :=
  (congrFun (V69_eq m c) (ix2 0 j)).trans
    (hC_apply gT (Xa m c) (Sa m c) (La m c) (ℓ c) (hℓ c) rfl rfl rfl rfl j)

end Cert.SkipSelf.Operands

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.TileSpec.lean ====
/-
  The tile functions of a grid point, at blocks that are the operand arrays' blocks, are the full matrix at the global
  indices.  Row tile `bi` holds the global rows `bi · 2048 + p`; column step `j` works on the global columns
  `(31 − j) · 256 + q`.  The stored tile is the skip-self matrix: below the diagonal column `cc` of the full matrix,
  from the diagonal on column `cc + 1`, which for the tile's last column is the carried first column of the tile
  one step earlier.  The row sum adds the tile's 256 entries; over the 32 column steps these are all 8192 columns.
-/
import proofs.«422816_j11381663334552_3_alg».proof.Proof.Tile
import proofs.«422816_j11381663334552_3_alg».proof.Proof.LibBlockSum

noncomputable section

open Idealize.ShloMosaic Idealize.ShloMosaic.ValueIdx
open scoped BigOperators

namespace Cert.SkipSelf.TileM

variable (X Sg : Mat) (ℓ : Fin 8192 → Fin 8191)

/-- The full matrix read at natural-number indices (zero outside the matrix). -/
def Mn (i j : ℕ) : EReal := if h : i < 8192 ∧ j < 8192 then M X Sg ℓ ⟨i, h.1⟩ ⟨j, h.2⟩ else 0

theorem Mn_mk (i j : ℕ) (hi : i < 8192) (hj : j < 8192) : Mn X Sg ℓ i j = M X Sg ℓ ⟨i, hi⟩ ⟨j, hj⟩ := by
  unfold Mn; rw [dif_pos ⟨hi, hj⟩]

theorem Mn_val (i j : Fin 8192) : Mn X Sg ℓ i.val j.val = M X Sg ℓ i j := Mn_mk X Sg ℓ i.val j.val i.isLt j.isLt

/-- The global row of row `p` of row tile `bi`. -/
abbrev gi (bi : ℕ) (hbi : bi < 4) (p : Fin 2048) : Fin 8192 := ⟨bi * 2048 + p.val, by have := p.isLt; omega⟩

/-- The global column of column `q` of the tile of column step `j`. -/
abbrev gj (j : ℕ) (q : Fin 256) : Fin 8192 := ⟨(31 - j) * 256 + q.val, by have := q.isLt; omega⟩

/-- The six blocks handed to the point of row tile `bi` and column step `j` are the operand arrays' blocks there. -/
structure Blocks (bi : ℕ) (hbi : bi < 4) (j : ℕ) (x0 x1 : Tile.BlkA) (x2 x3 : Tile.BlkB) (x4 : Tile.ColV)
    (x5 : Tile.RowV) : Prop where
  feat : ∀ (p : Fin 2048) (d : Fin 512), x0 (ix2 p d) = X (gi bi hbi p) d
  featsq : ∀ (p : Fin 2048) (d : Fin 512), x1 (ix2 p d) = X (gi bi hbi p) d * X (gi bi hbi p) d
  invs : ∀ (q : Fin 256) (d : Fin 512), x2 (ix2 q d) = inv Sg (gj j q) d
  featinvs : ∀ (q : Fin 256) (d : Fin 512), x3 (ix2 q d) = X (gj j q) d * inv Sg (gj j q) d
  rpart : ∀ p : Fin 2048, x4 (ix2 p 0) = rK X Sg ℓ (gi bi hbi p)
  cpart : ∀ q : Fin 256, x5 (ix2 0 q) = cK X Sg ℓ (gj j q)

variable {X Sg ℓ}
variable {bi : ℕ} {hbi : bi < 4} {j : ℕ} {x0 x1 : Tile.BlkA} {x2 x3 : Tile.BlkB} {x4 : Tile.ColV} {x5 : Tile.RowV}

/-- An entry of the tile is the full matrix's entry at the global row and column. -/
theorem m_eq (B : Blocks X Sg ℓ bi hbi j x0 x1 x2 x3 x4 x5) (p : Fin 2048) (q : Fin 256) :
    Tile.m bi j x0 x1 x2 x3 x4 x5 p q = M X Sg ℓ (gi bi hbi p) (gj j q) := by
  unfold Tile.m M
  by_cases h : gi bi hbi p = gj j q
  · have h' : Tile.grow bi p = Tile.gcol j q := congrArg Fin.val h
    rw [if_pos h', if_pos h]
  · have h' : ¬ Tile.grow bi p = Tile.gcol j q := fun e => h (Fin.ext e)
    rw [if_neg h', if_neg h]
    unfold argK T1 T2
    rw [B.rpart p, B.cpart q]
    simp only [B.feat, B.featsq, B.invs, B.featinvs]

theorem m_eq_n (B : Blocks X Sg ℓ bi hbi j x0 x1 x2 x3 x4 x5) (p : Fin 2048) (q : Fin 256) :
    Tile.m bi j x0 x1 x2 x3 x4 x5 p q = Mn X Sg ℓ (bi * 2048 + p.val) ((31 - j) * 256 + q.val) :=
  (m_eq B p q).trans (Mn_mk X Sg ℓ _ _ (gi bi hbi p).isLt (gj j q).isLt).symm

/-- Skipping column `b`: the `k`-th remaining column is `k` below `b` and `k + 1` from `b` on. -/
theorem succAbove_val (b : Fin 8192) (k : Fin 8191) : (b.succAbove k).val = if k.val < b.val then k.val else k.val + 1 := by
  unfold Fin.succAbove
  by_cases h : k.castSucc < b
  · rw [if_pos h, if_pos (show k.val < b.val from h)]; rfl
  · rw [if_neg h, if_neg (show ¬ k.val < b.val from h)]; rfl

theorem logitK_lt (b : Fin 8192) (k : Fin 8191) (c : ℕ) (hc : c < 8192) (h : k.val < b.val) (e : c = k.val) :
    logitK X Sg ℓ b k = M X Sg ℓ b ⟨c, hc⟩ :=
  congrArg (M X Sg ℓ b) (Fin.ext (by rw [succAbove_val, if_pos h]; exact e.symm))

theorem logitK_ge (b : Fin 8192) (k : Fin 8191) (c : ℕ) (hc : c < 8192) (h : ¬ k.val < b.val) (e : c = k.val + 1) :
    logitK X Sg ℓ b k = M X Sg ℓ b ⟨c, hc⟩ :=
  congrArg (M X Sg ℓ b) (Fin.ext (by rw [succAbove_val, if_neg h]; exact e.symm))

/-- The stored tile is the skip-self matrix, at every column of the tile that is a column of that matrix (the last
    column tile overhangs it by one), when the carried column is the first column of the tile one step earlier. -/
theorem out_eq (B : Blocks X Sg ℓ bi hbi j x0 x1 x2 x3 x4 x5) (carry : Tile.ColV)
    (hcarry : ∀ (p : Fin 2048) (h : (31 - j) * 256 + 256 < 8192),
      carry (ix2 p 0) = M X Sg ℓ (gi bi hbi p) ⟨(31 - j) * 256 + 256, h⟩)
    (p : Fin 2048) (q : Fin 256) (hcc : (31 - j) * 256 + q.val < 8191) :
    Tile.out bi j x0 x1 x2 x3 x4 x5 carry p q = logitK X Sg ℓ (gi bi hbi p) ⟨(31 - j) * 256 + q.val, hcc⟩ := by
  have hq := q.isLt
  unfold Tile.out
  by_cases h1 : Tile.gcol j q < Tile.grow bi p
  · rw [if_pos h1, m_eq B]
    exact (logitK_lt (gi bi hbi p) ⟨(31 - j) * 256 + q.val, hcc⟩ _ _ h1 rfl).symm
  · rw [if_neg h1]
    by_cases h2 : q.val = 255
    · rw [dif_pos h2, hcarry p (by omega)]
      exact (logitK_ge (gi bi hbi p) ⟨(31 - j) * 256 + q.val, hcc⟩ _ _ h1 (by show (31 - j) * 256 + 256 = (31 - j) * 256 + q.val + 1; omega)).symm
    · rw [dif_neg h2, m_eq B]
      exact (logitK_ge (gi bi hbi p) ⟨(31 - j) * 256 + q.val, hcc⟩ _ _ h1 (by show (31 - j) * 256 + (q.val + 1) = (31 - j) * 256 + q.val + 1; omega)).symm

/-- The running row sum grows by the tile's 256 entries of the row. -/
theorem acc_eq (B : Blocks X Sg ℓ bi hbi j x0 x1 x2 x3 x4 x5) (prev : Tile.ColV) (p : Fin 2048) :
    Tile.acc bi j x0 x1 x2 x3 x4 x5 prev p
      = prev (ix2 p 0) + ∑ q : Fin 256, Mn X Sg ℓ (bi * 2048 + p.val) ((31 - j) * 256 + q.val) := by
  unfold Tile.acc
  exact congrArg (prev (ix2 p 0) + ·) (Finset.sum_congr rfl fun q _ => m_eq_n B p q)

/-- The tile's first column. -/
theorem first_eq (B : Blocks X Sg ℓ bi hbi j x0 x1 x2 x3 x4 x5) (p : Fin 2048) :
    Tile.first bi j x0 x1 x2 x3 x4 x5 p = Mn X Sg ℓ (bi * 2048 + p.val) ((31 - j) * 256) := by
  unfold Tile.first
  exact m_eq_n B p 0

variable (X Sg ℓ)

/-- The 32 column tiles of 256, taken from the last down to the first, are the 8192 columns of a row. -/
theorem rowK_tiles (i : Fin 8192) :
    ∑ s : Fin 32, ∑ q : Fin 256, Mn X Sg ℓ i.val ((31 - s.val) * 256 + q.val) = rowK X Sg ℓ i := by
  rw [← Equiv.sum_comp Fin.revPerm]
  have hrev : ∀ s : Fin 32, 31 - (Fin.revPerm s).val = s.val := fun s => by
    have := s.isLt
    rw [Fin.revPerm_apply, Fin.val_rev]; omega
  simp only [hrev]
  rw [Cert.Hand.BlockSum.sum_blocks_nat_cast 32 256 8192 rfl (fun k => Mn X Sg ℓ i.val k)]
  unfold rowK
  exact Finset.sum_congr rfl fun k _ => Mn_val X Sg ℓ i k

end Cert.SkipSelf.TileM

end
-- ==== Proof.BlockReads.lean ====
/-
  The blocks a grid point is handed, read entry by entry.  Grid point `t` is column step `t mod 32` of row tile
  `t / 32`.  An entry of a block sits in its array, on each axis, at the block index times the block's extent plus its
  coordinate inside the block: the feature blocks of the rows start at row `(t / 32) · 2048`, the blocks of the
  columns' operands at row `(31 − t mod 32) · 256`, the row part at row `(t / 32) · 2048` and the column part at
  column `(31 − t mod 32) · 256`.  With the host's operands read entry by entry, the six blocks are the blocks the
  tile functions are stated over.
-/
import proofs.«422816_j11381663334552_3_alg».proof.Proof.KernelOperands
import proofs.«422816_j11381663334552_3_alg».proof.Proof.TileSpec

noncomputable section

open Idealize.ShloMosaic Idealize.ShloMosaic.TcCoe Idealize.ShloMosaic.ValueIdx Idealize.SL.Sem
open Cert.KernelIdeal Cert.KernelIdeal.Gen Cert.SkipSelf.Operands Cert.SkipSelf.TileM

namespace Cert.SkipSelf.Arrays

variable (m : (ℓ : Loc nD τ sig) → Buf (Elt Ideal) ℓ) (ℓ : Dev nD → Fin 8192 → Fin 8191)

/-- The row tile and the column step of grid point `t`. -/
abbrev rt (t : Fin cfg0.N) : ℕ := (grid0.coords t 0).val
abbrev cs (t : Fin cfg0.N) : ℕ := (grid0.coords t 1).val

theorem rt_lt (t : Fin cfg0.N) : rt t < 4 := (grid0.coords t 0).isLt
theorem cs_lt (t : Fin cfg0.N) : cs t < 32 := (grid0.coords t 1).isLt

/-- The points are numbered row tile by row tile. -/
theorem rt_eq : ∀ t : Fin cfg0.N, rt t = t.val / 32 :=
  (by decide +kernel : ∀ t : Fin grid0.N, (grid0.coords t 0).val = t.val / 32)
theorem cs_eq : ∀ t : Fin cfg0.N, cs t = t.val % 32 :=
  (by decide +kernel : ∀ t : Fin grid0.N, (grid0.coords t 1).val = t.val % 32)

/-! ### The block indices, decided over the grid -/

theorem idx0 : ∀ t : Fin cfg0.N, win0_0.index t (0 : Fin 2) = rt t ∧ win0_0.index t (1 : Fin 2) = 0 :=
  (by decide +kernel : ∀ t : Fin grid0.N, win0_0.index t (0 : Fin 2) = (grid0.coords t 0).val ∧ win0_0.index t (1 : Fin 2) = 0)
theorem idx1 : ∀ t : Fin cfg0.N, win0_1.index t (0 : Fin 2) = rt t ∧ win0_1.index t (1 : Fin 2) = 0 :=
  (by decide +kernel : ∀ t : Fin grid0.N, win0_1.index t (0 : Fin 2) = (grid0.coords t 0).val ∧ win0_1.index t (1 : Fin 2) = 0)
theorem idx2 : ∀ t : Fin cfg0.N, win0_2.index t (0 : Fin 2) = 31 - cs t ∧ win0_2.index t (1 : Fin 2) = 0 :=
  (by decide +kernel : ∀ t : Fin grid0.N, win0_2.index t (0 : Fin 2) = 31 - (grid0.coords t 1).val ∧ win0_2.index t (1 : Fin 2) = 0)
theorem idx3 : ∀ t : Fin cfg0.N, win0_3.index t (0 : Fin 2) = 31 - cs t ∧ win0_3.index t (1 : Fin 2) = 0 :=
  (by decide +kernel : ∀ t : Fin grid0.N, win0_3.index t (0 : Fin 2) = 31 - (grid0.coords t 1).val ∧ win0_3.index t (1 : Fin 2) = 0)
theorem idx4 : ∀ t : Fin cfg0.N, win0_4.index t (0 : Fin 2) = rt t ∧ win0_4.index t (1 : Fin 2) = 0 :=
  (by decide +kernel : ∀ t : Fin grid0.N, win0_4.index t (0 : Fin 2) = (grid0.coords t 0).val ∧ win0_4.index t (1 : Fin 2) = 0)
theorem idx5 : ∀ t : Fin cfg0.N, win0_5.index t (0 : Fin 2) = 0 ∧ win0_5.index t (1 : Fin 2) = 31 - cs t :=
  (by decide +kernel : ∀ t : Fin grid0.N, win0_5.index t (0 : Fin 2) = 0 ∧ win0_5.index t (1 : Fin 2) = 31 - (grid0.coords t 1).val)

/-! ### The blocks, by their literal types -/

abbrev B0 (c : Dev nD) (t : Fin cfg0.N) : Vec Ideal S2048x512 .bf16 := iblk m c 0 t
abbrev B1 (c : Dev nD) (t : Fin cfg0.N) : Vec Ideal S2048x512 .bf16 := iblk m c 1 t
abbrev B2 (c : Dev nD) (t : Fin cfg0.N) : Vec Ideal S256x512 .bf16 := iblk m c 2 t
abbrev B3 (c : Dev nD) (t : Fin cfg0.N) : Vec Ideal S256x512 .bf16 := iblk m c 3 t
abbrev B4 (c : Dev nD) (t : Fin cfg0.N) : Vec Ideal S2048x1 .f32 := iblk m c 4 t
abbrev B5 (c : Dev nD) (t : Fin cfg0.N) : Vec Ideal S1x256 .f32 := iblk m c 5 t

/-- The features' block: rows `(t / 32) · 2048 + p`. -/
theorem B0_apply (c : Dev nD) (t : Fin cfg0.N) (p : Fin 2048) (d : Fin 512) :
    B0 m c t (ix2 p d) = (V m c main_v19 : S8192x512.Idx → EReal) (ix2 (gi (rt t) (rt_lt t) p) d) := by
  show V m c main_v19 (((cfg0.win 0).blk t).view.emb (ix2 p d)) = V m c main_v19 _
  refine congrArg (V m c main_v19) (funext fun a => Fin.ext ?_)
  match a with
  | ⟨0, _⟩ => show win0_0.index t (0 : Fin 2) * 2048 + 1 * p.val = rt t * 2048 + p.val; rw [(idx0 t).1]; omega
  | ⟨1, _⟩ => show win0_0.index t (1 : Fin 2) * 512 + 1 * d.val = d.val; rw [(idx0 t).2]; omega

/-- The squared features' block. -/
theorem B1_apply (c : Dev nD) (t : Fin cfg0.N) (p : Fin 2048) (d : Fin 512) :
    B1 m c t (ix2 p d) = (V m c main_v21 : S8192x512.Idx → EReal) (ix2 (gi (rt t) (rt_lt t) p) d) := by
  show V m c main_v21 (((cfg0.win 1).blk t).view.emb (ix2 p d)) = V m c main_v21 _
  refine congrArg (V m c main_v21) (funext fun a => Fin.ext ?_)
  match a with
  | ⟨0, _⟩ => show win0_1.index t (0 : Fin 2) * 2048 + 1 * p.val = rt t * 2048 + p.val; rw [(idx1 t).1]; omega
  | ⟨1, _⟩ => show win0_1.index t (1 : Fin 2) * 512 + 1 * d.val = d.val; rw [(idx1 t).2]; omega

/-- The inverse variances' block: rows `(31 − t mod 32) · 256 + q`. -/
theorem B2_apply (c : Dev nD) (t : Fin cfg0.N) (q : Fin 256) (d : Fin 512) :
    B2 m c t (ix2 q d) = (V m c main_v22 : S8192x512.Idx → EReal) (ix2 (gj (cs t) q) d) := by
  show V m c main_v22 (((cfg0.win 2).blk t).view.emb (ix2 q d)) = V m c main_v22 _
  refine congrArg (V m c main_v22) (funext fun a => Fin.ext ?_)
  match a with
  | ⟨0, _⟩ => show win0_2.index t (0 : Fin 2) * 256 + 1 * q.val = (31 - cs t) * 256 + q.val; rw [(idx2 t).1]; omega
  | ⟨1, _⟩ => show win0_2.index t (1 : Fin 2) * 512 + 1 * d.val = d.val; rw [(idx2 t).2]; omega

/-- The block of the features over the variances. -/
theorem B3_apply (c : Dev nD) (t : Fin cfg0.N) (q : Fin 256) (d : Fin 512) :
    B3 m c t (ix2 q d) = (V m c main_v24 : S8192x512.Idx → EReal) (ix2 (gj (cs t) q) d) := by
  show V m c main_v24 (((cfg0.win 3).blk t).view.emb (ix2 q d)) = V m c main_v24 _
  refine congrArg (V m c main_v24) (funext fun a => Fin.ext ?_)
  match a with
  | ⟨0, _⟩ => show win0_3.index t (0 : Fin 2) * 256 + 1 * q.val = (31 - cs t) * 256 + q.val; rw [(idx3 t).1]; omega
  | ⟨1, _⟩ => show win0_3.index t (1 : Fin 2) * 512 + 1 * d.val = d.val; rw [(idx3 t).2]; omega

/-- The row part's block. -/
theorem B4_apply (c : Dev nD) (t : Fin cfg0.N) (p : Fin 2048) :
    B4 m c t (ix2 p 0) = (V m c main_v63 : S8192x1.Idx → EReal) (ix2 (gi (rt t) (rt_lt t) p) 0) := by
  show V m c main_v63 (((cfg0.win 4).blk t).view.emb (ix2 p 0)) = V m c main_v63 _
  refine congrArg (V m c main_v63) (funext fun a => Fin.ext ?_)
  match a with
  | ⟨0, _⟩ => show win0_4.index t (0 : Fin 2) * 2048 + 1 * p.val = rt t * 2048 + p.val; rw [(idx4 t).1]; omega
  | ⟨1, _⟩ => show win0_4.index t (1 : Fin 2) * 1 + 1 * (0 : Fin 1).val = (0 : Fin 1).val; rw [(idx4 t).2]; rfl

/-- The column part's block. -/
theorem B5_apply (c : Dev nD) (t : Fin cfg0.N) (q : Fin 256) :
    B5 m c t (ix2 0 q) = (V m c main_v69 : S1x8192.Idx → EReal) (ix2 0 (gj (cs t) q)) := by
  show V m c main_v69 (((cfg0.win 5).blk t).view.emb (ix2 0 q)) = V m c main_v69 _
  refine congrArg (V m c main_v69) (funext fun a => Fin.ext ?_)
  match a with
  | ⟨0, _⟩ => show win0_5.index t (0 : Fin 2) * 1 + 1 * (0 : Fin 1).val = (0 : Fin 1).val; rw [(idx5 t).1]; rfl
  | ⟨1, _⟩ => show win0_5.index t (1 : Fin 2) * 256 + 1 * q.val = (31 - cs t) * 256 + q.val; rw [(idx5 t).2]; omega

/-- The six blocks of a grid point are the blocks of the operands the tile functions are stated over. -/
theorem blocks (hℓ : ∀ c : Dev nD, Lab (ℓ c) (m ((c.tc : Thread nD τ).loc main_arg2))) (c : Dev nD) (t : Fin cfg0.N) :
    Blocks (Xof m c) (Sof m c) (ℓ c) (rt t) (rt_lt t) (cs t) (B0 m c t) (B1 m c t) (B2 m c t) (B3 m c t) (B4 m c t) (B5 m c t) where
  feat p d := (B0_apply m c t p d).trans (feat m c _ d)
  featsq p d := (B1_apply m c t p d).trans (featsq m c _ d)
  invs q d := (B2_apply m c t q d).trans (invs m c _ d)
  featinvs q d := (B3_apply m c t q d).trans (featinvs m c _ d)
  rpart p := (B4_apply m c t p).trans (rpart m ℓ hℓ c _)
  cpart q := (B5_apply m c t q).trans (cpart m ℓ hℓ c _)

end Cert.SkipSelf.Arrays

end
-- ==== Proof.Invariant.lean ====
/-
  What the carried columns and the stored blocks hold after each grid point.  The carried first column after point `t`
  is column `(31 − t mod 32) · 256` of the full matrix, whatever came before; so the block stored at `t` (which reads
  the column carried from the point before for its last column) is the skip-self matrix on its rectangle.  The running
  row sum restarts at the first column step of a row tile and adds one tile's 256 entries per step; after the last
  step it is the sum over the 32 column tiles, that is over all 8192 columns: the full row sum.
-/
import proofs.«422816_j11381663334552_3_alg».proof.Proof.Pieces
import proofs.«422816_j11381663334552_3_alg».proof.Proof.BlockReads

noncomputable section

open Idealize.ShloMosaic Idealize.ShloMosaic.TcCoe Idealize.ShloMosaic.ValueIdx Idealize.SL.Sem
open Cert.KernelIdeal Cert.KernelIdeal.Gen Cert.SkipSelf.Operands Cert.SkipSelf.TileM
open scoped BigOperators

namespace Cert.SkipSelf.Arrays

variable (m : (ℓ : Loc nD τ sig) → Buf (Elt Ideal) ℓ) (ℓ : Dev nD → Fin 8192 → Fin 8191)

/-- A per-case fact of the kernel at grid point `t`: the point's coordinates, staging buffers and carried scratch. -/
local macro "PT[" f:term "," c:term "," t:term "]" : term =>
  `($f $c (grid0.coords $t) (ms0_0 $t) (hs0_0 $t) (ms0_1 $t) (hs0_1 $t) (ms0_2 $t) (hs0_2 $t) (ms0_3 $t) (hs0_3 $t)
    (ms0_4 $t) (hs0_4 $t) (ms0_5 $t) (hs0_5 $t) (ms0_6 $t) (hs0_6 $t) (ms0_7 $t) (hs0_7 $t)
    scM0_0 (Memref.isWhole_whole _) scM0_1 (Memref.isWhole_whole _))

/-- What the point before `t` left in the two carried columns. -/
abbrev prevAcc (c : Dev nD) (t : Fin cfg0.N) : Vec Ideal S2048x1 .f32 :=
  (outsAt0 m c (t.val - 1) (Nat.lt_of_le_of_lt (Nat.sub_le _ _) t.isLt)).2.2.1
abbrev prevCol (c : Dev nD) (t : Fin cfg0.N) : Vec Ideal S2048x1 .f32 :=
  (outsAt0 m c (t.val - 1) (Nat.lt_of_le_of_lt (Nat.sub_le _ _) t.isLt)).2.2.2

/-- The first column step of a row tile: the tile functions over zeroed carried columns. -/
theorem step_A (c : Dev nD) (t : Fin cfg0.N) (h0 : t.val % 32 = 0) (h1 : ¬ t.val % 32 = 31) (p : Fin 2048) :
    (outsAt0 m c t.val t.isLt).2.2.1 (ix2 p 0) = Tile.acc (rt t) (cs t) (B0 m c t) (B1 m c t) (B2 m c t) (B3 m c t) (B4 m c t) (B5 m c t) (fun _ => 0) p
    ∧ (outsAt0 m c t.val t.isLt).2.2.2 (ix2 p 0) = Tile.first (rt t) (cs t) (B0 m c t) (B1 m c t) (B2 m c t) (B3 m c t) (B4 m c t) (B5 m c t) p
    ∧ ∀ q : Fin 256, (outsAt0 m c t.val t.isLt).1 (ix2 p q) = Tile.out (rt t) (cs t) (B0 m c t) (B1 m c t) (B2 m c t) (B3 m c t) (B4 m c t) (B5 m c t) (fun _ => 0) p q := by
  rw [outsAt0_A m c t h0 h1]
  dsimp only
  exact ⟨(PT[Pieces.acc_A, c, t]) ((hcond0_0 t).mpr h0) (fun h => h1 ((hcond0_1 t).mp h)) (B0 m c t) (B1 m c t) (B2 m c t) (B3 m c t) (B4 m c t) (B5 m c t) p,
    (PT[Pieces.first_A, c, t]) ((hcond0_0 t).mpr h0) (fun h => h1 ((hcond0_1 t).mp h)) (B0 m c t) (B1 m c t) (B2 m c t) (B3 m c t) (B4 m c t) (B5 m c t) p,
    fun q => (PT[Pieces.out_A, c, t]) ((hcond0_0 t).mpr h0) (fun h => h1 ((hcond0_1 t).mp h)) (B0 m c t) (B1 m c t) (B2 m c t) (B3 m c t) (B4 m c t) (B5 m c t) p q⟩

/-- A middle column step: the tile functions over what the point before left. -/
theorem step_B (c : Dev nD) (t : Fin cfg0.N) (h0 : ¬ t.val % 32 = 0) (h1 : ¬ t.val % 32 = 31) (p : Fin 2048) :
    (outsAt0 m c t.val t.isLt).2.2.1 (ix2 p 0) = Tile.acc (rt t) (cs t) (B0 m c t) (B1 m c t) (B2 m c t) (B3 m c t) (B4 m c t) (B5 m c t) (prevAcc m c t) p
    ∧ (outsAt0 m c t.val t.isLt).2.2.2 (ix2 p 0) = Tile.first (rt t) (cs t) (B0 m c t) (B1 m c t) (B2 m c t) (B3 m c t) (B4 m c t) (B5 m c t) p
    ∧ ∀ q : Fin 256, (outsAt0 m c t.val t.isLt).1 (ix2 p q) = Tile.out (rt t) (cs t) (B0 m c t) (B1 m c t) (B2 m c t) (B3 m c t) (B4 m c t) (B5 m c t) (prevCol m c t) p q := by
  rw [outsAt0_B m c t h0 h1]
  dsimp only
  exact ⟨(PT[Pieces.acc_B, c, t]) (fun h => h0 ((hcond0_0 t).mp h)) (fun h => h1 ((hcond0_1 t).mp h)) (B0 m c t) (B1 m c t) (B2 m c t) (B3 m c t) (B4 m c t) (B5 m c t) (prevAcc m c t) (prevCol m c t) p,
    (PT[Pieces.first_B, c, t]) (fun h => h0 ((hcond0_0 t).mp h)) (fun h => h1 ((hcond0_1 t).mp h)) (B0 m c t) (B1 m c t) (B2 m c t) (B3 m c t) (B4 m c t) (B5 m c t) (prevAcc m c t) (prevCol m c t) p,
    fun q => (PT[Pieces.out_B, c, t]) (fun h => h0 ((hcond0_0 t).mp h)) (fun h => h1 ((hcond0_1 t).mp h)) (B0 m c t) (B1 m c t) (B2 m c t) (B3 m c t) (B4 m c t) (B5 m c t) (prevAcc m c t) (prevCol m c t) p q⟩

/-- The last column step: as a middle step, and the row sum is also handed out. -/
theorem step_C (c : Dev nD) (t : Fin cfg0.N) (h0 : ¬ t.val % 32 = 0) (h1 : t.val % 32 = 31) (p : Fin 2048) :
    (outsAt0 m c t.val t.isLt).2.2.1 (ix2 p 0) = Tile.acc (rt t) (cs t) (B0 m c t) (B1 m c t) (B2 m c t) (B3 m c t) (B4 m c t) (B5 m c t) (prevAcc m c t) p
    ∧ (outsAt0 m c t.val t.isLt).2.2.2 (ix2 p 0) = Tile.first (rt t) (cs t) (B0 m c t) (B1 m c t) (B2 m c t) (B3 m c t) (B4 m c t) (B5 m c t) p
    ∧ (∀ q : Fin 256, (outsAt0 m c t.val t.isLt).1 (ix2 p q) = Tile.out (rt t) (cs t) (B0 m c t) (B1 m c t) (B2 m c t) (B3 m c t) (B4 m c t) (B5 m c t) (prevCol m c t) p q)
    ∧ (outsAt0 m c t.val t.isLt).2.1 (ix2 p 0) = Tile.acc (rt t) (cs t) (B0 m c t) (B1 m c t) (B2 m c t) (B3 m c t) (B4 m c t) (B5 m c t) (prevAcc m c t) p := by
  rw [outsAt0_C m c t h0 h1]
  dsimp only
  exact ⟨(PT[Pieces.acc_C, c, t]) (fun h => h0 ((hcond0_0 t).mp h)) ((hcond0_1 t).mpr h1) (B0 m c t) (B1 m c t) (B2 m c t) (B3 m c t) (B4 m c t) (B5 m c t) (prevAcc m c t) (prevCol m c t) p,
    (PT[Pieces.first_C, c, t]) (fun h => h0 ((hcond0_0 t).mp h)) ((hcond0_1 t).mpr h1) (B0 m c t) (B1 m c t) (B2 m c t) (B3 m c t) (B4 m c t) (B5 m c t) (prevAcc m c t) (prevCol m c t) p,
    fun q => (PT[Pieces.out_C, c, t]) (fun h => h0 ((hcond0_0 t).mp h)) ((hcond0_1 t).mpr h1) (B0 m c t) (B1 m c t) (B2 m c t) (B3 m c t) (B4 m c t) (B5 m c t) (prevAcc m c t) (prevCol m c t) p q,
    (PT[Pieces.rowsum_C, c, t]) (fun h => h0 ((hcond0_0 t).mp h)) ((hcond0_1 t).mpr h1) (B0 m c t) (B1 m c t) (B2 m c t) (B3 m c t) (B4 m c t) (B5 m c t) (prevAcc m c t) (prevCol m c t) p⟩

variable (hℓ : ∀ c : Dev nD, Lab (ℓ c) (m ((c.tc : Thread nD τ).loc main_arg2)))
include hℓ

/-- After any point the carried first column is the tile's first column of the full matrix. -/
theorem first_at (c : Dev nD) (t : Fin cfg0.N) (p : Fin 2048) :
    (outsAt0 m c t.val t.isLt).2.2.2 (ix2 p 0) = Mn (Xof m c) (Sof m c) (ℓ c) (rt t * 2048 + p.val) ((31 - cs t) * 256) := by
  have B := blocks m ℓ hℓ c t
  by_cases h0 : t.val % 32 = 0
  · have h1 : ¬ t.val % 32 = 31 := by omega
    exact (step_A m c t h0 h1 p).2.1.trans (first_eq B p)
  · by_cases h1 : t.val % 32 = 31
    · exact (step_C m c t h0 h1 p).2.1.trans (first_eq B p)
    · exact (step_B m c t h0 h1 p).2.1.trans (first_eq B p)

/-- The column carried into a point that is not a row tile's first is the column right of the point's tile. -/
theorem prevCol_eq (c : Dev nD) (t : Fin cfg0.N) (h0 : ¬ t.val % 32 = 0) (p : Fin 2048)
    (h : (31 - cs t) * 256 + 256 < 8192) :
    prevCol m c t (ix2 p 0) = M (Xof m c) (Sof m c) (ℓ c) (gi (rt t) (rt_lt t) p) ⟨(31 - cs t) * 256 + 256, h⟩ := by
  have ht' : t.val - 1 < cfg0.N := Nat.lt_of_le_of_lt (Nat.sub_le _ _) t.isLt
  have e := first_at m ℓ hℓ c ⟨t.val - 1, ht'⟩ p
  have e1 : rt ⟨t.val - 1, ht'⟩ = rt t := by
    rw [rt_eq, rt_eq]; show (t.val - 1) / 32 = t.val / 32; omega
  have e2 : (31 - cs ⟨t.val - 1, ht'⟩) * 256 = (31 - cs t) * 256 + 256 := by
    rw [cs_eq, cs_eq]; show (31 - (t.val - 1) % 32) * 256 = (31 - t.val % 32) * 256 + 256
    have := Nat.mod_lt t.val (show 0 < 32 by norm_num); omega
  rw [e1, e2] at e
  exact e.trans (Mn_mk _ _ _ _ _ (gi (rt t) (rt_lt t) p).isLt h)

/-- The block stored at a point is the skip-self matrix on the block's rectangle, at every column of the block that
    is a column of that matrix. -/
theorem out_at (c : Dev nD) (t : Fin cfg0.N) (p : Fin 2048) (q : Fin 256) (hcc : (31 - cs t) * 256 + q.val < 8191) :
    (outsAt0 m c t.val t.isLt).1 (ix2 p q)
      = logitK (Xof m c) (Sof m c) (ℓ c) (gi (rt t) (rt_lt t) p) ⟨(31 - cs t) * 256 + q.val, hcc⟩ := by
  have B := blocks m ℓ hℓ c t
  by_cases h0 : t.val % 32 = 0
  · have h1 : ¬ t.val % 32 = 31 := by omega
    have hcs : cs t = 0 := (cs_eq t).trans h0
    exact ((step_A m c t h0 h1 p).2.2 q).trans
      (out_eq B (fun _ => 0) (fun p h => absurd h (by rw [hcs]; omega)) p q hcc)
  · by_cases h1 : t.val % 32 = 31
    · exact ((step_C m c t h0 h1 p).2.2.1 q).trans (out_eq B (prevCol m c t) (prevCol_eq m ℓ hℓ c t h0) p q hcc)
    · exact ((step_B m c t h0 h1 p).2.2 q).trans (out_eq B (prevCol m c t) (prevCol_eq m ℓ hℓ c t h0) p q hcc)

/-- The 256 entries of row `p` of the tile worked on at point `n`, added up. -/
def tileN (c : Dev nD) (p : Fin 2048) (n : ℕ) : EReal :=
  ∑ q : Fin 256, Mn (Xof m c) (Sof m c) (ℓ c) (n / 32 * 2048 + p.val) ((31 - n % 32) * 256 + q.val)

omit hℓ in
/-- The running row sum of row `p` after point `n`. -/
def accN (c : Dev nD) (p : Fin 2048) (n : ℕ) : EReal :=
  if h : n < cfg0.N then (outsAt0 m c n h).2.2.1 (ix2 p 0) else 0

theorem acc_A_at (c : Dev nD) (t : Fin cfg0.N) (h0 : t.val % 32 = 0) (p : Fin 2048) :
    (outsAt0 m c t.val t.isLt).2.2.1 (ix2 p 0) = 0 + tileN m ℓ c p t.val := by
  have h1 : ¬ t.val % 32 = 31 := by omega
  have e := (step_A m c t h0 h1 p).1.trans (acc_eq (blocks m ℓ hℓ c t) (fun _ => 0) p)
  unfold tileN
  rw [← rt_eq t, ← cs_eq t]
  exact e

theorem acc_BC_at (c : Dev nD) (t : Fin cfg0.N) (h0 : ¬ t.val % 32 = 0) (p : Fin 2048) :
    (outsAt0 m c t.val t.isLt).2.2.1 (ix2 p 0) = prevAcc m c t (ix2 p 0) + tileN m ℓ c p t.val := by
  have e : (outsAt0 m c t.val t.isLt).2.2.1 (ix2 p 0)
      = Tile.acc (rt t) (cs t) (B0 m c t) (B1 m c t) (B2 m c t) (B3 m c t) (B4 m c t) (B5 m c t) (prevAcc m c t) p := by
    by_cases h1 : t.val % 32 = 31
    · exact (step_C m c t h0 h1 p).1
    · exact (step_B m c t h0 h1 p).1
  have e' := e.trans (acc_eq (blocks m ℓ hℓ c t) (prevAcc m c t) p)
  unfold tileN
  rw [← rt_eq t, ← cs_eq t]
  exact e'

/-- After the last column step of a row tile the row sum handed out is the full row sum. -/
theorem rowsum_at (c : Dev nD) (t : Fin cfg0.N) (h31 : t.val % 32 = 31) (p : Fin 2048) :
    (outsAt0 m c t.val t.isLt).2.1 (ix2 p 0) = rowK (Xof m c) (Sof m c) (ℓ c) (gi (rt t) (rt_lt t) p) := by
  have hN : cfg0.N = 128 := N_0
  have h0 : ¬ t.val % 32 = 0 := by omega
  have hC := step_C m c t h0 h31 p
  have hA : ∀ n, n < 128 → n % 32 = 0 → accN m c p n = 0 + tileN m ℓ c p n := fun n hn hn0 => by
    have hn' : n < cfg0.N := by omega
    unfold accN; rw [dif_pos hn']
    exact acc_A_at m ℓ hℓ c ⟨n, hn'⟩ hn0 p
  have hB : ∀ n, n < 128 → n % 32 ≠ 0 → accN m c p n = accN m c p (n - 1) + tileN m ℓ c p n := fun n hn hn0 => by
    have hn' : n < cfg0.N := by omega
    have hn'' : n - 1 < cfg0.N := by omega
    unfold accN; rw [dif_pos hn', dif_pos hn'']
    exact acc_BC_at m ℓ hℓ c ⟨n, hn'⟩ hn0 p
  have key := Cert.Hand.BlockSum.seg_acc_last_zero_add 32 (by norm_num) (accN m c p) (tileN m ℓ c p) 128 hA hB
    t.val (by have := t.isLt; omega) h31
  have hacc : accN m c p t.val = (outsAt0 m c t.val t.isLt).2.2.1 (ix2 p 0) := by
    unfold accN; rw [dif_pos t.isLt]
  rw [hC.2.2.2, ← hC.1, ← hacc, key]
  have ht : ∀ i : Fin 32, tileN m ℓ c p (32 * (t.val / 32) + i.val)
      = ∑ q : Fin 256, Mn (Xof m c) (Sof m c) (ℓ c) ((gi (rt t) (rt_lt t) p).val) ((31 - i.val) * 256 + q.val) := fun i => by
    have hi := i.isLt
    unfold tileN
    rw [show (32 * (t.val / 32) + i.val) / 32 = t.val / 32 by omega,
      show (32 * (t.val / 32) + i.val) % 32 = i.val by omega, ← rt_eq t]
  simp only [ht]
  exact rowK_tiles (Xof m c) (Sof m c) (ℓ c) (gi (rt t) (rt_lt t) p)

end Cert.SkipSelf.Arrays

end
-- ==== Proof.KernelArrays.lean ====
/-
  From grid points to whole arrays.  By induction over the 128 grid points (4 row tiles, each 32 column steps taken
  from the last column tile down to the first): after column step `j` of row tile `bi` the running row sum holds the
  sum of the full matrix's entries of the column tiles `31 − j … 31`, and the carried column holds column
  `(31 − j) · 256` of the full matrix; so the block stored at that point holds the skip-self matrix's entries
  of its rectangle (the last column tile's block overhangs the 8191 columns by one and is clipped), and the
  row-sum block handed out at the last step holds the full row sums.  The blocks cover their arrays: entry
  `(r, cc)` of the skip-self matrix is written at column step `31 − cc / 256` of row tile `r / 2048`, row `r` of
  the row sums at the last column step of that row tile.
-/
import proofs.«422816_j11381663334552_3_alg».proof.Proof.Invariant
import Idealize.ShloMosaic.Lib.Pipeline.Value

noncomputable section

open Idealize.ShloMosaic Idealize.ShloMosaic.TcCoe Idealize.ShloMosaic.ValueIdx Idealize.SL.Sem
open Cert.KernelIdeal Cert.KernelIdeal.Gen Cert.SkipSelf.Operands Cert.SkipSelf.TileM

namespace Cert.SkipSelf.Arrays

variable (m : (ℓ : Loc nD τ sig) → Buf (Elt Ideal) ℓ) (ℓ : Dev nD → Fin 8192 → Fin 8191)

/-! ### The two output windows' block indices and clipped extents, decided over the grid -/

theorem idx6 : ∀ t : Fin cfg0.N, win0_6.index t (0 : Fin 2) = rt t ∧ win0_6.index t (1 : Fin 2) = 31 - cs t :=
  (by decide +kernel : ∀ t : Fin grid0.N, win0_6.index t (0 : Fin 2) = (grid0.coords t 0).val ∧ win0_6.index t (1 : Fin 2) = 31 - (grid0.coords t 1).val)
theorem idx7 : ∀ t : Fin cfg0.N, win0_7.index t (0 : Fin 2) = rt t ∧ win0_7.index t (1 : Fin 2) = 0 :=
  (by decide +kernel : ∀ t : Fin grid0.N, win0_7.index t (0 : Fin 2) = (grid0.coords t 0).val ∧ win0_7.index t (1 : Fin 2) = 0)
/-- The stored block is whole but at the first column step of a row tile, where it is cut to 255 columns. -/
theorem xs6 : ∀ t : Fin cfg0.N, win0_6.xsize (grid0.coords t) (0 : Fin 2) = 2048
    ∧ win0_6.xsize (grid0.coords t) (1 : Fin 2) = if t.val % 32 = 0 then 255 else 256 :=
  (by decide +kernel : ∀ t : Fin grid0.N, win0_6.xsize (grid0.coords t) (0 : Fin 2) = 2048
    ∧ win0_6.xsize (grid0.coords t) (1 : Fin 2) = if t.val % 32 = 0 then 255 else 256)

/-- The skip-self matrix and the row sums, as contents of the two output arrays. -/
def G6 (c : Dev nD) : S8192x8191.Idx → EReal :=
  fun i => logitK (Xof m c) (Sof m c) (ℓ c) ⟨(i 0).val, idx2_lt0 i⟩ ⟨(i 1).val, idx2_lt1 i⟩
def G7 (c : Dev nD) : S8192x1.Idx → EReal :=
  fun i => rowK (Xof m c) (Sof m c) (ℓ c) ⟨(i 0).val, idx2_lt0 i⟩

/-- Every entry of the skip-self matrix is in the block of one grid point. -/
theorem cover6 (c : Dev nD) (i : S8192x8191.Idx) :
    ∃ t : Fin cfg0.N, (cfg0.win 6).flush t = true ∧ i ∈ ((cfg0.win 6).blk t).view.set := by
  have hN : cfg0.N = 128 := N_0
  have h0 := idx2_lt0 i
  have h1 := idx2_lt1 i
  obtain ⟨n, hn_def⟩ : ∃ n, n = (i 0).val / 2048 * 32 + (31 - (i 1).val / 256) := ⟨_, rfl⟩
  have hn : n < cfg0.N := by omega
  refine ⟨⟨n, hn⟩, flush0_6 _, ?_⟩
  show i ∈ ((View.whole main_v70_0).slice (win0_6.rect ⟨n, hn⟩)).set
  rw [View.set_slice_whole, Rect.mem_set_unit]
  have hi := idx6 ⟨n, hn⟩
  have hx := xs6 ⟨n, hn⟩
  have hr : rt ⟨n, hn⟩ = n / 32 := rt_eq ⟨n, hn⟩
  have hc : cs ⟨n, hn⟩ = n % 32 := cs_eq ⟨n, hn⟩
  intro a
  match a with
  | ⟨0, _⟩ =>
    show win0_6.index ⟨n, hn⟩ (0 : Fin 2) * 2048 ≤ (i 0).val
      ∧ (i 0).val < win0_6.index ⟨n, hn⟩ (0 : Fin 2) * 2048 + win0_6.xsize (grid0.coords ⟨n, hn⟩) (0 : Fin 2)
    rw [hi.1, hx.1, hr]; omega
  | ⟨1, _⟩ =>
    show win0_6.index ⟨n, hn⟩ (1 : Fin 2) * 256 ≤ (i 1).val
      ∧ (i 1).val < win0_6.index ⟨n, hn⟩ (1 : Fin 2) * 256 + win0_6.xsize (grid0.coords ⟨n, hn⟩) (1 : Fin 2)
    rw [hi.2, hx.2, hc]
    show (31 - n % 32) * 256 ≤ (i 1).val ∧ (i 1).val < (31 - n % 32) * 256 + if n % 32 = 0 then 255 else 256
    split <;> omega

/-- Every row sum is in the block handed out at the last column step of its row tile. -/
theorem cover7 (c : Dev nD) (i : S8192x1.Idx) :
    ∃ t : Fin cfg0.N, (cfg0.win 7).flush t = true ∧ i ∈ ((cfg0.win 7).blk t).view.set := by
  have hN : cfg0.N = 128 := N_0
  have h0 := idx2_lt0 i
  have h1 := idx2_lt1 i
  obtain ⟨n, hn_def⟩ : ∃ n, n = (i 0).val / 2048 * 32 + 31 := ⟨_, rfl⟩
  have hn : n < cfg0.N := by omega
  refine ⟨⟨n, hn⟩, (flush0_7 _).mpr (by show n % 32 = 31; omega), ?_⟩
  show i ∈ ((View.whole main_v70_1).slice (win0_7.rect ⟨n, hn⟩)).set
  rw [View.set_slice_whole, Rect.mem_set_unit]
  have hi := idx7 ⟨n, hn⟩
  have hr : rt ⟨n, hn⟩ = n / 32 := rt_eq ⟨n, hn⟩
  intro a
  match a with
  | ⟨0, _⟩ =>
    show win0_7.index ⟨n, hn⟩ (0 : Fin 2) * 2048 ≤ (i 0).val ∧ (i 0).val < win0_7.index ⟨n, hn⟩ (0 : Fin 2) * 2048 + 2048
    rw [hi.1, hr]; omega
  | ⟨1, _⟩ =>
    show win0_7.index ⟨n, hn⟩ (1 : Fin 2) * 1 ≤ (i 1).val ∧ (i 1).val < win0_7.index ⟨n, hn⟩ (1 : Fin 2) * 1 + 1
    rw [hi.2]; omega

variable (hℓ : ∀ c : Dev nD, Lab (ℓ c) (m ((c.tc : Thread nD τ).loc main_arg2)))
include hℓ

/-- What a grid point writes back into the skip-self matrix is the matrix's block there. -/
theorem flushed6 (c : Dev nD) (t : Fin cfg0.N) (hf : (cfg0.win 6).flush t = true) :
    (dats m 0 c).flushed 6 t = ((cfg0.win 6).blk t).view.read (Elt Ideal) (G6 m ℓ c) := by
  funext y
  have hx := xs6 t
  have hy0 : (y (0 : Fin 2)).val < 2048 := lt_of_lt_of_eq (y (0 : Fin 2)).isLt hx.1
  have hy1 : (y (1 : Fin 2)).val < (if t.val % 32 = 0 then 255 else 256) := lt_of_lt_of_eq (y (1 : Fin 2)).isLt hx.2
  have hy1' : (y (1 : Fin 2)).val < 256 := by split at hy1 <;> omega
  have hcs := cs_eq t
  have hcc : (31 - cs t) * 256 + (y (1 : Fin 2)).val < 8191 := by
    have := Nat.mod_lt t.val (show 0 < 32 by norm_num)
    rw [hcs]; split at hy1 <;> omega
  show (cfg0.win 6).cut (grid0.coords t) ((dats m 0 c).after 6 t) y = G6 m ℓ c (((cfg0.win 6).blk t).view.emb y)
  rw [after0_6]
  have e : (cfg0.win 6).xinj (grid0.coords t) y = ix2 (⟨(y (0 : Fin 2)).val, hy0⟩ : Fin 2048) (⟨(y (1 : Fin 2)).val, hy1'⟩ : Fin 256) :=
    funext fun a => match a with | ⟨0, _⟩ => rfl | ⟨1, _⟩ => rfl
  show (outsAt0 m c t.val t.isLt).1 ((cfg0.win 6).xinj (grid0.coords t) y) = _
  rw [e, out_at m ℓ hℓ c t ⟨(y (0 : Fin 2)).val, hy0⟩ ⟨(y (1 : Fin 2)).val, hy1'⟩ hcc]
  unfold G6
  have hi := idx6 t
  refine congrArg₂ (logitK (Xof m c) (Sof m c) (ℓ c)) (Fin.ext ?_) (Fin.ext ?_)
  · show rt t * 2048 + (y (0 : Fin 2)).val = win0_6.index t (0 : Fin 2) * 2048 + 1 * (y (0 : Fin 2)).val
    rw [hi.1]; omega
  · show (31 - cs t) * 256 + (y (1 : Fin 2)).val = win0_6.index t (1 : Fin 2) * 256 + 1 * (y (1 : Fin 2)).val
    rw [hi.2]; omega

/-- What the last column step of a row tile writes back into the row sums is their block there. -/
theorem flushed7 (c : Dev nD) (t : Fin cfg0.N) (hf : (cfg0.win 7).flush t = true) :
    (dats m 0 c).flushed 7 t = ((cfg0.win 7).blk t).view.read (Elt Ideal) (G7 m ℓ c) := by
  have h31 := (flush0_7 t).mp hf
  funext y
  have hy0 : (y (0 : Fin 2)).val < 2048 := (y (0 : Fin 2)).isLt
  show (cfg0.win 7).cut (grid0.coords t) ((dats m 0 c).after 7 t) y = G7 m ℓ c (((cfg0.win 7).blk t).view.emb y)
  rw [after0_7]
  have e : (cfg0.win 7).xinj (grid0.coords t) y = ix2 (⟨(y (0 : Fin 2)).val, hy0⟩ : Fin 2048) (0 : Fin 1) :=
    funext fun a => match a with | ⟨0, _⟩ => rfl | ⟨1, _⟩ => Subsingleton.elim (α := Fin 1) _ _
  show (outsAt0 m c t.val t.isLt).2.1 ((cfg0.win 7).xinj (grid0.coords t) y) = _
  rw [e, rowsum_at m ℓ hℓ c t h31]
  unfold G7
  have hi := idx7 t
  refine congrArg (rowK (Xof m c) (Sof m c) (ℓ c)) (Fin.ext ?_)
  show rt t * 2048 + (y (0 : Fin 2)).val = win0_7.index t (0 : Fin 2) * 2048 + 1 * (y (0 : Fin 2)).val
  rw [hi.1]; omega

/-- The skip-self matrix the region leaves, as a whole array. -/
theorem final6 (c : Dev nD) : (dats m 0 c).arrAt 6 cfg0.N = G6 m ℓ c :=
  (dats m 0 c).arrAt_eq_of_cover 6 (G6 m ℓ c) (flushed6 m ℓ hℓ c) (cover6 c)

/-- The row sums the region leaves, as a whole array. -/
theorem final7 (c : Dev nD) : (dats m 0 c).arrAt 7 cfg0.N = G7 m ℓ c :=
  (dats m 0 c).arrAt_eq_of_cover 7 (G7 m ℓ c) (flushed7 m ℓ hℓ c) (cover7 c)

/-- The skip-self matrix the region leaves. -/
theorem logit_final (c : Dev nD) (b : Fin 8192) (k : Fin 8191) :
    ((dats m 0 c).arrAt 6 cfg0.N : S8192x8191.Idx → EReal) (ix2 b k) = logitK (Xof m c) (Sof m c) (ℓ c) b k := by
  rw [final6 m ℓ hℓ c]; rfl

/-- The row sums the region leaves. -/
theorem rowsum_final (c : Dev nD) (b : Fin 8192) :
    ((dats m 0 c).arrAt 7 cfg0.N : S8192x1.Idx → EReal) (ix2 b 0) = rowK (Xof m c) (Sof m c) (ℓ c) b := by
  rw [final7 m ℓ hℓ c]; rfl

end Cert.SkipSelf.Arrays

end
-- ==== Proof.KernelValue.lean ====
/-
  The kernel's run with its two results named.  The region leaves the skip-self matrix and the row sums; the lines
  after it take the log of each row sum, add the logs up and divide by 8192: the kernel's form of the loss.
  The arguments are untouched by every line.
-/
import proofs.«422816_j11381663334552_3_alg».proof.Proof.KernelArrays
import Idealize.ShloMosaic.Lib.StableHlo.Run
import Idealize.ShloMosaic.Lib.Pipeline.Value
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen Cert.SkipSelf.Operands

namespace Cert.SkipSelf.Kernel

variable (m : (ℓ : Loc nD τ sig) → Buf (Elt Ideal) ℓ) (ρ : Dev nD → PrngReg) (ℓ : Dev nD → Fin 8192 → Fin 8191)

/-- The loss the lines after the region compute from the row sums the region leaves. -/
theorem tail_loss (hℓ : ∀ c : Dev nD, Lab (ℓ c) (m ((c.tc : Thread nD τ).loc main_arg2))) (c : Dev nD) :
    Pipeline.afterTail₀ cfgs (dats m) 0 (V0 m) [hostOps1] c main_v74
      = fun _ => lossK (Xof m c) (Sof m c) (ℓ c) := by
  unfold Pipeline.afterTail₀
  show StableHlo.after hostOps1 _ (Proc.devRef .tc main_v74) = _
  after_results
  have hA : Pipeline.withArrays (cfgs 0).spec c (V0 m c) (fun w => (dats m 0 c).arrAt w (cfgs 0).N) (Proc.devRef .tc main_v70_1)
      = (dats m 0 c).arrAt 7 cfg0.N :=
    Pipeline.withArrays_arr spec0 launch0.win.arr_inj c _ _ 7
  funext y
  simp only [Host.divf, Host.reduceAdd, Host.log, constant, Ideal.hostDivf_def, Ideal.hostReduceAdd_def,
    Ideal.hostUnary_log_def, Ideal.ofBits_def]
  unfold lossK
  congr 1
  rw [Ideal.hostReduceAdd_total _ (fun b => b.elim0), Ideal.ofBits_zero_f32, zero_add]
  have key : ∀ a : Fin 8192, (Host.log (F := Ideal) (φ := .f32) fun i =>
        shapeCast main_v71.ty.shape
          (Pipeline.withArrays (cfgs 0).spec c (V0 m c) (fun w => (dats m 0 c).arrAt w (cfgs 0).N) (Proc.tc.devRef main_v70_1))
          shapeCasts_S8192x1_S8192 i) (ix1 a) = Ideal.log (rowK (Xof m c) (Sof m c) (ℓ c) a) := by
    intro a
    show Ideal.log (shapeCast main_v71.ty.shape _ shapeCasts_S8192x1_S8192 (ix1 a)) = _
    congr 1
    refine (shapeCast_apply _ _ (ix1 a) (ix2 a (0 : Fin 1)) ?_).trans ?_
    · rw [Shape.rowMajor_val_two, Shape.rowMajor_val_one]
      show a.val * 1 + 0 = a.val
      omega
    · rw [hA]
      exact Arrays.rowsum_final m ℓ hℓ c a
  refine (Fintype.sum_equiv ⟨fun i => i 0, ix1, fun i => (eq_ix1 i).symm, fun a => rfl⟩ _
    (fun a => Ideal.log (rowK (Xof m c) (Sof m c) (ℓ c) a)) (fun i => ?_))
  rw [eq_ix1 i]
  exact key (i 0)

/-- Every weakly fair execution of the kernel's program ends with the loss and the skip-self matrix in the kernel's
    form of the specification, the arguments unchanged. -/
theorem run (hℓ : ∀ c : Dev nD, Lab (ℓ c) (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v74) = (fun _ => lossK (Xof m c) (Sof m c) (ℓ c))
      ∧ r.2.mem ((c.tc : Thread nD τ).loc main_v70_0) = (fun y => logitK (Xof m c) (Sof m c) (ℓ c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_, ?_⟩) (run_main m ρ)
  · exact ((h c).2 main_v74 (Pipeline.mem_restRefs_of main_v74 (by decide) (by decide))).trans (tail_loss m ℓ hℓ c)
  · refine ((h c).1 6).trans ?_
    funext y
    rw [eq_ix2 y]
    exact Arrays.logit_final m ℓ hℓ c (y 0) (y 1)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.SkipSelf.Kernel

end
-- ==== Proof.RefGather.lean ====
/-
  General reading lemmas for the reference's index machinery, with no program in sight.

  * A gather ALONG AXIS 1 of a matrix, one batch per row (what taking along an axis of a matrix lowers to): operand
    [R, N], start indices [R, C, 1], result [R, C]; axis 0 of the operand is a batching axis paired with axis 0 of the
    start indices, axis 1 is collapsed and named by the start index map. Element (b, k) of the result is the operand's
    element (b, r), where r is the start index idx[b, k, 0] read signed and clamped into 0 … N - 1.
  * An and-reduction of one-bit words all of which are 1, from the initial value 1, is 1.
  * Small words: the sum k + [b ≤ k] of values below 8192 is the value of succAbove, and a word below 2^31 that is at
    most a bound passes the sign test and the range test of the gather's guard.
-/
import Idealize.ShloMosaic.PureOps.Ideal
import Idealize.ShloMosaic.PureOps.Reduce
import Idealize.ShloMosaic.Lib.ValueIdx
import Idealize.ShloMosaic.Lib.StableHlo.Predicate

noncomputable section

namespace Cert.SkipSelf.Gather

open Idealize.ShloMosaic Idealize.ShloMosaic.ValueIdx

section Along
variable {α : Type}

/-- The dimension numbers written out. -/
abbrev alongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

variable {R N C w : Nat}
  (wf : GatherDims.WF ⟨2, ![R, N]⟩ ⟨3, ![R, C, 1]⟩ ⟨2, ![R, C]⟩ [] [1] [0] [1] [0] 2 ![1, 1])

/-- Where result element (b, k) reads its start index: the result's two axes are both batch axes and read the start
    indices' axes 0 and 1; the index vector's axis (axis 2, of size one) gets the component's number 0. -/
theorem alongDims_siIdx (b : Fin R) (k : Fin C) (h1 : (1 : Fin 2) ∈ (alongDims R N C wf).startIndexMap) :
    (alongDims R N C wf).siIdx (ix2 b k) ⟨List.idxOf (1 : Fin 2) (alongDims R N C wf).startIndexMap,
        List.idxOf_lt_length_iff.2 h1⟩ = ix3 b k (0 : Fin 1) := by
  funext a
  refine Fin.ext ?_
  match a with
  | ⟨0, _⟩ => rfl
  | ⟨1, _⟩ => rfl
  | ⟨2, _⟩ => rfl

/-- Axis 0 of the operand index (the batching axis): the batch coordinate b; the slice starts at 0 there and the axis
    has no offset. -/
theorem alongDims_axis0 (idx : IVec (⟨3, ![R, C, 1]⟩ : Shape) w) (b : Fin R) (k : Fin C) :
    (alongDims R N C wf).start (ix2 b k) idx 0 + (alongDims R N C wf).batchCoord (ix2 b k) 0
        + (alongDims R N C wf).offCoord (ix2 b k) 0 = b.val := by
  have h0 : (0 : Fin 2) ∈ (alongDims R N C wf).operandBatchingDims := List.mem_singleton.mpr rfl
  rw [GatherDims.start_batching _ _ _ _ h0,
    GatherDims.offCoord_eq_zero _ _ _ (fun h => ((GatherDims.mem_sKept _ _).mp h).2 h0), Nat.zero_add, Nat.add_zero]
  unfold GatherDims.batchCoord
  rw [dif_pos h0]
  rfl

/-- Axis 1 of the operand index (collapsed, named by the start index map): the start index clamped into 0 … N - 1. -/
theorem alongDims_axis1 (idx : IVec (⟨3, ![R, C, 1]⟩ : Shape) w) (b : Fin R) (k : Fin C) :
    (alongDims R N C wf).start (ix2 b k) idx 1 + (alongDims R N C wf).batchCoord (ix2 b k) 1
        + (alongDims R N C wf).offCoord (ix2 b k) 1 = min (idx (ix3 b k (0 : Fin 1))).toInt.toNat (N - 1) := by
  have h10 : (1 : Fin 2) ≠ 0 := by decide
  have h1 : (1 : Fin 2) ∈ (alongDims R N C wf).startIndexMap := List.mem_singleton.mpr rfl
  rw [GatherDims.batchCoord_eq_zero _ _ _ (fun h => h10 (List.mem_singleton.mp h)),
    GatherDims.offCoord_eq_zero _ _ _ (fun h => ((GatherDims.mem_sKept _ _).mp h).1 (List.mem_singleton.mpr rfl))]
  show (alongDims R N C wf).start (ix2 b k) idx 1 = _
  unfold GatherDims.start
  rw [dif_pos h1, alongDims_siIdx wf b k h1]
  rfl

/-- The gather of the written-out dimension numbers, read at (b, k). -/
theorem alongDims_apply (hN : 0 < N) (x : (⟨2, ![R, N]⟩ : Shape).Idx → α) (idx : IVec (⟨3, ![R, C, 1]⟩ : Shape) w)
    (b : Fin R) (k : Fin C) :
    Host.gather (alongDims R N C wf) x idx (ix2 b k)
      = x (ix2 b (⟨min (idx (ix3 b k (0 : Fin 1))).toInt.toNat (N - 1), by omega⟩ : Fin N)) := by
  unfold Host.gather
  congr 1
  funext a
  refine Fin.ext ?_
  match a with
  | ⟨0, _⟩ => exact alongDims_axis0 wf idx b k
  | ⟨1, _⟩ => exact alongDims_axis1 wf idx b k

end Along

/-- THE GATHER ALONG AXIS 1 READ AT (b, k): for any dimension-number record of that form. -/
theorem along_apply {α : Type} {R N C w : Nat} (hN : 0 < N)
    (g : GatherDims (⟨2, ![R, N]⟩ : Shape) (⟨3, ![R, C, 1]⟩ : Shape) (⟨2, ![R, C]⟩ : Shape))
    (hod : g.offsetDims = []) (hcs : g.collapsedSliceDims = [1]) (hob : g.operandBatchingDims = [0])
    (hsb : g.startIndicesBatchingDims = [0]) (hsm : g.startIndexMap = [1]) (hiv : g.indexVectorDim = 2)
    (hss : g.sliceSizes = ![1, 1])
    (x : (⟨2, ![R, N]⟩ : Shape).Idx → α) (idx : IVec (⟨3, ![R, C, 1]⟩ : Shape) w) (b : Fin R) (k : Fin C) :
    Host.gather g x idx (ix2 b k)
      = x (ix2 b (⟨min (idx (ix3 b k (0 : Fin 1))).toInt.toNat (N - 1), by omega⟩ : Fin N)) := by
  obtain ⟨od, cs, ob, sb, sm, iv, ss, wf⟩ := g
  dsimp only at hod hcs hob hsb hsm hiv hss
  subst hod hcs hob hsb hsm hiv hss
  exact alongDims_apply wf hN x idx b k

/-- A start index that is a small word within the table is read as itself. -/
theorem clamp_ofNat {N : Nat} (v : Nat) (hv : v < N) (hN : N ≤ 2 ^ 31) :
    min (BitVec.ofNat 32 v).toInt.toNat (N - 1) = v := by
  rw [StableHlo.Predicate.toInt_ofNat_small v (by omega)]
  simp only [Int.toNat_natCast]
  omega

/-! ### An and-reduction of ones -/

theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_ones f hf l _ (by rw [h, hf a]; rfl)

/-- An and-reduction from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl]
  exact foldl_andi_ones x hx _ _ hi

/-! ### Small words -/

/-- The guard of a gather on a start index that is a small word v ≤ hi: not negative, so the wrap-around select keeps
    it; and inside 0 … hi, so the range test is 1. -/
theorem slt_zero_ofNat (v : Nat) (hv : v < 2 ^ 31) : IntOp.cmpi .slt (BitVec.ofNat 32 v) 0#32 = 0#1 := by
  have h := (StableHlo.Predicate.slt_iff_toNat (a := BitVec.ofNat 32 v) (b := 0#32)
    (by rw [BitVec.toNat_ofNat]; exact lt_of_le_of_lt (Nat.mod_le _ _) hv) (by decide)).not
  have : ¬ (BitVec.ofNat 32 v).toNat < (0#32 : BitVec 32).toNat := by simp
  exact eq_zero_of_ne_one (h.mpr this)

theorem sge_zero_ofNat (v : Nat) (hv : v < 2 ^ 31) : IntOp.cmpi .sge (BitVec.ofNat 32 v) 0#32 = 1#1 :=
  (StableHlo.Predicate.sge_iff_toNat (a := BitVec.ofNat 32 v) (b := 0#32)
    (by rw [BitVec.toNat_ofNat]; exact lt_of_le_of_lt (Nat.mod_le _ _) hv) (by decide)).mpr (by simp)

theorem sle_ofNat (v hi : Nat) (hv : v ≤ hi) (hhi : hi < 2 ^ 31) :
    IntOp.cmpi .sle (BitVec.ofNat 32 v) (BitVec.ofNat 32 hi) = 1#1 :=
  (StableHlo.Predicate.sle_iff_toNat (a := BitVec.ofNat 32 v) (b := BitVec.ofNat 32 hi)
    (by rw [BitVec.toNat_ofNat]; exact lt_of_le_of_lt (Nat.mod_le _ _) (by omega))
    (by rw [BitVec.toNat_ofNat]; exact lt_of_le_of_lt (Nat.mod_le _ _) hhi)).mpr (by
      rw [BitVec.toNat_ofNat, BitVec.toNat_ofNat, Nat.mod_eq_of_lt (by omega), Nat.mod_eq_of_lt (by omega)]; exact hv)

/-- k + [b ≤ k], as 32-bit words, is the k-th column other than b. -/
theorem succAbove_word (b : Fin 8192) (k : Fin 8191) :
    IntOp.addi (BitVec.ofNat 32 k.val)
        ((IntOp.cmpi .sge (BitVec.ofNat 32 k.val) (BitVec.ofNat 32 b.val)).setWidth 32)
      = BitVec.ofNat 32 (b.succAbove k).val := by
  have hk : k.val < 8191 := k.isLt
  have hb : b.val < 8192 := b.isLt
  have hkn : (BitVec.ofNat 32 k.val).toNat = k.val := by rw [BitVec.toNat_ofNat]; exact Nat.mod_eq_of_lt (by omega)
  have hbn : (BitVec.ofNat 32 b.val).toNat = b.val := by rw [BitVec.toNat_ofNat]; exact Nat.mod_eq_of_lt (by omega)
  have hiff := StableHlo.Predicate.sge_iff_toNat (a := BitVec.ofNat 32 k.val) (b := BitVec.ofNat 32 b.val)
    (by rw [hkn]; omega) (by rw [hbn]; omega)
  rw [hkn, hbn] at hiff
  apply BitVec.eq_of_toNat_eq
  show (BitVec.ofNat 32 k.val + _).toNat = _
  rw [BitVec.toNat_add, StableHlo.Predicate.toNat_setWidth_bit, hkn, BitVec.toNat_ofNat]
  by_cases hle : b.val ≤ k.val
  · rw [if_pos (hiff.mpr hle)]
    have : (b.succAbove k).val = k.val + 1 := by
      rw [Fin.succAbove_of_le_castSucc b k (by rw [Fin.le_def]; exact hle)]; rfl
    rw [this]
  · rw [if_neg (fun h => hle (hiff.mp h))]
    have : (b.succAbove k).val = k.val := by
      rw [Fin.succAbove_of_castSucc_lt b k (by rw [Fin.lt_def]; simp only [Fin.coe_castSucc]; omega)]; rfl
    rw [this, Nat.add_zero]

end Cert.SkipSelf.Gather

end
-- ==== Proof.RefIndex.lean ====
/-
  The reference's integer stages and its five gathers, read at an index.

  gi[b, k] = k + [b ≤ k] is the k-th column other than b, as a word: (b.succAbove k).val. Each take along an axis first
  wraps a negative index (a select that keeps a non-negative word) and tests it against the range (an and-reduction over
  an axis of size one, which is 1 because every word tested is inside its range); so the first gather reads the distance
  matrix at column b.succAbove k, the second reads that at the label, the third reads gi at the label, which is the
  positive sample pos b, and the two table gathers read the log-volumes at pos b and then at b.succAbove k.
-/
import proofs.«422816_j11381663334552_3_alg».proof.Proof.RefReadGen
import proofs.«422816_j11381663334552_3_alg».proof.Proof.Spec
import proofs.«422816_j11381663334552_3_alg».proof.Proof.RefGather
import Idealize.ShloMosaic.Lib.StableHlo.Predicate

noncomputable section

namespace Cert.SkipSelf.Ref

open Cert.ReferenceIdeal Cert.ReferenceIdeal.Gen Cert.ReferenceIdeal.ReadG Idealize.ShloMosaic Idealize.ShloMosaic.ValueIdx
  Idealize.ShloMosaic.StableHlo Cert.SkipSelf.Gather

/-! ### Words -/

/-- The wrap of a negative index keeps a small non-negative word. -/
theorem wrap_ofNat (v : Nat) (hv : v < 2 ^ 31) (c : BitVec 32) :
    Scalar.select (IntOp.cmpi .slt (BitVec.ofNat 32 v) 0#32) (IntOp.addi (BitVec.ofNat 32 v) c) (BitVec.ofNat 32 v)
      = BitVec.ofNat 32 v := by
  rw [slt_zero_ofNat v hv, select_zero]

/-- The range test of a small word inside its range is 1. -/
theorem inRange_ofNat (v hi : Nat) (hv : v ≤ hi) (hhi : hi < 2 ^ 31) :
    IntOp.andi (IntOp.cmpi .sge (BitVec.ofNat 32 v) 0#32) (IntOp.cmpi .sle (BitVec.ofNat 32 v) (BitVec.ofNat 32 hi)) = 1#1 := by
  rw [sge_zero_ofNat v (by omega), sle_ofNat v hi hv hhi]; rfl

theorem ofFin_eq_ix1 {n : Nat} (p : Fin n) : Shape.Idx.ofFin p = ix1 p :=
  (eq_ix1 _).trans (congrArg ix1 (Shape.Idx.ofFin_zero p))

theorem ixP_eq_ix2 {n : Nat} (p : Fin n) : Predicate.ixP p = ix2 p (0 : Fin 1) := by
  funext a; match a with | ⟨0, _⟩ => rfl | ⟨1, _⟩ => rfl

theorem succAbove_lt (b : Fin 8192) (k : Fin 8191) : (b.succAbove k).val < 2 ^ 31 :=
  lt_trans (b.succAbove k).isLt (by norm_num)

/-! ### gi and the first take along axis 1 -/

/-- gi[b, k] is the k-th column other than b. -/
theorem gi_apply (b : Fin 8192) (k : Fin 8191) :
    val_main_v10 (F := Ideal) (ix2 b k) = BitVec.ofNat 32 (b.succAbove k).val := by
  rw [val_main_v10_apply, val_main_v9_apply, val_main_v2_apply, val_main_v1_apply, val_main_v8_apply, val_main_v7_apply,
    val_main_v5_apply, val_main_v3_apply, val_main_v1_apply, val_main_v6_apply, val_main_v4_apply, val_main_v0_apply]
  exact succAbove_word b k

theorem call0_v4_apply (b : Fin 8192) (k : Fin 8191) :
    val_main_call0_v4 (F := Ideal) (ix2 b k) = BitVec.ofNat 32 (b.succAbove k).val := by
  rw [val_main_call0_v4_apply, val_main_call0_v1_apply, val_main_call0_v3_apply, val_main_call0_v0_apply,
    val_main_call0_c_apply, gi_apply]
  exact wrap_ofNat _ (succAbove_lt b k) _

theorem idx_call0_v5 (b : Fin 8192) (k : Fin 8191) : idx_main_call0_v5 (ix3 b k (0 : Fin 1)) = ix2 b k := by
  have hk : k.val < 8191 := k.isLt
  funext a
  refine Fin.ext ?_
  match a with
  | ⟨0, _⟩ => show ((b.val * 8191 + k.val) * 1 + 0) / 8191 = b.val; omega
  | ⟨1, _⟩ => show ((b.val * 8191 + k.val) * 1 + 0) % 8191 = k.val; omega

theorem call0_v5_apply (b : Fin 8192) (k : Fin 8191) :
    val_main_call0_v5 (F := Ideal) (ix3 b k (0 : Fin 1)) = BitVec.ofNat 32 (b.succAbove k).val := by
  rw [val_main_call0_v5_apply, idx_call0_v5, call0_v4_apply]

theorem call0_v11_one (i : S8192x8191x1.Idx) : val_main_call0_v11 (F := Ideal) i = 1#1 := by
  obtain ⟨b, k, z, rfl⟩ : ∃ (b : Fin 8192) (k : Fin 8191) (z : Fin 1), i = ix3 b k z := ⟨i 0, i 1, i 2, eq_ix3 i⟩
  obtain rfl : z = 0 := Subsingleton.elim _ _
  rw [val_main_call0_v11_apply, val_main_call0_v7_apply, val_main_call0_v10_apply, call0_v5_apply, val_main_call0_v6_apply,
    val_main_call0_c_2_apply, val_main_call0_v9_apply, val_main_call0_v8_apply, val_main_call0_c_1_apply]
  exact inRange_ofNat _ 8191 (Nat.le_of_lt_succ (b.succAbove k).isLt) (by norm_num)

theorem call0_v12_one (j : S8192x8191.Idx) : val_main_call0_v12 (F := Ideal) j = 1#1 := by
  unfold val_main_call0_v12
  exact reduce_andi_ones _ _ _ _ call0_v11_one rfl j

/-- The first take: the distance matrix at column b.succAbove k. -/
theorem v28_apply (x0 x1 : (⟨S8192x512, .f32⟩ : BufTy).Contents (Elt Ideal)) (b : Fin 8192) (k : Fin 8191) :
    val_main_v28 (F := Ideal) x0 x1 (ix2 b k) = val_main_v27 (F := Ideal) x0 x1 (ix2 b (b.succAbove k)) := by
  rw [val_main_v28_apply, call0_v12_one, select_one]
  unfold val_main_call0_v13
  rw [along_apply (by norm_num) gather_S8192x8192_S8192x8191x1_S8192x8191_n_1_0_0_1_2_11 rfl rfl rfl rfl rfl rfl rfl]
  refine congrArg (fun r => val_main_v27 (F := Ideal) x0 x1 (ix2 b r)) (Fin.ext ?_)
  show min (val_main_call0_v5 (F := Ideal) (ix3 b k (0 : Fin 1))).toInt.toNat (8192 - 1) = (b.succAbove k).val
  rw [call0_v5_apply, clamp_ofNat _ (b.succAbove k).isLt (by norm_num)]

/-! ### The two takes at the label -/

theorem idx_call1_v5 (b : Fin 8192) : idx_main_call1_v5 (ix3 b (0 : Fin 1) (0 : Fin 1)) = ix2 b (0 : Fin 1) := by
  funext a
  refine Fin.ext ?_
  match a with
  | ⟨0, _⟩ => show ((b.val * 1 + 0) * 1 + 0) / 1 = b.val; omega
  | ⟨1, _⟩ => rfl

theorem idx_call2_v5 (b : Fin 8192) : idx_main_call2_v5 (ix3 b (0 : Fin 1) (0 : Fin 1)) = ix2 b (0 : Fin 1) := by
  funext a
  refine Fin.ext ?_
  match a with
  | ⟨0, _⟩ => show ((b.val * 1 + 0) * 1 + 0) / 1 = b.val; omega
  | ⟨1, _⟩ => rfl

theorem label_lt (ℓ : Fin 8192 → Fin 8191) (b : Fin 8192) : (ℓ b).val < 2 ^ 31 := lt_trans (ℓ b).isLt (by norm_num)

section Label
variable (ℓ : Fin 8192 → Fin 8191) (x2 : (⟨S8192, .i32⟩ : BufTy).Contents (Elt Ideal)) (hL : Lab ℓ x2)
include hL

theorem v29_apply (b : Fin 8192) : val_main_v29 (F := Ideal) x2 (ix2 b (0 : Fin 1)) = BitVec.ofNat 32 (ℓ b).val := by
  rw [val_main_v29_apply]
  have : idx_main_v29 (ix2 b (0 : Fin 1)) = ix1 b := by funext a; match a with | ⟨0, _⟩ => rfl
  rw [this]; exact hL b

theorem call1_v5_apply (b : Fin 8192) :
    val_main_call1_v5 (F := Ideal) x2 (ix3 b (0 : Fin 1) (0 : Fin 1)) = BitVec.ofNat 32 (ℓ b).val := by
  rw [val_main_call1_v5_apply, idx_call1_v5, val_main_call1_v4_apply, val_main_call1_v1_apply, val_main_call1_v3_apply,
    val_main_call1_v0_apply, val_main_call1_c_apply, v29_apply ℓ x2 hL]
  exact wrap_ofNat _ (label_lt ℓ b) _

theorem call1_v11_one (i : S8192x1x1.Idx) : val_main_call1_v11 (F := Ideal) x2 i = 1#1 := by
  obtain ⟨b, y, z, rfl⟩ : ∃ (b : Fin 8192) (y : Fin 1) (z : Fin 1), i = ix3 b y z := ⟨i 0, i 1, i 2, eq_ix3 i⟩
  obtain rfl : y = 0 := Subsingleton.elim _ _
  obtain rfl : z = 0 := Subsingleton.elim _ _
  rw [val_main_call1_v11_apply, val_main_call1_v7_apply, val_main_call1_v10_apply, call1_v5_apply ℓ x2 hL,
    val_main_call1_v6_apply, val_main_call1_c_2_apply, val_main_call1_v9_apply, val_main_call1_v8_apply,
    val_main_call1_c_1_apply]
  exact inRange_ofNat _ 8190 (Nat.le_of_lt_succ (ℓ b).isLt) (by norm_num)

theorem call1_v12_one (j : S8192x1.Idx) : val_main_call1_v12 (F := Ideal) x2 j = 1#1 := by
  unfold val_main_call1_v12
  exact reduce_andi_ones _ _ _ _ (call1_v11_one ℓ x2 hL) rfl j

/-- The second take: row b of the first take's result at the label, which is the distance to the positive sample. -/
theorem v30_apply (x0 x1 : (⟨S8192x512, .f32⟩ : BufTy).Contents (Elt Ideal)) (b : Fin 8192) :
    val_main_v30 (F := Ideal) x0 x1 x2 (ix2 b (0 : Fin 1)) = val_main_v27 (F := Ideal) x0 x1 (ix2 b (pos ℓ b)) := by
  rw [val_main_v30_apply, call1_v12_one ℓ x2 hL, select_one]
  unfold val_main_call1_v13
  rw [along_apply (by norm_num) gather_S8192x8191_S8192x1x1_S8192x1_n_1_0_0_1_2_11 rfl rfl rfl rfl rfl rfl rfl]
  have : (⟨min (val_main_call1_v5 (F := Ideal) x2 (ix3 b (0 : Fin 1) (0 : Fin 1))).toInt.toNat (8191 - 1), by omega⟩ : Fin 8191)
      = ℓ b := Fin.ext (by
    show min (val_main_call1_v5 (F := Ideal) x2 (ix3 b (0 : Fin 1) (0 : Fin 1))).toInt.toNat (8191 - 1) = (ℓ b).val
    rw [call1_v5_apply ℓ x2 hL, clamp_ofNat _ (ℓ b).isLt (by norm_num)])
  rw [this, v28_apply]
  rfl

theorem v36_apply (b : Fin 8192) : val_main_v36 (F := Ideal) x2 (ix2 b (0 : Fin 1)) = BitVec.ofNat 32 (ℓ b).val := by
  rw [val_main_v36_apply]
  have : idx_main_v36 (ix2 b (0 : Fin 1)) = ix1 b := by funext a; match a with | ⟨0, _⟩ => rfl
  rw [this]; exact hL b

theorem call2_v5_apply (b : Fin 8192) :
    val_main_call2_v5 (F := Ideal) x2 (ix3 b (0 : Fin 1) (0 : Fin 1)) = BitVec.ofNat 32 (ℓ b).val := by
  rw [val_main_call2_v5_apply, idx_call2_v5, val_main_call2_v4_apply, val_main_call2_v1_apply, val_main_call2_v3_apply,
    val_main_call2_v0_apply, val_main_call2_c_apply, v36_apply ℓ x2 hL]
  exact wrap_ofNat _ (label_lt ℓ b) _

theorem call2_v11_one (i : S8192x1x1.Idx) : val_main_call2_v11 (F := Ideal) x2 i = 1#1 := by
  obtain ⟨b, y, z, rfl⟩ : ∃ (b : Fin 8192) (y : Fin 1) (z : Fin 1), i = ix3 b y z := ⟨i 0, i 1, i 2, eq_ix3 i⟩
  obtain rfl : y = 0 := Subsingleton.elim _ _
  obtain rfl : z = 0 := Subsingleton.elim _ _
  rw [val_main_call2_v11_apply, val_main_call2_v7_apply, val_main_call2_v10_apply, call2_v5_apply ℓ x2 hL,
    val_main_call2_v6_apply, val_main_call2_c_2_apply, val_main_call2_v9_apply, val_main_call2_v8_apply,
    val_main_call2_c_1_apply]
  exact inRange_ofNat _ 8190 (Nat.le_of_lt_succ (ℓ b).isLt) (by norm_num)

theorem call2_v12_one (j : S8192x1.Idx) : val_main_call2_v12 (F := Ideal) x2 j = 1#1 := by
  unfold val_main_call2_v12
  exact reduce_andi_ones _ _ _ _ (call2_v11_one ℓ x2 hL) rfl j

/-- The third take: gi at the label is the positive sample, as a word. -/
theorem v37_apply (b : Fin 8192) :
    val_main_v37 (F := Ideal) x2 (ix2 b (0 : Fin 1)) = BitVec.ofNat 32 (pos ℓ b).val := by
  rw [val_main_v37_apply, call2_v12_one ℓ x2 hL, select_one]
  unfold val_main_call2_v13
  rw [along_apply (by norm_num) gather_S8192x8191_S8192x1x1_S8192x1_n_1_0_0_1_2_11 rfl rfl rfl rfl rfl rfl rfl]
  have : (⟨min (val_main_call2_v5 (F := Ideal) x2 (ix3 b (0 : Fin 1) (0 : Fin 1))).toInt.toNat (8191 - 1), by omega⟩ : Fin 8191)
      = ℓ b := Fin.ext (by
    show min (val_main_call2_v5 (F := Ideal) x2 (ix3 b (0 : Fin 1) (0 : Fin 1))).toInt.toNat (8191 - 1) = (ℓ b).val
    rw [call2_v5_apply ℓ x2 hL, clamp_ofNat _ (ℓ b).isLt (by norm_num)])
  rw [this, gi_apply]
  rfl

theorem v46_apply (b : Fin 8192) : val_main_v46 (F := Ideal) x2 (ix1 b) = BitVec.ofNat 32 (pos ℓ b).val := by
  have h38 : val_main_v38 (F := Ideal) x2 (ix1 b) = BitVec.ofNat 32 (pos ℓ b).val := by
    rw [val_main_v38_apply]
    have : idx_main_v38 (ix1 b) = ix2 b (0 : Fin 1) := by
      funext a
      refine Fin.ext ?_
      match a with
      | ⟨0, _⟩ => show b.val / 1 = b.val; omega
      | ⟨1, _⟩ => rfl
    rw [this, v37_apply ℓ x2 hL]
  rw [val_main_v46_apply, val_main_v43_apply, val_main_v45_apply, h38, val_main_v42_apply, val_main_c_apply]
  exact wrap_ofNat _ (lt_trans (pos ℓ b).isLt (by norm_num)) _

/-- The table gather at the positive sample. -/
theorem v48_apply (x1 : (⟨S8192x512, .f32⟩ : BufTy).Contents (Elt Ideal)) (b : Fin 8192) :
    val_main_v48 (F := Ideal) x1 x2 (ix1 b) = val_main_v40 (F := Ideal) x1 (ix1 (pos ℓ b)) := by
  unfold val_main_v48
  rw [← ofFin_eq_ix1, Predicate.gather_take gather_S8192_S8192x1_S8192_n_0_n_n_0_1_1 rfl rfl rfl rfl _ _ b (by norm_num),
    ofFin_eq_ix1]
  refine congrArg (fun r => val_main_v40 (F := Ideal) x1 (ix1 r)) (Fin.ext ?_)
  show min (val_main_v47 (F := Ideal) x2 (Predicate.ixP b)).toInt.toNat (8192 - 1) = (pos ℓ b).val
  rw [ixP_eq_ix2, val_main_v47_apply]
  have : idx_main_v47 (ix2 b (0 : Fin 1)) = ix1 b := by funext a; match a with | ⟨0, _⟩ => rfl
  rw [this, v46_apply ℓ x2 hL, clamp_ofNat _ (pos ℓ b).isLt (by norm_num)]

end Label

/-! ### The table gather at gi -/

theorem v54_apply (b : Fin 8192) (k : Fin 8191) :
    val_main_v54 (F := Ideal) (ix3 b k (0 : Fin 1)) = BitVec.ofNat 32 (b.succAbove k).val := by
  rw [val_main_v54_apply]
  have : idx_main_v54 (ix3 b k (0 : Fin 1)) = ix2 b k := by
    funext a; match a with | ⟨0, _⟩ => rfl | ⟨1, _⟩ => rfl
  rw [this, val_main_v53_apply, val_main_v50_apply, val_main_v52_apply, gi_apply, val_main_v49_apply, val_main_c_5_apply]
  exact wrap_ofNat _ (succAbove_lt b k) _

theorem v55_apply (x1 : (⟨S8192x512, .f32⟩ : BufTy).Contents (Elt Ideal)) (x2 : (⟨S8192, .i32⟩ : BufTy).Contents (Elt Ideal))
    (b : Fin 8192) (k : Fin 8191) :
    val_main_v55 (F := Ideal) x1 x2 (ix2 b k) = val_main_v48 (F := Ideal) x1 x2 (ix1 (b.succAbove k)) := by
  unfold val_main_v55
  show Host.gather (takeDims 8192 8192 8191 gather_S8192_S8192x8191x1_S8192x8191_n_0_n_n_0_2_1_wf)
    (val_main_v48 (F := Ideal) x1 x2) (val_main_v54 (F := Ideal)) (ix2 b k) = _
  rw [gather_take_apply (by norm_num)]
  refine congrArg (fun r => val_main_v48 (F := Ideal) x1 x2 (ix1 r)) (Fin.ext ?_)
  show min (val_main_v54 (F := Ideal) (takeIdx (ix2 b k))).toInt.toNat (8192 - 1) = (b.succAbove k).val
  have : takeIdx (ix2 b k) = ix3 b k (0 : Fin 1) := by
    funext a; match a with | ⟨0, _⟩ => rfl | ⟨1, _⟩ => rfl | ⟨2, _⟩ => rfl
  rw [this, v54_apply, clamp_ofNat _ (b.succAbove k).isLt (by norm_num)]

end Cert.SkipSelf.Ref

end
-- ==== Proof.RefDist.lean ====
/-
  The reference's distance matrix, read at an index: the two contractions over the transposed operands are T1 and T2,
  the row sum is t3, and their combination is dist, in the specification's grouping.
-/
import proofs.«422816_j11381663334552_3_alg».proof.Proof.RefReadGen
import proofs.«422816_j11381663334552_3_alg».proof.Proof.Spec

noncomputable section

namespace Cert.SkipSelf.Ref

open Cert.ReferenceIdeal Cert.ReferenceIdeal.Gen Cert.ReferenceIdeal.ReadG Idealize.ShloMosaic Idealize.ShloMosaic.ValueIdx
  Idealize.ShloMosaic.StableHlo
open scoped BigOperators

variable (x0 x1 : (⟨S8192x512, .f32⟩ : BufTy).Contents (Elt Ideal))

/-- 1 / σ at (j, d). -/
theorem v12_apply (j : Fin 8192) (d : Fin 512) :
    val_main_v12 (F := Ideal) x1 (ix2 j d) = inv (matOf (a := 8192) (b := 512) x1) j d := by
  rw [val_main_v12_apply, val_main_v11_apply, val_main_cst_apply]
  rfl

/-- ∑ d, xᵢd² / σⱼd. -/
theorem v15_apply (i j : Fin 8192) :
    val_main_v15 (F := Ideal) x0 x1 (ix2 i j) = T1 (matOf (a := 8192) (b := 512) x0) (matOf (a := 8192) (b := 512) x1) i j := by
  rw [val_main_v15_apply]
  unfold T1
  refine Finset.sum_congr rfl fun d _ => ?_
  have hl : lidx_main_v15 (ix2 i j) d = ix2 i d := by
    funext a; match a with | ⟨0, _⟩ => rfl | ⟨1, _⟩ => rfl
  have hr : idx_main_v14 (ridx_main_v15 (ix2 i j) d) = ix2 j d := by
    funext a; match a with | ⟨0, _⟩ => rfl | ⟨1, _⟩ => rfl
  rw [val_main_v13_apply, val_main_v14_apply, hl, hr, v12_apply]
  rfl

/-- ∑ d, xᵢd (xⱼd / σⱼd). -/
theorem v18_apply (i j : Fin 8192) :
    val_main_v18 (F := Ideal) x0 x1 (ix2 i j) = T2 (matOf (a := 8192) (b := 512) x0) (matOf (a := 8192) (b := 512) x1) i j := by
  rw [val_main_v18_apply]
  unfold T2
  refine Finset.sum_congr rfl fun d _ => ?_
  have hl : lidx_main_v18 (ix2 i j) d = ix2 i d := by
    funext a; match a with | ⟨0, _⟩ => rfl | ⟨1, _⟩ => rfl
  have hr : idx_main_v17 (ridx_main_v18 (ix2 i j) d) = ix2 j d := by
    funext a; match a with | ⟨0, _⟩ => rfl | ⟨1, _⟩ => rfl
  rw [val_main_v17_apply, val_main_v16_apply, hl, hr, v12_apply]
  rfl

/-- ∑ d, xⱼd² / σⱼd. -/
theorem v21_apply (j : Fin 8192) :
    val_main_v21 (F := Ideal) x0 x1 (ix1 j) = t3 (matOf (a := 8192) (b := 512) x0) (matOf (a := 8192) (b := 512) x1) j := by
  rw [val_main_v21_apply, val_main_cst_0_apply,
    show FloatOps.ofBits (F := Ideal) .f32 0x00000000#32 = 0 from Ideal.ofBits_zero_f32, zero_add]
  unfold t3
  refine Finset.sum_congr rfl fun d _ => ?_
  have h : idx_main_v21 (ix1 j) d = ix2 j d := by
    funext a; match a with | ⟨0, _⟩ => rfl | ⟨1, _⟩ => rfl
  rw [val_main_v20_apply, val_main_v19_apply, h, v12_apply]
  rfl

/-- The weighted squared distance. -/
theorem v27_apply (i j : Fin 8192) :
    val_main_v27 (F := Ideal) x0 x1 (ix2 i j) = dist (matOf (a := 8192) (b := 512) x0) (matOf (a := 8192) (b := 512) x1) i j := by
  have h : idx_main_v25 (idx_main_v26 (ix2 i j)) = ix1 j := by
    funext a; match a with | ⟨0, _⟩ => rfl
  rw [val_main_v27_apply, val_main_v24_apply, val_main_v23_apply, val_main_v22_apply, val_main_cst_1_apply,
    val_main_v26_apply, val_main_v25_apply, h, v15_apply, v18_apply, v21_apply]
  rfl

end Cert.SkipSelf.Ref

end
-- ==== Proof.RefLs.lean ====
/-
  The reference's log-volumes, read at an index: the row sum of the logarithms of the variances, from the zero word.
-/
import proofs.«422816_j11381663334552_3_alg».proof.Proof.RefReadGen
import proofs.«422816_j11381663334552_3_alg».proof.Proof.Spec

noncomputable section

namespace Cert.SkipSelf.Ref

open Cert.ReferenceIdeal Cert.ReferenceIdeal.Gen Cert.ReferenceIdeal.ReadG Idealize.ShloMosaic Idealize.ShloMosaic.ValueIdx
  Idealize.ShloMosaic.StableHlo
open scoped BigOperators

variable (x1 : (⟨S8192x512, .f32⟩ : BufTy).Contents (Elt Ideal))

/-- The log-volume of row i. -/
theorem v40_apply (i : Fin 8192) :
    val_main_v40 (F := Ideal) x1 (ix1 i) = ls (matOf (a := 8192) (b := 512) x1) i := by
  rw [val_main_v40_apply, val_main_cst_3_apply,
    show FloatOps.ofBits (F := Ideal) .f32 0x00000000#32 = 0 from Ideal.ofBits_zero_f32, zero_add]
  unfold ls
  refine Finset.sum_congr rfl fun d _ => ?_
  have h : idx_main_v40 (ix1 i) d = ix2 i d := by
    funext a; match a with | ⟨0, _⟩ => rfl | ⟨1, _⟩ => rfl
  rw [val_main_v39_apply, h]
  rfl

end Cert.SkipSelf.Ref

end
-- ==== Proof.RefValue.lean ====
/-
  The reference's run, read back: with the label array holding labels among the 8191 skip-self columns, every
  gather reads inside its table, and the two results are the reference's form of the loss and of the skip-self matrix.
-/
import proofs.«422816_j11381663334552_3_alg».proof.Defs
import proofs.«422816_j11381663334552_3_alg».proof.Proof.RefRunGen
import proofs.«422816_j11381663334552_3_alg».proof.Proof.RefReadGen
import proofs.«422816_j11381663334552_3_alg».proof.Proof.Spec
import proofs.«422816_j11381663334552_3_alg».proof.Proof.RefIndex
import proofs.«422816_j11381663334552_3_alg».proof.Proof.RefDist
import proofs.«422816_j11381663334552_3_alg».proof.Proof.RefLs
import Idealize.ShloMosaic.Lib.ValueIdxRank1

noncomputable section

open Idealize.ShloMosaic Idealize.ShloMosaic.TcCoe Idealize.SL.Sem

namespace Cert.SkipSelf.Ref

open Cert.ReferenceIdeal Cert.ReferenceIdeal.Gen Cert.ReferenceIdeal.ReadG Idealize.ShloMosaic.ValueIdx Idealize.ShloMosaic.StableHlo
open scoped BigOperators

section Value
variable (ℓ : Fin 8192 → Fin 8191) (x0 x1 : (⟨S8192x512, .f32⟩ : BufTy).Contents (Elt Ideal))
  (x2 : (⟨S8192, .i32⟩ : BufTy).Contents (Elt Ideal)) (hL : Lab ℓ x2)
include hL

/-- The skip-self matrix at (b, k): the volume ratio times the distance factor. -/
theorem v61_apply (b : Fin 8192) (k : Fin 8191) :
    val_main_v61 (F := Ideal) x0 x1 x2 (ix2 b k)
      = logitR (matOf (a := 8192) (b := 512) x0) (matOf (a := 8192) (b := 512) x1) ℓ b k := by
  have h56 : idx_main_v41 (idx_main_v56 (ix2 b k)) = ix1 b := by
    funext a; match a with | ⟨0, _⟩ => rfl
  have h31 : idx_main_v31 (ix2 b k) = ix2 b (0 : Fin 1) := by
    funext a; match a with | ⟨0, _⟩ => rfl | ⟨1, _⟩ => rfl
  rw [val_main_v61_apply, val_main_v60_apply, val_main_v59_apply, val_main_v58_apply, val_main_cst_7_apply,
    val_main_v57_apply, val_main_v56_apply, val_main_v41_apply, h56, v55_apply, v48_apply ℓ x2 hL, v40_apply, v40_apply,
    val_main_v35_apply, val_main_v34_apply, val_main_v33_apply, val_main_cst_2_apply, val_main_v32_apply,
    val_main_v31_apply, h31, v30_apply ℓ x2 hL, v28_apply, v27_apply, v27_apply]
  rfl

/-- The whole skip-self matrix. -/
theorem v61_eq :
    val_main_v61 (F := Ideal) x0 x1 x2
      = fun y => logitR (matOf (a := 8192) (b := 512) x0) (matOf (a := 8192) (b := 512) x1) ℓ (y 0) (y 1) := by
  funext y
  obtain ⟨b, k, rfl⟩ : ∃ (b : Fin 8192) (k : Fin 8191), y = ix2 b k := ⟨y 0, y 1, eq_ix2 y⟩
  exact v61_apply ℓ x0 x1 x2 hL b k

/-- The row sums of the skip-self matrix. -/
theorem v62_apply (b : Fin 8192) :
    val_main_v62 (F := Ideal) x0 x1 x2 (ix1 b)
      = ∑ k, logitR (matOf (a := 8192) (b := 512) x0) (matOf (a := 8192) (b := 512) x1) ℓ b k := by
  rw [val_main_v62_apply, val_main_cst_8_apply,
    show FloatOps.ofBits (F := Ideal) .f32 0x00000000#32 = 0 from Ideal.ofBits_zero_f32, zero_add]
  refine Finset.sum_congr rfl fun k _ => ?_
  have h : idx_main_v62 (ix1 b) k = ix2 b k := by
    funext a; match a with | ⟨0, _⟩ => rfl | ⟨1, _⟩ => rfl
  rw [h, v61_apply ℓ x0 x1 x2 hL]

/-- The loss: the mean over rows of the logarithm of the row sum. -/
theorem v65_eq :
    val_main_v65 (F := Ideal) x0 x1 x2
      = fun _ => lossR (matOf (a := 8192) (b := 512) x0) (matOf (a := 8192) (b := 512) x1) ℓ := by
  funext y
  rw [val_main_v65_apply, val_main_v64_apply, val_main_cst_9_apply, val_main_cst_10_apply,
    show FloatOps.ofBits (F := Ideal) .f32 0x00000000#32 = 0 from Ideal.ofBits_zero_f32, zero_add,
    ← Equiv.sum_comp (idxEquiv1 (n := 8192)).symm]
  unfold lossR
  have hs : ∀ b : Fin 8192, val_main_v63 (F := Ideal) x0 x1 x2 ((idxEquiv1 (n := 8192)).symm b)
      = Ideal.log (∑ k, logitR (matOf (a := 8192) (b := 512) x0) (matOf (a := 8192) (b := 512) x1) ℓ b k) := by
    intro b
    show val_main_v63 (F := Ideal) x0 x1 x2 (ix1 b) = _
    rw [val_main_v63_apply, v62_apply ℓ x0 x1 x2 hL]
    rfl
  rw [Finset.sum_congr rfl fun b _ => hs b]
  rfl

end Value

open Cert.ReferenceIdeal

/-- Every weakly fair execution of the reference ends with the loss and the skip-self matrix in the reference's form
    of the specification, the arguments unchanged. -/
theorem run (m' : (ℓ : Loc nD τ sig) → Buf (Elt Ideal) ℓ) (ρ' : Dev nD → PrngReg) (ℓ : Dev nD → Fin 8192 → Fin 8191)
    (hℓ : ∀ c : Dev nD, Lab (ℓ c) (m' ((c.tc : Thread nD τ).loc main_arg2))) :
    θ_run (defs (F := Ideal)) (onTc (τ := τ) (main (F := Ideal))) ⟨m', fun _ => 0, ρ'⟩ (fun r => ∀ c : Dev nD,
      r.2.mem ((c.tc : Thread nD τ).loc main_v65)
          = (fun _ => lossR (matOf (a := 8192) (b := 512) (m' ((c.tc : Thread nD τ).loc main_arg0)))
              (matOf (a := 8192) (b := 512) (m' ((c.tc : Thread nD τ).loc main_arg1))) (ℓ c))
      ∧ r.2.mem ((c.tc : Thread nD τ).loc main_v61)
          = (fun y => logitR (matOf (a := 8192) (b := 512) (m' ((c.tc : Thread nD τ).loc main_arg0)))
              (matOf (a := 8192) (b := 512) (m' ((c.tc : Thread nD τ).loc main_arg1))) (ℓ c) (y 0) (y 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) := by
  refine (θ_run (defs (F := Ideal)) _ _).mono (fun r h c => ?_) (Cert.ReferenceIdeal.ValueG.run (F := Ideal) m' ρ')
  obtain ⟨h65, h61, h0, h1, h2⟩ := h c
  refine ⟨?_, ?_, h0, h1, h2⟩
  · exact (h65.trans (val_main_v65_eq m' c)).trans (v65_eq (ℓ c) _ _ _ (hℓ c))
  · exact (h61.trans (val_main_v61_eq m' c)).trans (v61_eq (ℓ c) _ _ _ (hℓ c))

/-- Every weakly fair execution of the reference ends with the three arguments unchanged, whatever they hold. -/
theorem frame (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run (defs (F := Ideal)) _ _).mono (fun _ h c => (h c).2.2) (Cert.ReferenceIdeal.ValueG.run (F := Ideal) m' ρ')

end Cert.SkipSelf.Ref

end
-- ==== Proof.Words.lean ====
/-
  The seven f32 words of the statement as the real numbers they denote.  An f32 word with sign `s`, exponent field `E`
  (neither `0` nor `255`) and fraction field `T` denotes `(−1)^s · (2^23 + T) · 2^(E − 150)`.  The word of `0.1` has
  `E = 123`, `T = 5033165`, so it denotes `13421773 / 2^27`; the word of `0.2` has the same fraction and `E = 124`, so it
  denotes twice that; the word of `−0.1` differs from that of `0.1` in the sign bit only.  `0.5`, `1`, `2` have `T = 0` and
  `E = 126, 127, 128`.
-/
import Idealize.ShloMosaic.PureOps.Ideal

noncomputable section

namespace Cert.SkipSelf.Words

open Idealize.ShloMosaic

/-- The word of `1.0` denotes `1`. -/
theorem ofBits_one : Ideal.ofBits .f32 0x3F800000#32 = ((1 : ℝ) : EReal) := by
  simp [Ideal.ofBits, Ideal.ieee, -EReal.coe_mul]; norm_num

/-- The word of `2.0` denotes `2`. -/
theorem ofBits_two : Ideal.ofBits .f32 0x40000000#32 = ((2 : ℝ) : EReal) := by
  simp [Ideal.ofBits, Ideal.ieee, -EReal.coe_mul]; norm_num

/-- The word of `0.5` denotes `1 / 2`. -/
theorem ofBits_half : Ideal.ofBits .f32 0x3F000000#32 = ((1 / 2 : ℝ) : EReal) := by
  simp [Ideal.ofBits, Ideal.ieee, -EReal.coe_mul]; norm_num

/-- The word of `0.1` denotes `13421773 / 2^27`. -/
theorem ofBits_tenth : Ideal.ofBits .f32 0x3DCCCCCD#32 = ((13421773 / 134217728 : ℝ) : EReal) := by
  simp [Ideal.ofBits, Ideal.ieee, -EReal.coe_mul]; norm_num

/-- The word of `0.2` denotes twice what the word of `0.1` denotes. -/
theorem ofBits_fifth : Ideal.ofBits .f32 0x3E4CCCCD#32 = ((2 * (13421773 / 134217728) : ℝ) : EReal) := by
  simp [Ideal.ofBits, Ideal.ieee, -EReal.coe_mul]; norm_num

/-- The word of `−0.1` denotes the negative of what the word of `0.1` denotes. -/
theorem ofBits_negTenth : Ideal.ofBits .f32 0xBDCCCCCD#32 = ((-(13421773 / 134217728) : ℝ) : EReal) := by
  simp [Ideal.ofBits, Ideal.ieee, -EReal.coe_mul]; norm_num

end Cert.SkipSelf.Words

end
-- ==== Proof.Reals.lean ====
/-
  Extended reals that are real numbers.  Sums, differences, products and finite sums of real numbers are real
  numbers; the quotient of a real by a positive real and the logarithm of a positive real are real numbers; the
  exponential of a real is the real exponential.
-/
import Idealize.ShloMosaic.PureOps.Ideal

noncomputable section

open Idealize.ShloMosaic
open scoped BigOperators

namespace Cert.SkipSelf

/-- An extended real that is a real number. -/
def IsReal (x : EReal) : Prop := ∃ r : ℝ, x = (r : EReal)

namespace IsReal

theorem coe (r : ℝ) : IsReal (r : EReal) := ⟨r, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem sub {x y : EReal} (hx : IsReal x) (hy : IsReal y) : IsReal (x - y) := by
  obtain ⟨a, rfl⟩ := hx
  obtain ⟨b, rfl⟩ := hy
  exact ⟨a - b, (EReal.coe_sub a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem sum {ι : Type*} (s : Finset ι) (f : ι → EReal) (h : ∀ i ∈ s, IsReal (f i)) : IsReal (∑ i ∈ s, f i) := by
  classical
  induction s using Finset.induction_on with
  | empty => exact ⟨0, by rw [Finset.sum_empty, EReal.coe_zero]⟩
  | insert a s ha ih =>
    rw [Finset.sum_insert ha]
    exact (h a (Finset.mem_insert_self a s)).add (ih fun i hi => h i (Finset.mem_insert_of_mem hi))

/-- The quotient of a real number by a positive real number is a real number. -/
theorem div {x y : EReal} (hx : IsReal x) (hy : ∃ r : ℝ, 0 < r ∧ y = (r : EReal)) : IsReal (Ideal.div x y) := by
  obtain ⟨a, rfl⟩ := hx
  obtain ⟨b, hb, rfl⟩ := hy
  exact ⟨a * (1 / b), by rw [Ideal.div_coe hb.ne', EReal.coe_mul]⟩

/-- The logarithm of a positive real number is a real number. -/
theorem log {y : EReal} (hy : ∃ r : ℝ, 0 < r ∧ y = (r : EReal)) : IsReal (Ideal.log y) := by
  obtain ⟨b, hb, rfl⟩ := hy
  exact ⟨Real.log b, by rw [Ideal.log_coe, if_neg (not_le.mpr hb)]⟩

end IsReal

end Cert.SkipSelf

end
-- ==== Proof.Algebra.lean ====
/-
  The bridge between the two forms of the skip-self matrix and of the loss, over real features and positive real
  variances.  Everything is then a real number, the product of the reference's two exponentials is the exponential
  of the sum of their exponents, and that sum is the kernel's exponent because `f32(0.2) = 2 · f32(0.1)` and
  `−f32(0.1)` is the negative of `f32(0.1)` as real numbers.  The kernel's row sum runs over all 8192 columns, but
  its diagonal entry is `exp (−∞) = 0`, and the other columns are the 8191 skip-self columns (`Fin.sum_univ_succAbove`).
-/
import proofs.«422816_j11381663334552_3_alg».proof.Proof.Spec
import proofs.«422816_j11381663334552_3_alg».proof.Proof.Words
import proofs.«422816_j11381663334552_3_alg».proof.Proof.Reals

noncomputable section

open Idealize.ShloMosaic
open scoped BigOperators

namespace Cert.SkipSelf

variable (X Sg : Mat) (ℓ : Fin 8192 → Fin 8191)

/-! ### Every quantity of the statement is a real number -/

/-- The reciprocal of a positive real variance is a real number. -/
theorem inv_real (hS : PosS Sg) (j : Fin 8192) (d : Fin 512) : IsReal (inv Sg j d) :=
  IsReal.div ⟨1, Words.ofBits_one⟩ (hS j d)

theorem ls_real (hS : PosS Sg) (i : Fin 8192) : IsReal (ls Sg i) :=
  IsReal.sum _ _ fun d _ => IsReal.log (hS i d)

theorem t3_real (hX : FiniteX X) (hS : PosS Sg) (j : Fin 8192) : IsReal (t3 X Sg j) :=
  IsReal.sum _ _ fun d _ => IsReal.mul (IsReal.mul (hX j d) (hX j d)) (inv_real Sg hS j d)

theorem T1_real (hX : FiniteX X) (hS : PosS Sg) (i j : Fin 8192) : IsReal (T1 X Sg i j) :=
  IsReal.sum _ _ fun d _ => IsReal.mul (IsReal.mul (hX i d) (hX i d)) (inv_real Sg hS j d)

theorem T2_real (hX : FiniteX X) (hS : PosS Sg) (i j : Fin 8192) : IsReal (T2 X Sg i j) :=
  IsReal.sum _ _ fun d _ => IsReal.mul (hX i d) (IsReal.mul (hX j d) (inv_real Sg hS j d))

theorem dist_real (hX : FiniteX X) (hS : PosS Sg) (i j : Fin 8192) : IsReal (dist X Sg i j) :=
  IsReal.add (IsReal.sub (T1_real X Sg hX hS i j) (IsReal.mul ⟨2, Words.ofBits_two⟩ (T2_real X Sg hX hS i j)))
    (t3_real X Sg hX hS j)

theorem gt_real (hX : FiniteX X) (hS : PosS Sg) (b : Fin 8192) : IsReal (gt X Sg ℓ b) :=
  dist_real X Sg hX hS b (pos ℓ b)

/-! ### The bridge -/

/-- Entry by entry the kernel's skip-self matrix is the reference's: with `a` the real the word of `0.1` denotes, the
    kernel's exponent `((a g + ½ L) + (−a t − ½ L')) − a p + 2 a q` is the sum `½ (L − L') + a (g − ((p − 2 q) + t))` of
    the reference's two exponents. -/
theorem logitK_eq_logitR (hX : FiniteX X) (hS : PosS Sg) (b : Fin 8192) (k : Fin 8191) :
    logitK X Sg ℓ b k = logitR X Sg ℓ b k := by
  obtain ⟨g, hg⟩ := gt_real X Sg ℓ hX hS b
  obtain ⟨L, hL⟩ := ls_real Sg hS b
  obtain ⟨L', hL'⟩ := ls_real Sg hS (pos ℓ (b.succAbove k))
  obtain ⟨t, ht⟩ := t3_real X Sg hX hS (b.succAbove k)
  obtain ⟨p, hp⟩ := T1_real X Sg hX hS b (b.succAbove k)
  obtain ⟨q, hq⟩ := T2_real X Sg hX hS b (b.succAbove k)
  have h01 : w01 = ((13421773 / 134217728 : ℝ) : EReal) := Words.ofBits_tenth
  have h02 : w02 = ((2 * (13421773 / 134217728) : ℝ) : EReal) := Words.ofBits_fifth
  have hm01 : wm01 = ((-(13421773 / 134217728) : ℝ) : EReal) := Words.ofBits_negTenth
  have h05 : w05 = ((1 / 2 : ℝ) : EReal) := Words.ofBits_half
  have h2 : w2 = ((2 : ℝ) : EReal) := Words.ofBits_two
  rw [logitK, M, if_neg (Fin.succAbove_ne b k).symm, argK, rK, cK, logitR, dist, hg, hL, hL', ht, hp, hq, h01, h02,
    hm01, h05, h2]
  simp only [← EReal.coe_mul, ← EReal.coe_add, ← EReal.coe_sub, Ideal.exp_coe, ← Real.exp_add]
  congr 2
  ring

/-- The kernel's row sum over all columns is the reference's over the skip-self columns: the diagonal entry is
    `exp (−∞) = 0` and the other columns are the skip-self columns. -/
theorem rowK_eq (hX : FiniteX X) (hS : PosS Sg) (b : Fin 8192) :
    rowK X Sg ℓ b = ∑ k, logitR X Sg ℓ b k := by
  rw [rowK, Fin.sum_univ_succAbove _ b, M, if_pos rfl, Ideal.exp_bot, zero_add]
  exact Finset.sum_congr rfl fun k _ => logitK_eq_logitR X Sg ℓ hX hS b k

/-- The two losses agree. -/
theorem lossK_eq_lossR (hX : FiniteX X) (hS : PosS Sg) : lossK X Sg ℓ = lossR X Sg ℓ := by
  rw [lossK, lossR]
  exact congrArg (fun s => Ideal.div s w8192) (Finset.sum_congr rfl fun b _ => by rw [rowK_eq X Sg ℓ hX hS b])

end Cert.SkipSelf

end
-- ==== Proof.PreFacts.lean ====
/-
  What the precondition says about the inputs: every feature is a real number, every variance is a positive real
  number, and every label lies among the 8191 skip-self columns.

  The precondition is a conjunction of five "for all entries" tests, each a reduction by `and` of an elementwise
  comparison: |x| < +∞, |σ| < +∞, σ > 0, 0 ≤ label, label ≤ 8190 (the last two on signed 32-bit words). Its value 1
  gives each test at every entry; an extended real of absolute value below +∞ is a real number, and a signed word
  between 0 and 8190 is the word of a natural number below 8191.
-/
import proofs.«422816_j11381663334552_3_alg».proof.Pre_finite_inputs
import proofs.«422816_j11381663334552_3_alg».proof.Proof.Spec
import Idealize.ShloMosaic.Lib.ReduceAll
import Idealize.ShloMosaic.Lib.StableHlo.Predicate
import Idealize.ShloMosaic.PureOps.Ideal.Laws

noncomputable section

open Idealize.ShloMosaic

namespace Cert.SkipSelf

namespace PreFacts

/-- The rank-0 shape has one index. -/
instance : Subsingleton Cert.Pre_finite_inputs.S_.Idx := ⟨fun a b => funext fun d => d.elim0⟩

/-- The f32 word of +∞ is `⊤`. -/
theorem top_word : Ideal.ofBits .f32 0x7F800000#32 = ⊤ := by simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A real number above 0, as an extended real, is a positive real number. -/
theorem pos_of_gt_zero (x : EReal) (hf : ∃ r : ℝ, x = (r : EReal)) (h : Ideal.cmp .ogt x 0 = 1#1) :
    ∃ r : ℝ, 0 < r ∧ x = (r : EReal) := by
  obtain ⟨r, rfl⟩ := hf
  refine ⟨r, ?_, rfl⟩
  simp only [Ideal.cmp, StableHlo.Predicate.ofBool_eq_one_iff, decide_eq_true_eq] at h
  exact_mod_cast h

/-- A 32-bit word between 0 and 8190 as a signed number is, as a natural number, below 8191. -/
theorem word_range (w : BitVec 32) (h0 : IntOp.cmpi .sge w 0#32 = 1#1) (h1 : IntOp.cmpi .sle w 8190#32 = 1#1) :
    w.toNat < 8191 := by
  rw [IntOp.cmpi_sge] at h0
  rw [IntOp.cmpi_sle] at h1
  have e0 : (0#32 : BitVec 32).toInt = 0 := by decide
  have e1 : (8190#32 : BitVec 32).toInt = 8190 := by decide
  rw [e0] at h0; rw [e1] at h1
  rw [BitVec.toInt_eq_toNat_cond] at h0 h1
  have := w.isLt
  split at h0 <;> omega

end PreFacts

open PreFacts

open Cert.Pre_finite_inputs in
/-- The printed precondition, all ones, gives the three facts the bridge uses. -/
theorem of_pre [Cert.Pre_finite_inputs.Facts] (x s : FVec Ideal Cert.Pre_finite_inputs.S8192x512 .f32)
    (l : IVec Cert.Pre_finite_inputs.S8192 32)
    (h : Cert.Pre_finite_inputs.fn (F := Ideal) x s l = fun _ => 1#1) :
    FiniteX (matOf x) ∧ PosS (matOf s) ∧ ∃ ℓ : Fin 8192 → Fin 8191, Lab ℓ l := by
  -- the five tests, each at the result's one index
  have e := congrFun h ValueIdx.ix0
  dsimp only [Cert.Pre_finite_inputs.fn, Cert.Pre_finite_inputs.fn_part1] at e
  simp only [andi, IntOp.andi_eq_one] at e
  obtain ⟨⟨⟨⟨hx, hs⟩, hp⟩, hl0⟩, hl1⟩ := e
  -- each test at an entry
  have fx : ∀ i d, ∃ r : ℝ, x (ValueIdx.ix2 i d) = (r : EReal) := fun i d =>
    real_of_abs_lt_top _ (top_word ▸ Host.reduce_andi_all _ _ _ _ _ hx (ValueIdx.ix2 i d))
  have fs : ∀ i d, ∃ r : ℝ, s (ValueIdx.ix2 i d) = (r : EReal) := fun i d =>
    real_of_abs_lt_top _ (top_word ▸ Host.reduce_andi_all _ _ _ _ _ hs (ValueIdx.ix2 i d))
  have ps : ∀ i d, ∃ r : ℝ, 0 < r ∧ s (ValueIdx.ix2 i d) = (r : EReal) := fun i d =>
    pos_of_gt_zero _ (fs i d) (Ideal.ofBits_zero_f32 ▸ Host.reduce_andi_all _ _ _ _ _ hp (ValueIdx.ix2 i d))
  have rl : ∀ b : Fin 8192, (l (ValueIdx.ix1 b)).toNat < 8191 := fun b =>
    word_range _ (Host.reduce_andi_all _ _ _ _ _ hl0 (ValueIdx.ix1 b)) (Host.reduce_andi_all _ _ _ _ _ hl1 (ValueIdx.ix1 b))
  -- the label of row b is its word's value
  exact ⟨fx, ps, fun b => ⟨(l (ValueIdx.ix1 b)).toNat, rl b⟩, fun b => BitVec.eq_of_toNat_eq (by
    have := rl b
    simp only [BitVec.toNat_ofNat]; omega)⟩

end Cert.SkipSelf

end
-- ==== Proof.lean ====
/-
  The five claims of the certificate, assembled.  Both printings of the kernel and the reference run and leave their
  arguments unchanged; the one idealization names the mask constant `−∞`; and at the extended reals, under the
  precondition (real features, positive real variances, labels among the 8191 skip-self columns), the kernel ends at
  its form of the loss and of the skip-self matrix, the reference at its own form over the same arguments, and the
  two forms agree entry by entry (Proof/Algebra.lean).
-/
import proofs.«422816_j11381663334552_3_alg».proof.Defs
import proofs.«422816_j11381663334552_3_alg».proof.Proof.Gen.Kernel
import proofs.«422816_j11381663334552_3_alg».proof.Proof.Gen.Kernel.Skeleton
import proofs.«422816_j11381663334552_3_alg».proof.Proof.Gen.Kernel.Launch
import proofs.«422816_j11381663334552_3_alg».proof.Proof.Gen.Kernel.Points
import proofs.«422816_j11381663334552_3_alg».proof.Proof.Gen.Kernel.Frame
import proofs.«422816_j11381663334552_3_alg».proof.Proof.Gen.KernelIdeal
import proofs.«422816_j11381663334552_3_alg».proof.Proof.Gen.KernelIdeal.Skeleton
import proofs.«422816_j11381663334552_3_alg».proof.Proof.Gen.KernelIdeal.Launch
import proofs.«422816_j11381663334552_3_alg».proof.Proof.Gen.KernelIdeal.Points
import proofs.«422816_j11381663334552_3_alg».proof.Proof.Gen.KernelIdeal.Frame
import proofs.«422816_j11381663334552_3_alg».proof.Proof.Gen.ReferenceIdeal
import proofs.«422816_j11381663334552_3_alg».proof.Proof.Gen.Pre_finite_inputs
import proofs.«422816_j11381663334552_3_alg».proof.Proof.KernelValue
import proofs.«422816_j11381663334552_3_alg».proof.Proof.RefValue
import proofs.«422816_j11381663334552_3_alg».proof.Proof.Algebra
import proofs.«422816_j11381663334552_3_alg».proof.Proof.PreFacts
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged. -/
theorem frame_ri : Cert.frame_ReferenceIdeal := fun m ρ _ => Cert.SkipSelf.Ref.frame m ρ

/-- The one idealization: the mask constant is named `−∞`. -/
theorem preserves : Cert.preserves_Kernel_KernelIdeal :=
  IdealRules.named_const.statement Cert.KernelIdeal.κ "neg_big" .f32 0xF149F2CA#32 ⊥ rfl

open Cert.SkipSelf Cert.SkipSelf.Operands in
/-- Under the precondition the features are real, the variances positive real and the labels skip-self columns; the
    kernel then ends at its form of the loss and of the skip-self matrix, the reference at its own form over the same
    arguments, and the two forms agree. -/
theorem algebraic : Cert.algebraic_KernelIdeal_ReferenceIdeal := by
  intro m ρ m' ρ' hpre hagree
  have hfacts := fun c => Cert.SkipSelf.of_pre _ _ _ (hpre c)
  choose hX hS ℓ hℓ using hfacts
  refine ⟨_, _, Cert.SkipSelf.Kernel.run m ρ ℓ hℓ, ?_⟩
  have hℓ' : ∀ c : Dev Cert.ReferenceIdeal.nD, Lab (ℓ c)
      (m' ((c.tc : Thread Cert.ReferenceIdeal.nD Cert.ReferenceIdeal.τ).loc Cert.ReferenceIdeal.main_arg2)) :=
    fun c => by rw [(hagree c).2.2]; exact hℓ c
  refine (θ_run Cert.ReferenceIdeal.defs _ _).mono (fun r h c => ?_) (Cert.SkipSelf.Ref.run m' ρ' ℓ hℓ')
  obtain ⟨h65, h61, h0, h1, h2⟩ := h c
  refine ⟨h65.trans ?_, h61.trans ?_, h0, h1, h2⟩
  · rw [(hagree c).1, (hagree c).2.1]
    funext _
    exact (lossK_eq_lossR _ _ _ (hX c) (hS c)).symm
  · rw [(hagree c).1, (hagree c).2.1]
    funext y
    exact (logitK_eq_logitR _ _ _ (hX c) (hS c) (y 0) (y 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
